-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S200000x147 : Shape := ⟨2, ![200000, 147]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S100000x6 : Shape := ⟨2, ![100000, 6]⟩
abbrev S200000 : Shape := ⟨1, ![200000]⟩
abbrev S100000 : Shape := ⟨1, ![100000]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S200000x147 : S_.BroadcastsInDim S200000x147 (![] : Fin 0 → Fin S200000x147.rank)
  reducesTo_S200000x147_S_d0_1 : S200000x147.ReducesTo [0, 1] S_
  bcast_S_S147x300 : S_.BroadcastsInDim S147x300 (![] : Fin 0 → Fin S147x300.rank)
  reducesTo_S147x300_S_d0_1 : S147x300.ReducesTo [0, 1] S_
  bcast_S_S300x300 : S_.BroadcastsInDim S300x300 (![] : Fin 0 → Fin S300x300.rank)
  reducesTo_S300x300_S_d0_1 : S300x300.ReducesTo [0, 1] S_
  bcast_S_S433x300 : S_.BroadcastsInDim S433x300 (![] : Fin 0 → Fin S433x300.rank)
  reducesTo_S433x300_S_d0_1 : S433x300.ReducesTo [0, 1] S_
  bcast_S_S300 : S_.BroadcastsInDim S300 (![] : Fin 0 → Fin S300.rank)
  reducesTo_S300_S_d0 : S300.ReducesTo [0] S_
  bcast_S_S100000x6 : S_.BroadcastsInDim S100000x6 (![] : Fin 0 → Fin S100000x6.rank)
  reducesTo_S100000x6_S_d0_1 : S100000x6.ReducesTo [0, 1] S_
  bcast_S_S200000 : S_.BroadcastsInDim S200000 (![] : Fin 0 → Fin S200000.rank)
  reducesTo_S200000_S_d0 : S200000.ReducesTo [0] S_

variable [Facts]

def fn_part3 {F : FTy → Type} [FloatOps F] (main_arg8 : IVec S200000 32) (main_v48 : IVec S_ 1) (main_c_20 : IVec S_ 32) : IVec S_ 1 :=
  let main_v49 : IVec S200000 32 := broadcastInDim S200000 ![] bcast_S_S200000 main_c_20
  let main_v50 : IVec S200000 1 := cmpi .slt main_arg8 main_v49
  let main_c_21 : IVec S_ 1 := constantI S_ 1 1#1
  let main_v51 : IVec S_ 1 := (fun x v => Host.reduce IntOp.andi x v reducesTo_S200000_S_d0 h_S_) main_v50 main_c_21
  let main_v52 : IVec S_ 1 := andi main_v48 main_v51
  main_v52

def fn_part2 {F : FTy → Type} [FloatOps F] (main_arg6 : IVec S100000x6 32) (main_arg7 : IVec S200000 32) (main_arg8 : IVec S200000 32) (main_v32 : IVec S_ 1) (main_c_12 : IVec S_ 32) : IVec S_ 1 :=
  let main_v33 : IVec S100000x6 32 := broadcastInDim S100000x6 ![] bcast_S_S100000x6 main_c_12
  let main_v34 : IVec S100000x6 1 := cmpi .slt main_arg6 main_v33
  let main_c_13 : IVec S_ 1 := constantI S_ 1 1#1
  let main_v35 : IVec S_ 1 := (fun x v => Host.reduce IntOp.andi x v reducesTo_S100000x6_S_d0_1 h_S_) main_v34 main_c_13
  let main_v36 : IVec S_ 1 := andi main_v32 main_v35
  let main_c_14 : IVec S_ 32 := constantI S_ 32 0#32
  let main_v37 : IVec S200000 32 := broadcastInDim S200000 ![] bcast_S_S200000 main_c_14
  let main_v38 : IVec S200000 1 := cmpi .sge main_arg7 main_v37
  let main_c_15 : IVec S_ 1 := constantI S_ 1 1#1
  let main_v39 : IVec S_ 1 := (fun x v => Host.reduce IntOp.andi x v reducesTo_S200000_S_d0 h_S_) main_v38 main_c_15
  let main_v40 : IVec S_ 1 := andi main_v36 main_v39
  let main_c_16 : IVec S_ 32 := constantI S_ 32 100000#32
  let main_v41 : IVec S200000 32 := broadcastInDim S200000 ![] bcast_S_S200000 main_c_16
  let main_v42 : IVec S200000 1 := cmpi .slt main_arg7 main_v41
  let main_c_17 : IVec S_ 1 := constantI S_ 1 1#1
  let main_v43 : IVec S_ 1 := (fun x v => Host.reduce IntOp.andi x v reducesTo_S200000_S_d0 h_S_) main_v42 main_c_17
  let main_v44 : IVec S_ 1 := andi main_v40 main_v43
  let main_c_18 : IVec S_ 32 := constantI S_ 32 0#32
  let main_v45 : IVec S200000 32 := broadcastInDim S200000 ![] bcast_S_S200000 main_c_18
  let main_v46 : IVec S200000 1 := cmpi .sge main_arg8 main_v45
  let main_c_19 : IVec S_ 1 := constantI S_ 1 1#1
  let main_v47 : IVec S_ 1 := (fun x v => Host.reduce IntOp.andi x v reducesTo_S200000_S_d0 h_S_) main_v46 main_c_19
  let main_v48 : IVec S_ 1 := andi main_v44 main_v47
  let main_c_20 : IVec S_ 32 := constantI S_ 32 200000#32
  fn_part3 (F := F) main_arg8 main_v48 main_c_20

def fn_part1 {F : FTy → Type} [FloatOps F] (main_arg4 : FVec F S433x300 .f32) (main_arg5 : FVec F S300 .f32) (main_arg6 : IVec S100000x6 32) (main_arg7 : IVec S200000 32) (main_arg8 : IVec S200000 32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S433x300 .f32 := Host.absf main_arg4
  let main_cst_6 : FVec F S_ .f32 := constant S_ .f32 0x7F800000#32
  let main_v20 : FVec F S433x300 .f32 := broadcastInDim S433x300 ![] bcast_S_S433x300 main_cst_6
  let main_v21 : IVec S433x300 1 := cmpf .olt main_v19 main_v20
  let main_c_7 : IVec S_ 1 := constantI S_ 1 1#1
  let main_v22 : IVec S_ 1 := (fun x v => Host.reduce IntOp.andi x v reducesTo_S433x300_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_c_10 : IVec S_ 32 := constantI S_ 32 0#32
  let main_v29 : IVec S100000x6 32 := broadcastInDim S100000x6 ![] bcast_S_S100000x6 main_c_10
  let main_v30 : IVec S100000x6 1 := cmpi .sge main_arg6 main_v29
  let main_c_11 : IVec S_ 1 := constantI S_ 1 1#1
  let main_v31 : IVec S_ 1 := (fun x v => Host.reduce IntOp.andi x v reducesTo_S100000x6_S_d0_1 h_S_) main_v30 main_c_11
  let main_v32 : IVec S_ 1 := andi main_v28 main_v31
  let main_c_12 : IVec S_ 32 := constantI S_ 32 200000#32
  fn_part2 (F := F) main_arg6 main_arg7 main_arg8 main_v32 main_c_12

def fn {F : FTy → Type} [FloatOps F] (main_arg0 : FVec F S100000x133 .f32) (main_arg1 : FVec F S200000x147 .f32) (main_arg2 : FVec F S147x300 .f32) (main_arg3 : FVec F S300x300 .f32) (main_arg4 : FVec F S433x300 .f32) (main_arg5 : FVec F S300 .f32) (main_arg6 : IVec S100000x6 32) (main_arg7 : IVec S200000 32) (main_arg8 : IVec S200000 32) (main_arg9 : IVec S100000 32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S200000x147 .f32 := Host.absf main_arg1
  let main_cst_0 : FVec F S_ .f32 := constant S_ .f32 0x7F800000#32
  let main_v5 : FVec F S200000x147 .f32 := broadcastInDim S200000x147 ![] bcast_S_S200000x147 main_cst_0
  let main_v6 : IVec S200000x147 1 := cmpf .olt main_v4 main_v5
  let main_c_1 : IVec S_ 1 := constantI S_ 1 1#1
  let main_v7 : IVec S_ 1 := (fun x v => Host.reduce IntOp.andi x v reducesTo_S200000x147_S_d0_1 h_S_) main_v6 main_c_1
  let main_v8 : IVec S_ 1 := andi main_v3 main_v7
  let main_v9 : FVec F S147x300 .f32 := Host.absf main_arg2
  let main_cst_2 : FVec F S_ .f32 := constant S_ .f32 0x7F800000#32
  let main_v10 : FVec F S147x300 .f32 := broadcastInDim S147x300 ![] bcast_S_S147x300 main_cst_2
  let main_v11 : IVec S147x300 1 := cmpf .olt main_v9 main_v10
  let main_c_3 : IVec S_ 1 := constantI S_ 1 1#1
  let main_v12 : IVec S_ 1 := (fun x v => Host.reduce IntOp.andi x v reducesTo_S147x300_S_d0_1 h_S_) main_v11 main_c_3
  let main_v13 : IVec S_ 1 := andi main_v8 main_v12
  let main_v14 : FVec F S300x300 .f32 := Host.absf main_arg3
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg4 main_arg5 main_arg6 main_arg7 main_arg8 main_v13 main_v16
-- ==== Kernel.lean ====
abbrev S100000x133 : Shape := ⟨2, ![100000, 133]⟩
abbrev S200000x147 : Shape := ⟨2, ![200000, 147]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S100000x6 : Shape := ⟨2, ![100000, 6]⟩
abbrev S200000 : Shape := ⟨1, ![200000]⟩
abbrev S100000 : Shape := ⟨1, ![100000]⟩
abbrev S133x300 : Shape := ⟨2, ![133, 300]⟩
abbrev S200000x300 : Shape := ⟨2, ![200000, 300]⟩
abbrev S10000x147 : Shape := ⟨2, ![10000, 147]⟩
abbrev S10000x300 : Shape := ⟨2, ![10000, 300]⟩
abbrev S_ : Shape := ⟨0, ![]⟩
abbrev S100000x6x1 : Shape := ⟨3, ![100000, 6, 1]⟩
abbrev S1 : Shape := ⟨1, ![1]⟩
abbrev S1x1x1 : Shape := ⟨3, ![1, 1, 1]⟩
abbrev S100000x6x300 : Shape := ⟨3, ![100000, 6, 300]⟩
abbrev S100000x300 : Shape := ⟨2, ![100000, 300]⟩
abbrev S200000x1 : Shape := ⟨2, ![200000, 1]⟩
abbrev S1x1 : Shape := ⟨2, ![1, 1]⟩
abbrev S4000x300 : Shape := ⟨2, ![4000, 300]⟩
abbrev S1x300 : Shape := ⟨2, ![1, 300]⟩
abbrev S5000x133 : Shape := ⟨2, ![5000, 133]⟩
abbrev S5000x300 : Shape := ⟨2, ![5000, 300]⟩
abbrev S100000x1 : Shape := ⟨2, ![100000, 1]⟩
abbrev S5000 : Shape := ⟨1, ![5000]⟩
abbrev S5000x1 : Shape := ⟨2, ![5000, 1]⟩

abbrev nBuf : Space → Nat
  | .hbm => 218
  | .vmem => 32
  | .smem => 0
  | _ => 0

abbrev hbmTy0_0 (i : Nat) : BufTy := match i % 128 with
  | 0 => ⟨S100000x133, .f32⟩
  | 1 => ⟨S200000x147, .f32⟩
  | 2 => ⟨S147x300, .f32⟩
  | 3 => ⟨S300x300, .f32⟩
  | 4 => ⟨S433x300, .f32⟩
  | 5 => ⟨S300, .f32⟩
  | 6 => ⟨S100000x6, .i32⟩
  | 7 => ⟨S200000, .i32⟩
  | 8 => ⟨S200000, .i32⟩
  | 9 => ⟨S100000, .i32⟩
  | 10 => ⟨S147x300, .bf16⟩
  | 11 => ⟨S300x300, .bf16⟩
  | 12 => ⟨S133x300, .f32⟩
  | 13 => ⟨S133x300, .bf16⟩
  | 14 => ⟨S300x300, .f32⟩
  | 15 => ⟨S300x300, .bf16⟩
  | 16 => ⟨S200000x300, .f32⟩
  | 17 => ⟨S_, .i32⟩
  | 18 => ⟨S100000x6, .i32⟩
  | 19 => ⟨S100000x6, .i1⟩
  | 20 => ⟨S_, .i32⟩
  | 21 => ⟨S100000x6, .i32⟩
  | 22 => ⟨S100000x6, .i32⟩
  | 23 => ⟨S100000x6, .i32⟩
  | 24 => ⟨S100000x6x1, .i32⟩
  | 25 => ⟨S1, .i32⟩
  | 26 => ⟨S_, .i32⟩
  | 27 => ⟨S100000x6x1, .i32⟩
  | 28 => ⟨S100000x6x1, .i1⟩
  | 29 => ⟨S1x1x1, .i32⟩
  | 30 => ⟨S100000x6x1, .i32⟩
  | 31 => ⟨S100000x6x1, .i1⟩
  | 32 => ⟨S100000x6x1, .i1⟩
  | 33 => ⟨S_, .i1⟩
  | 34 => ⟨S100000x6, .i1⟩
  | 35 => ⟨S100000x6x300, .f32⟩
  | 36 => ⟨S100000x6x300, .i1⟩
  | 37 => ⟨S_, .f32⟩
  | 38 => ⟨S100000x6x300, .f32⟩
  | 39 => ⟨S100000x6x300, .f32⟩
  | 40 => ⟨S_, .f32⟩
  | 41 => ⟨S100000x6x300, .f32⟩
  | 42 => ⟨S100000x6x300, .f32⟩
  | 43 => ⟨S_, .f32⟩
  | 44 => ⟨S100000x300, .f32⟩
  | 45 => ⟨S_, .i32⟩
  | 46 => ⟨S200000, .i32⟩
  | 47 => ⟨S200000, .i1⟩
  | 48 => ⟨S_, .i32⟩
  | 49 => ⟨S200000, .i32⟩
  | 50 => ⟨S200000, .i32⟩
  | 51 => ⟨S200000, .i32⟩
  | 52 => ⟨S200000x1, .i32⟩
  | 53 => ⟨S1, .i32⟩
  | 54 => ⟨S_, .i32⟩
  | 55 => ⟨S200000x1, .i32⟩
  | 56 => ⟨S200000x1, .i1⟩
  | 57 => ⟨S1x1, .i32⟩
  | 58 => ⟨S200000x1, .i32⟩
  | 59 => ⟨S200000x1, .i1⟩
  | 60 => ⟨S200000x1, .i1⟩
  | 61 => ⟨S_, .i1⟩
  | 62 => ⟨S200000, .i1⟩
  | 63 => ⟨S200000x300, .f32⟩
  | 64 => ⟨S200000x300, .i1⟩
  | 65 => ⟨S_, .f32⟩
  | 66 => ⟨S200000x300, .f32⟩
  | 67 => ⟨S200000x300, .f32⟩
  | 68 => ⟨S_, .f32⟩
  | 69 => ⟨S200000x300, .f32⟩
  | 70 => ⟨S200000x300, .f32⟩
  | 71 => ⟨S_, .i32⟩
  | 72 => ⟨S200000, .i32⟩
  | 73 => ⟨S200000, .i1⟩
  | 74 => ⟨S_, .i32⟩
  | 75 => ⟨S200000, .i32⟩
  | 76 => ⟨S200000, .i32⟩
  | 77 => ⟨S200000, .i32⟩
  | 78 => ⟨S200000x1, .i32⟩
  | 79 => ⟨S1, .i32⟩
  | 80 => ⟨S_, .i32⟩
  | 81 => ⟨S200000x1, .i32⟩
  | 82 => ⟨S200000x1, .i1⟩
  | 83 => ⟨S1x1, .i32⟩
  | 84 => ⟨S200000x1, .i32⟩
  | 85 => ⟨S200000x1, .i1⟩
  | 86 => ⟨S200000x1, .i1⟩
  | 87 => ⟨S_, .i1⟩
  | 88 => ⟨S200000, .i1⟩
  | 89 => ⟨S200000x300, .f32⟩
  | 90 => ⟨S200000x300, .i1⟩
  | 91 => ⟨S_, .f32⟩
  | 92 => ⟨S200000x300, .f32⟩
  | 93 => ⟨S200000x300, .f32⟩
  | 94 => ⟨S200000x300, .f32⟩
  | 95 => ⟨S_, .i32⟩
  | 96 => ⟨S100000x6, .i32⟩
  | 97 => ⟨S100000x6, .i1⟩
  | 98 => ⟨S_, .i32⟩
  | 99 => ⟨S100000x6, .i32⟩
  | 100 => ⟨S100000x6, .i32⟩
  | 101 => ⟨S100000x6, .i32⟩
  | 102 => ⟨S100000x6x1, .i32⟩
  | 103 => ⟨S1, .i32⟩
  | 104 => ⟨S_, .i32⟩
  | 105 => ⟨S100000x6x1, .i32⟩
  | 106 => ⟨S100000x6x1, .i1⟩
  | 107 => ⟨S1x1x1, .i32⟩
  | 108 => ⟨S100000x6x1, .i32⟩
  | 109 => ⟨S100000x6x1, .i1⟩
  | 110 => ⟨S100000x6x1, .i1⟩
  | 111 => ⟨S_, .i1⟩
  | 112 => ⟨S100000x6, .i1⟩
  | 113 => ⟨S100000x6x300, .f32⟩
  | 114 => ⟨S100000x6x300, .i1⟩
  | 115 => ⟨S_, .f32⟩
  | 116 => ⟨S100000x6x300, .f32⟩
  | 117 => ⟨S100000x6x300, .f32⟩
  | 118 => ⟨S_, .f32⟩
  | 119 => ⟨S100000x300, .f32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S100000x133, .f32⟩

abbrev hbmTy0_1 (i : Nat) : BufTy := match i % 128 with
  | 0 => ⟨S1, .i32⟩
  | 1 => ⟨S_, .i32⟩
  | 2 => ⟨S200000x1, .i32⟩
  | 3 => ⟨S200000x1, .i1⟩
  | 4 => ⟨S1x1, .i32⟩
  | 5 => ⟨S200000x1, .i32⟩
  | 6 => ⟨S200000x1, .i1⟩
  | 7 => ⟨S200000x1, .i1⟩
  | 8 => ⟨S_, .i1⟩
  | 9 => ⟨S200000, .i1⟩
  | 10 => ⟨S200000x300, .f32⟩
  | 11 => ⟨S200000x300, .i1⟩
  | 12 => ⟨S_, .f32⟩
  | 13 => ⟨S200000x300, .f32⟩
  | 14 => ⟨S200000x300, .f32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S1, .i32⟩
  | 24 => ⟨S_, .i32⟩
  | 25 => ⟨S200000x1, .i32⟩
  | 26 => ⟨S200000x1, .i1⟩
  | 27 => ⟨S1x1, .i32⟩
  | 28 => ⟨S200000x1, .i32⟩
  | 29 => ⟨S200000x1, .i1⟩
  | 30 => ⟨S200000x1, .i1⟩
  | 31 => ⟨S_, .i1⟩
  | 32 => ⟨S200000, .i1⟩
  | 33 => ⟨S200000x300, .f32⟩
  | 34 => ⟨S200000x300, .i1⟩
  | 35 => ⟨S_, .f32⟩
  | 36 => ⟨S200000x300, .f32⟩
  | 37 => ⟨S200000x300, .f32⟩
  | 38 => ⟨S200000x300, .f32⟩
  | 39 => ⟨S_, .i32⟩
  | 40 => ⟨S100000x6, .i32⟩
  | 41 => ⟨S100000x6, .i1⟩
  | 42 => ⟨S_, .i32⟩
  | 43 => ⟨S100000x6, .i32⟩
  | 44 => ⟨S100000x6, .i32⟩
  | 45 => ⟨S100000x6, .i32⟩
  | 46 => ⟨S100000x6x1, .i32⟩
  | 47 => ⟨S1, .i32⟩
  | 48 => ⟨S_, .i32⟩
  | 49 => ⟨S100000x6x1, .i32⟩
  | 50 => ⟨S100000x6x1, .i1⟩
  | 51 => ⟨S1x1x1, .i32⟩
  | 52 => ⟨S100000x6x1, .i32⟩
  | 53 => ⟨S100000x6x1, .i1⟩
  | 54 => ⟨S100000x6x1, .i1⟩
  | 55 => ⟨S_, .i1⟩
  | 56 => ⟨S100000x6, .i1⟩
  | 57 => ⟨S100000x6x300, .f32⟩
  | 58 => ⟨S100000x6x300, .i1⟩
  | 59 => ⟨S_, .f32⟩
  | 60 => ⟨S100000x6x300, .f32⟩
  | 61 => ⟨S100000x6x300, .f32⟩
  | 62 => ⟨S_, .f32⟩
  | 63 => ⟨S100000x300, .f32⟩
  | 64 => ⟨S1x300, .f32⟩
  | 65 => ⟨S100000x300, .f32⟩
  | 66 => ⟨S_, .f32⟩
  | 67 => ⟨S5000x300, .f32⟩
  | 68 => ⟨S100000x1, .i32⟩
  | 69 => ⟨S5000x300, .f32⟩
  | 70 => ⟨S_, .f32⟩
  | 71 => ⟨S100000, .f32⟩
  | 72 => ⟨S_, .f32⟩
  | 73 => ⟨S5000, .f32⟩
  | 74 => ⟨S100000x1, .i32⟩
  | 75 => ⟨S5000, .f32⟩
  | 76 => ⟨S5000x1, .f32⟩
  | 77 => ⟨S_, .f32⟩
  | 78 => ⟨S5000x1, .f32⟩
  | 79 => ⟨S5000x1, .i1⟩
  | 80 => ⟨S_, .f32⟩
  | 81 => ⟨S5000, .f32⟩
  | 82 => ⟨S5000, .f32⟩
  | 83 => ⟨S5000x1, .f32⟩
  | 84 => ⟨S5000x300, .f32⟩
  | 85 => ⟨S5000x300, .f32⟩
  | 86 => ⟨S_, .f32⟩
  | 87 => ⟨S5000x300, .f32⟩
  | 88 => ⟨S5000x300, .i1⟩
  | 89 => ⟨S5000x300, .f32⟩
  | _ => ⟨S100000x133, .f32⟩

abbrev hbmTy (i : Nat) : BufTy := match i / 128 with
  | 0 => hbmTy0_0 i
  | 1 => hbmTy0_1 i
  | _ => ⟨S100000x133, .f32⟩

abbrev bufTy : (tb : Table) → Fin (tcTables nBuf tb) → BufTy
  | .hbm, ⟨i, _⟩ => hbmTy i
  | .local _ .vmem, ⟨0, _⟩ => ⟨S10000x147, .f32⟩
  | .local _ .vmem, ⟨1, _⟩ => ⟨S10000x147, .f32⟩
  | .local _ .vmem, ⟨2, _⟩ => ⟨S147x300, .bf16⟩
  | .local _ .vmem, ⟨3, _⟩ => ⟨S10000x300, .f32⟩
  | .local _ .vmem, ⟨4, _⟩ => ⟨S10000x300, .f32⟩
  | .local _ .vmem, ⟨5, _⟩ => ⟨S4000x300, .f32⟩
  | .local _ .vmem, ⟨6, _⟩ => ⟨S4000x300, .f32⟩
  | .local _ .vmem, ⟨7, _⟩ => ⟨S4000x300, .f32⟩
  | .local _ .vmem, ⟨8, _⟩ => ⟨S4000x300, .f32⟩
  | .local _ .vmem, ⟨9, _⟩ => ⟨S300x300, .bf16⟩
  | .local _ .vmem, ⟨10, _⟩ => ⟨S4000x300, .f32⟩
  | .local _ .vmem, ⟨11, _⟩ => ⟨S4000x300, .f32⟩
  | .local _ .vmem, ⟨12, _⟩ => ⟨S4000x300, .f32⟩
  | .local _ .vmem, ⟨13, _⟩ => ⟨S4000x300, .f32⟩
  | .local _ .vmem, ⟨14, _⟩ => ⟨S4000x300, .f32⟩
  | .local _ .vmem, ⟨15, _⟩ => ⟨S4000x300, .f32⟩
  | .local _ .vmem, ⟨16, _⟩ => ⟨S4000x300, .f32⟩
  | .local _ .vmem, ⟨17, _⟩ => ⟨S4000x300, .f32⟩
  | .local _ .vmem, ⟨18, _⟩ => ⟨S300x300, .bf16⟩
  | .local _ .vmem, ⟨19, _⟩ => ⟨S4000x300, .f32⟩
  | .local _ .vmem, ⟨20, _⟩ => ⟨S4000x300, .f32⟩
  | .local _ .vmem, ⟨21, _⟩ => ⟨S4000x300, .f32⟩
  | .local _ .vmem, ⟨22, _⟩ => ⟨S4000x300, .f32⟩
  | .local _ .vmem, ⟨23, _⟩ => ⟨S5000x133, .f32⟩
  | .local _ .vmem, ⟨24, _⟩ => ⟨S5000x133, .f32⟩
  | .local _ .vmem, ⟨25, _⟩ => ⟨S5000x300, .f32⟩
  | .local _ .vmem, ⟨26, _⟩ => ⟨S5000x300, .f32⟩
  | .local _ .vmem, ⟨27, _⟩ => ⟨S133x300, .bf16⟩
  | .local _ .vmem, ⟨28, _⟩ => ⟨S300x300, .bf16⟩
  | .local _ .vmem, ⟨29, _⟩ => ⟨S1x300, .f32⟩
  | .local _ .vmem, ⟨30, _⟩ => ⟨S5000x300, .f32⟩
  | .local _ .vmem, ⟨31, _⟩ => ⟨S5000x300, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v7 : Ref sig .tc := ⟨.hbm, 39, rfl⟩
abbrev main_call1_cst : Ref sig .tc := ⟨.hbm, 40, rfl⟩
abbrev main_call1_v0 : Ref sig .tc := ⟨.hbm, 41, rfl⟩
abbrev main_v8 : Ref sig .tc := ⟨.hbm, 42, rfl⟩
abbrev main_cst : Ref sig .tc := ⟨.hbm, 43, rfl⟩
abbrev main_v9 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_call2_cst : Ref sig .tc := ⟨.hbm, 65, rfl⟩
abbrev main_call2_v15 : Ref sig .tc := ⟨.hbm, 66, rfl⟩
abbrev main_v10 : Ref sig .tc := ⟨.hbm, 67, rfl⟩
abbrev main_call3_cst : Ref sig .tc := ⟨.hbm, 68, rfl⟩
abbrev main_call3_v0 : Ref sig .tc := ⟨.hbm, 69, rfl⟩
abbrev main_v11 : Ref sig .tc := ⟨.hbm, 70, rfl⟩
abbrev main_call4_c : Ref sig .tc := ⟨.hbm, 71, rfl⟩
abbrev main_call4_v0 : Ref sig .tc := ⟨.hbm, 72, rfl⟩
abbrev main_call4_v1 : Ref sig .tc := ⟨.hbm, 73, rfl⟩
abbrev main_call4_c_0 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_c_1 : Ref sig .tc := ⟨.hbm, 79, rfl⟩
abbrev main_call4_c_2 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_c_3 : Ref sig .tc := ⟨.hbm, 87, rfl⟩
abbrev main_call4_v12 : Ref sig .tc := ⟨.hbm, 88, rfl⟩
abbrev main_call4_v13 : Ref sig .tc := ⟨.hbm, 89, rfl⟩
abbrev main_call4_v14 : Ref sig .tc := ⟨.hbm, 90, rfl⟩
abbrev main_call4_cst : Ref sig .tc := ⟨.hbm, 91, rfl⟩
abbrev main_call4_v15 : Ref sig .tc := ⟨.hbm, 92, rfl⟩
abbrev main_v12 : Ref sig .tc := ⟨.hbm, 93, rfl⟩
abbrev main_v13 : Ref sig .tc := ⟨.hbm, 94, rfl⟩
abbrev main_call5_c : Ref sig .tc := ⟨.hbm, 95, rfl⟩
abbrev main_call5_v0 : Ref sig .tc := ⟨.hbm, 96, rfl⟩
abbrev main_call5_v1 : Ref sig .tc := ⟨.hbm, 97, rfl⟩
abbrev main_call5_c_0 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_v5 : Ref sig .tc := ⟨.hbm, 102, rfl⟩
abbrev main_call5_c_1 : Ref sig .tc := ⟨.hbm, 103, rfl⟩
abbrev main_call5_c_2 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_v9 : Ref sig .tc := ⟨.hbm, 108, rfl⟩
abbrev main_call5_v10 : Ref sig .tc := ⟨.hbm, 109, rfl⟩
abbrev main_call5_v11 : Ref sig .tc := ⟨.hbm, 110, rfl⟩
abbrev main_call5_c_3 : Ref sig .tc := ⟨.hbm, 111, rfl⟩
abbrev main_call5_v12 : Ref sig .tc := ⟨.hbm, 112, rfl⟩
abbrev main_call5_v13 : Ref sig .tc := ⟨.hbm, 113, rfl⟩
abbrev main_call5_v14 : Ref sig .tc := ⟨.hbm, 114, rfl⟩
abbrev main_call5_cst : Ref sig .tc := ⟨.hbm, 115, rfl⟩
abbrev main_call5_v15 : Ref sig .tc := ⟨.hbm, 116, rfl⟩
abbrev main_v14 : Ref sig .tc := ⟨.hbm, 117, rfl⟩
abbrev main_cst_0 : Ref sig .tc := ⟨.hbm, 118, rfl⟩
abbrev main_v15 : Ref sig .tc := ⟨.hbm, 119, rfl⟩
abbrev main_call6_c : Ref sig .tc := ⟨.hbm, 120, rfl⟩
abbrev main_call6_v0 : Ref sig .tc := ⟨.hbm, 121, rfl⟩
abbrev main_call6_v1 : Ref sig .tc := ⟨.hbm, 122, rfl⟩
abbrev main_call6_c_0 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_call6_v5 : Ref sig .tc := ⟨.hbm, 127, rfl⟩
abbrev main_call6_c_1 : Ref sig .tc := ⟨.hbm, 128, rfl⟩
abbrev main_call6_c_2 : Ref sig .tc := ⟨.hbm, 129, rfl⟩
abbrev main_call6_v6 : Ref sig .tc := ⟨.hbm, 130, rfl⟩
abbrev main_call6_v7 : Ref sig .tc := ⟨.hbm, 131, rfl⟩
abbrev main_call6_v8 : Ref sig .tc := ⟨.hbm, 132, rfl⟩
abbrev main_call6_v9 : Ref sig .tc := ⟨.hbm, 133, rfl⟩
abbrev main_call6_v10 : Ref sig .tc := ⟨.hbm, 134, rfl⟩
abbrev main_call6_v11 : Ref sig .tc := ⟨.hbm, 135, rfl⟩
abbrev main_call6_c_3 : Ref sig .tc := ⟨.hbm, 136, rfl⟩
abbrev main_call6_v12 : Ref sig .tc := ⟨.hbm, 137, rfl⟩
abbrev main_call6_v13 : Ref sig .tc := ⟨.hbm, 138, rfl⟩
abbrev main_call6_v14 : Ref sig .tc := ⟨.hbm, 139, rfl⟩
abbrev main_call6_cst : Ref sig .tc := ⟨.hbm, 140, rfl⟩
abbrev main_call6_v15 : Ref sig .tc := ⟨.hbm, 141, rfl⟩
abbrev main_v16 : Ref sig .tc := ⟨.hbm, 142, rfl⟩
abbrev main_call7_c : Ref sig .tc := ⟨.hbm, 143, rfl⟩
abbrev main_call7_v0 : Ref sig .tc := ⟨.hbm, 144, rfl⟩
abbrev main_call7_v1 : Ref sig .tc := ⟨.hbm, 145, rfl⟩
abbrev main_call7_c_0 : Ref sig .tc := ⟨.hbm, 146, rfl⟩
abbrev main_call7_v2 : Ref sig .tc := ⟨.hbm, 147, rfl⟩
abbrev main_call7_v3 : Ref sig .tc := ⟨.hbm, 148, rfl⟩
abbrev main_call7_v4 : Ref sig .tc := ⟨.hbm, 149, rfl⟩
abbrev main_call7_v5 : Ref sig .tc := ⟨.hbm, 150, rfl⟩
abbrev main_call7_c_1 : Ref sig .tc := ⟨.hbm, 151, rfl⟩
abbrev main_call7_c_2 : Ref sig .tc := ⟨.hbm, 152, rfl⟩
abbrev main_call7_v6 : Ref sig .tc := ⟨.hbm, 153, rfl⟩
abbrev main_call7_v7 : Ref sig .tc := ⟨.hbm, 154, rfl⟩
abbrev main_call7_v8 : Ref sig .tc := ⟨.hbm, 155, rfl⟩
abbrev main_call7_v9 : Ref sig .tc := ⟨.hbm, 156, rfl⟩
abbrev main_call7_v10 : Ref sig .tc := ⟨.hbm, 157, rfl⟩
abbrev main_call7_v11 : Ref sig .tc := ⟨.hbm, 158, rfl⟩
abbrev main_call7_c_3 : Ref sig .tc := ⟨.hbm, 159, rfl⟩
abbrev main_call7_v12 : Ref sig .tc := ⟨.hbm, 160, rfl⟩
abbrev main_call7_v13 : Ref sig .tc := ⟨.hbm, 161, rfl⟩
abbrev main_call7_v14 : Ref sig .tc := ⟨.hbm, 162, rfl⟩
abbrev main_call7_cst : Ref sig .tc := ⟨.hbm, 163, rfl⟩
abbrev main_call7_v15 : Ref sig .tc := ⟨.hbm, 164, rfl⟩
abbrev main_v17 : Ref sig .tc := ⟨.hbm, 165, rfl⟩
abbrev main_v18 : Ref sig .tc := ⟨.hbm, 166, rfl⟩
abbrev main_call8_c : Ref sig .tc := ⟨.hbm, 167, rfl⟩
abbrev main_call8_v0 : Ref sig .tc := ⟨.hbm, 168, rfl⟩
abbrev main_call8_v1 : Ref sig .tc := ⟨.hbm, 169, rfl⟩
abbrev main_call8_c_0 : Ref sig .tc := ⟨.hbm, 170, rfl⟩
abbrev main_call8_v2 : Ref sig .tc := ⟨.hbm, 171, rfl⟩
abbrev main_call8_v3 : Ref sig .tc := ⟨.hbm, 172, rfl⟩
abbrev main_call8_v4 : Ref sig .tc := ⟨.hbm, 173, rfl⟩
abbrev main_call8_v5 : Ref sig .tc := ⟨.hbm, 174, rfl⟩
abbrev main_call8_c_1 : Ref sig .tc := ⟨.hbm, 175, rfl⟩
abbrev main_call8_c_2 : Ref sig .tc := ⟨.hbm, 176, rfl⟩
abbrev main_call8_v6 : Ref sig .tc := ⟨.hbm, 177, rfl⟩
abbrev main_call8_v7 : Ref sig .tc := ⟨.hbm, 178, rfl⟩
abbrev main_call8_v8 : Ref sig .tc := ⟨.hbm, 179, rfl⟩
abbrev main_call8_v9 : Ref sig .tc := ⟨.hbm, 180, rfl⟩
abbrev main_call8_v10 : Ref sig .tc := ⟨.hbm, 181, rfl⟩
abbrev main_call8_v11 : Ref sig .tc := ⟨.hbm, 182, rfl⟩
abbrev main_call8_c_3 : Ref sig .tc := ⟨.hbm, 183, rfl⟩
abbrev main_call8_v12 : Ref sig .tc := ⟨.hbm, 184, rfl⟩
abbrev main_call8_v13 : Ref sig .tc := ⟨.hbm, 185, rfl⟩
abbrev main_call8_v14 : Ref sig .tc := ⟨.hbm, 186, rfl⟩
abbrev main_call8_cst : Ref sig .tc := ⟨.hbm, 187, rfl⟩
abbrev main_call8_v15 : Ref sig .tc := ⟨.hbm, 188, rfl⟩
abbrev main_v19 : Ref sig .tc := ⟨.hbm, 189, rfl⟩
abbrev main_cst_1 : Ref sig .tc := ⟨.hbm, 190, rfl⟩
abbrev main_v20 : Ref sig .tc := ⟨.hbm, 191, rfl⟩
abbrev main_v21 : Ref sig .tc := ⟨.hbm, 192, rfl⟩
abbrev main_v22 : Ref sig .tc := ⟨.hbm, 193, rfl⟩
abbrev main_cst_2 : Ref sig .tc := ⟨.hbm, 194, rfl⟩
abbrev main_v23 : Ref sig .tc := ⟨.hbm, 195, rfl⟩
abbrev main_v24 : Ref sig .tc := ⟨.hbm, 196, rfl⟩
abbrev main_v25 : Ref sig .tc := ⟨.hbm, 197, rfl⟩
abbrev main_cst_3 : Ref sig .tc := ⟨.hbm, 198, rfl⟩
abbrev main_v26 : Ref sig .tc := ⟨.hbm, 199, rfl⟩
abbrev main_cst_4 : Ref sig .tc := ⟨.hbm, 200, rfl⟩
abbrev main_v27 : Ref sig .tc := ⟨.hbm, 201, rfl⟩
abbrev main_v28 : Ref sig .tc := ⟨.hbm, 202, rfl⟩
abbrev main_v29 : Ref sig .tc := ⟨.hbm, 203, rfl⟩
abbrev main_v30 : Ref sig .tc := ⟨.hbm, 204, rfl⟩
abbrev main_cst_5 : Ref sig .tc := ⟨.hbm, 205, rfl⟩
abbrev main_v31 : Ref sig .tc := ⟨.hbm, 206, rfl⟩
abbrev main_v32 : Ref sig .tc := ⟨.hbm, 207, rfl⟩
abbrev main_cst_6 : Ref sig .tc := ⟨.hbm, 208, rfl⟩
abbrev main_v33 : Ref sig .tc := ⟨.hbm, 209, rfl⟩
abbrev main_v34 : Ref sig .tc := ⟨.hbm, 210, rfl⟩
abbrev main_v35 : Ref sig .tc := ⟨.hbm, 211, rfl⟩
abbrev main_v36 : Ref sig .tc := ⟨.hbm, 212, rfl⟩
abbrev main_v37 : Ref sig .tc := ⟨.hbm, 213, rfl⟩
abbrev main_cst_7 : Ref sig .tc := ⟨.hbm, 214, rfl⟩
abbrev main_v38 : Ref sig .tc := ⟨.hbm, 215, rfl⟩
abbrev main_call9_v0 : Ref sig .tc := ⟨.hbm, 216, rfl⟩
abbrev main_v39 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x300 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x300 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x300 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S300x300 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bitsLt_bf16_f32 : FTy.bits .bf16 < FTy.bits .f32
  slices_S433x300_S133x300_0_0 : S433x300.Slices ![0, 0] S133x300
  slices_S433x300_S300x300_133_0 : S433x300.Slices ![133, 0] S300x300
  inb_S10000x147_S10000x147_0_0 : ∀ a, (![0, 0] : Fin 2 → Nat) a + S10000x147.size a ≤ S10000x147.size a
  h_S10000x147 : 0 < S10000x147.numel
  inb_S147x300_S147x300_0_0 : ∀ a, (![0, 0] : Fin 2 → Nat) a + S147x300.size a ≤ S147x300.size a
  h_S147x300 : 0 < S147x300.numel
  shapeCasts_S147x300_S147x300 : S147x300.ShapeCasts S147x300
  inb_S10000x300_S10000x300_0_0 : ∀ a, (![0, 0] : Fin 2 → Nat) a + S10000x300.size a ≤ S10000x300.size a
  h_S10000x300 : 0 < S10000x300.numel
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  bcast_S_S100000x6x1 : S_.BroadcastsInDim S100000x6x1 (![] : Fin 0 → Fin S100000x6x1.rank)
  bcast_S1_S1x1x1_2 : S1.BroadcastsInDim S1x1x1 (![2] : Fin 1 → Fin S1x1x1.rank)
  bcast_S1x1x1_S100000x6x1_0_1_2 : S1x1x1.BroadcastsInDim S100000x6x1 (![0, 1, 2] : Fin 3 → Fin S100000x6x1.rank)
  reducesTo_S100000x6x1_S100000x6_d2 : S100000x6x1.ReducesTo [2] S100000x6
  h_S_ : 0 < S_.numel
  bcast_S100000x6_S100000x6x300_0_1 : S100000x6.BroadcastsInDim S100000x6x300 (![0, 1] : Fin 2 → Fin S100000x6x300.rank)
  bcast_S_S100000x6x300 : S_.BroadcastsInDim S100000x6x300 (![] : Fin 0 → Fin S100000x6x300.rank)
  reducesTo_S100000x6x300_S100000x300_d1 : S100000x6x300.ReducesTo [1] S100000x300
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x300_0 : S200000.BroadcastsInDim S200000x300 (![0] : Fin 1 → Fin S200000x300.rank)
  bcast_S_S200000x300 : S_.BroadcastsInDim S200000x300 (![] : Fin 0 → Fin S200000x300.rank)
  inb_S4000x300_S4000x300_0_0 : ∀ a, (![0, 0] : Fin 2 → Nat) a + S4000x300.size a ≤ S4000x300.size a
  h_S4000x300 : 0 < S4000x300.numel
  shapeCasts_S4000x300_S4000x300 : S4000x300.ShapeCasts S4000x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  shapeCasts_S300_S1x300 : S300.ShapeCasts S1x300
  inb_S5000x133_S5000x133_0_0 : ∀ a, (![0, 0] : Fin 2 → Nat) a + S5000x133.size a ≤ S5000x133.size a
  h_S5000x133 : 0 < S5000x133.numel
  inb_S5000x300_S5000x300_0_0 : ∀ a, (![0, 0] : Fin 2 → Nat) a + S5000x300.size a ≤ S5000x300.size a
  h_S5000x300 : 0 < S5000x300.numel
  shapeCasts_S5000x300_S5000x300 : S5000x300.ShapeCasts S5000x300
  inb_S133x300_S133x300_0_0 : ∀ a, (![0, 0] : Fin 2 → Nat) a + S133x300.size a ≤ S133x300.size a
  h_S133x300 : 0 < S133x300.numel
  shapeCasts_S133x300_S133x300 : S133x300.ShapeCasts S133x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S5000x300 : S1x300.Broadcasts S5000x300
  bcast_S_S5000x300 : S_.BroadcastsInDim S5000x300 (![] : Fin 0 → Fin S5000x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  bcast_S_S5000x1 : S_.BroadcastsInDim S5000x1 (![] : Fin 0 → Fin S5000x1.rank)
  bcast_S5000x1_S5000x300_0_1 : S5000x1.BroadcastsInDim S5000x300 (![0, 1] : Fin 2 → Fin S5000x300.rank)
  dot_S10000x147_S147x300_S10000x300_1_0_0_1_n_n_wf : DotDims.WF S10000x147 S147x300 S10000x300 [1] [0] [0] [1] [] []
  gather_S200000x300_S100000x6x1_S100000x6x300_2_0_n_n_0_2_1300_wf : GatherDims.WF S200000x300 S100000x6x1 S100000x6x300 [2] [0] [] [0] [] 2 ![1, 300]
  gather_S200000x300_S200000x1_S200000x300_1_0_n_n_0_1_1300_wf : GatherDims.WF S200000x300 S200000x1 S200000x300 [1] [0] [] [0] [] 1 ![1, 300]
  gather_S100000x300_S200000x1_S200000x300_1_0_n_n_0_1_1300_wf : GatherDims.WF S100000x300 S200000x1 S200000x300 [1] [0] [] [0] [] 1 ![1, 300]
  dot_S4000x300_S300x300_S4000x300_1_0_0_1_n_n_wf : DotDims.WF S4000x300 S300x300 S4000x300 [1] [0] [0] [1] [] []
  dot_S5000x133_S133x300_S5000x300_1_0_0_1_n_n_wf : DotDims.WF S5000x133 S133x300 S5000x300 [1] [0] [0] [1] [] []
  dot_S5000x300_S300x300_S5000x300_1_0_0_1_n_n_wf : DotDims.WF S5000x300 S300x300 S5000x300 [1] [0] [0] [1] [] []
  scatter_S5000x300_S100000x1_S100000x300_1_0_0_1_wf : ScatterDims.WF S5000x300 S100000x1 S100000x300 [1] [0] [0] 1
  scatter_S5000_S100000x1_S100000_n_0_0_1_wf : ScatterDims.WF S5000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x147.size a ≤ S200000x147.size a
  hwx0_0 : ∀ i : grid0.Coords, EltTy.bits .f32 = 32 ∨ (Rect.block (s := S200000x147) S10000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .bf16 = 32 ∨ (Rect.block (s := S147x300) S147x300.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x300.size a ≤ S200000x300.size a
  hwx0_2 : ∀ i : grid0.Coords, EltTy.bits .f32 = 32 ∨ (Rect.block (s := S200000x300) S10000x300.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x300.size a ≤ S200000x300.size a
  hwx1_0 : ∀ i : grid1.Coords, EltTy.bits .f32 = 32 ∨ (Rect.block (s := S200000x300) S4000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x300.size a ≤ S200000x300.size a
  hwx1_1 : ∀ i : grid1.Coords, EltTy.bits .f32 = 32 ∨ (Rect.block (s := S200000x300) S4000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .bf16 = 32 ∨ (Rect.block (s := S300x300) S300x300.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x300.size a ≤ S200000x300.size a
  hwx1_3 : ∀ i : grid1.Coords, EltTy.bits .f32 = 32 ∨ (Rect.block (s := S200000x300) S4000x300.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x300.size a ≤ S200000x300.size a
  hwx1_4 : ∀ i : grid1.Coords, EltTy.bits .f32 = 32 ∨ (Rect.block (s := S200000x300) S4000x300.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x300.size a ≤ S200000x300.size a
  hwx2_0 : ∀ i : grid2.Coords, EltTy.bits .f32 = 32 ∨ (Rect.block (s := S200000x300) S4000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x300.size a ≤ S200000x300.size a
  hwx2_1 : ∀ i : grid2.Coords, EltTy.bits .f32 = 32 ∨ (Rect.block (s := S200000x300) S4000x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .bf16 = 32 ∨ (Rect.block (s := S300x300) S300x300.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x300.size a ≤ S200000x300.size a
  hwx2_3 : ∀ i : grid2.Coords, EltTy.bits .f32 = 32 ∨ (Rect.block (s := S200000x300) S4000x300.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x300.size a ≤ S200000x300.size a
  hwx2_4 : ∀ i : grid2.Coords, EltTy.bits .f32 = 32 ∨ (Rect.block (s := S200000x300) S4000x300.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x133.size a ≤ S100000x133.size a
  hwx3_0 : ∀ i : grid3.Coords, EltTy.bits .f32 = 32 ∨ (Rect.block (s := S100000x133) S5000x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x300.size a ≤ S100000x300.size a
  hwx3_1 : ∀ i : grid3.Coords, EltTy.bits .f32 = 32 ∨ (Rect.block (s := S100000x300) S5000x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x300.size a ≤ S133x300.size a
  hwx3_2 : ∀ i : grid3.Coords, EltTy.bits .bf16 = 32 ∨ (Rect.block (s := S133x300) S133x300.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x300.size a ≤ S300x300.size a
  hwx3_3 : ∀ i : grid3.Coords, EltTy.bits .bf16 = 32 ∨ (Rect.block (s := S300x300) S300x300.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x300.size a ≤ S1x300.size a
  hwx3_4 : ∀ i : grid3.Coords, EltTy.bits .f32 = 32 ∨ (Rect.block (s := S1x300) S1x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x300.size a ≤ S100000x300.size a
  hwx3_5 : ∀ i : grid3.Coords, EltTy.bits .f32 = 32 ∨ (Rect.block (s := S100000x300) S5000x300.size (cc3_transform_5 i) (hinb3_5 i)).WholeWords (EltTy.packing .f32)

variable [Facts₀]

def dot_S10000x147_S147x300_S10000x300_1_0_0_1_n_n : DotDims S10000x147 S147x300 S10000x300 where
  lhsContracting := [1]
  rhsContracting := [0]
  lhsNonContracting := [0]
  rhsNonContracting := [1]
  lhsBatch := []
  rhsBatch := []
  wf := dot_S10000x147_S147x300_S10000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def dot_S4000x300_S300x300_S4000x300_1_0_0_1_n_n : DotDims S4000x300 S300x300 S4000x300 where
  lhsContracting := [1]
  rhsContracting := [0]
  lhsNonContracting := [0]
  rhsNonContracting := [1]
  lhsBatch := []
  rhsBatch := []
  wf := dot_S4000x300_S300x300_S4000x300_1_0_0_1_n_n_wf
def dot_S5000x133_S133x300_S5000x300_1_0_0_1_n_n : DotDims S5000x133 S133x300 S5000x300 where
  lhsContracting := [1]
  rhsContracting := [0]
  lhsNonContracting := [0]
  rhsNonContracting := [1]
  lhsBatch := []
  rhsBatch := []
  wf := dot_S5000x133_S133x300_S5000x300_1_0_0_1_n_n_wf
def dot_S5000x300_S300x300_S5000x300_1_0_0_1_n_n : DotDims S5000x300 S300x300 S5000x300 where
  lhsContracting := [1]
  rhsContracting := [0]
  lhsNonContracting := [0]
  rhsNonContracting := [1]
  lhsBatch := []
  rhsBatch := []
  wf := dot_S5000x300_S300x300_S5000x300_1_0_0_1_n_n_wf
def scatter_S5000x300_S100000x1_S100000x300_1_0_0_1 : ScatterDims S5000x300 S100000x1 S100000x300 where
  updateWindowDims := [1]
  insertedWindowDims := [0]
  scatterDimsToOperandDims := [0]
  indexVectorDim := 1
  wf := scatter_S5000x300_S100000x1_S100000x300_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf

abbrev win0_0 : Pipeline.Window sig grid0 :=
  Pipeline.Window.ofSpec (Memref.whole main_arg1) S10000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S4000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S4000x300.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S4000x300.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v17) S4000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S4000x300.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S4000x300.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg0) S5000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S5000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S133x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S300x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S1x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v22) S5000x300.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x133 : Shape := ⟨2, ![100000, 133]⟩
abbrev S200000x147 : Shape := ⟨2, ![200000, 147]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S100000x6 : Shape := ⟨2, ![100000, 6]⟩
abbrev S200000 : Shape := ⟨1, ![200000]⟩
abbrev S100000 : Shape := ⟨1, ![100000]⟩
abbrev S200000x300 : Shape := ⟨2, ![200000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S100000x433 : Shape := ⟨2, ![100000, 433]⟩
abbrev S1x300 : Shape := ⟨2, ![1, 300]⟩
abbrev S5000x300 : Shape := ⟨2, ![5000, 300]⟩
abbrev S100000x1 : Shape := ⟨2, ![100000, 1]⟩
abbrev S5000 : Shape := ⟨1, ![5000]⟩
abbrev S5000x1 : Shape := ⟨2, ![5000, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x133, .f32⟩
  | .hbm, ⟨1, _⟩ => ⟨S200000x147, .f32⟩
  | .hbm, ⟨2, _⟩ => ⟨S147x300, .f32⟩
  | .hbm, ⟨3, _⟩ => ⟨S300x300, .f32⟩
  | .hbm, ⟨4, _⟩ => ⟨S433x300, .f32⟩
  | .hbm, ⟨5, _⟩ => ⟨S300, .f32⟩
  | .hbm, ⟨6, _⟩ => ⟨S100000x6, .i32⟩
  | .hbm, ⟨7, _⟩ => ⟨S200000, .i32⟩
  | .hbm, ⟨8, _⟩ => ⟨S200000, .i32⟩
  | .hbm, ⟨9, _⟩ => ⟨S100000, .i32⟩
  | .hbm, ⟨10, _⟩ => ⟨S200000x300, .f32⟩
  | .hbm, ⟨11, _⟩ => ⟨S_, .f32⟩
  | .hbm, ⟨12, _⟩ => ⟨S200000x300, .f32⟩
  | .hbm, ⟨13, _⟩ => ⟨S200000x300, .f32⟩
  | .hbm, ⟨14, _⟩ => ⟨S_, .i32⟩
  | .hbm, ⟨15, _⟩ => ⟨S100000x6, .i32⟩
  | .hbm, ⟨16, _⟩ => ⟨S100000x6, .i1⟩
  | .hbm, ⟨17, _⟩ => ⟨S_, .i32⟩
  | .hbm, ⟨18, _⟩ => ⟨S100000x6, .i32⟩
  | .hbm, ⟨19, _⟩ => ⟨S100000x6, .i32⟩
  | .hbm, ⟨20, _⟩ => ⟨S100000x6, .i32⟩
  | .hbm, ⟨21, _⟩ => ⟨S100000x6x1, .i32⟩
  | .hbm, ⟨22, _⟩ => ⟨S100000x6x300, .f32⟩
  | .hbm, ⟨23, _⟩ => ⟨S_, .f32⟩
  | .hbm, ⟨24, _⟩ => ⟨S100000x300, .f32⟩
  | .hbm, ⟨25, _⟩ => ⟨S_, .i32⟩
  | .hbm, ⟨26, _⟩ => ⟨S200000, .i32⟩
  | .hbm, ⟨27, _⟩ => ⟨S200000, .i1⟩
  | .hbm, ⟨28, _⟩ => ⟨S_, .i32⟩
  | .hbm, ⟨29, _⟩ => ⟨S200000, .i32⟩
  | .hbm, ⟨30, _⟩ => ⟨S200000, .i32⟩
  | .hbm, ⟨31, _⟩ => ⟨S200000, .i32⟩
  | .hbm, ⟨32, _⟩ => ⟨S200000x1, .i32⟩
  | .hbm, ⟨33, _⟩ => ⟨S200000x300, .f32⟩
  | .hbm, ⟨34, _⟩ => ⟨S_, .i32⟩
  | .hbm, ⟨35, _⟩ => ⟨S200000, .i32⟩
  | .hbm, ⟨36, _⟩ => ⟨S200000, .i1⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S200000, .i32⟩
  | .hbm, ⟨41, _⟩ => ⟨S200000x1, .i32⟩
  | .hbm, ⟨42, _⟩ => ⟨S200000x300, .f32⟩
  | .hbm, ⟨43, _⟩ => ⟨S200000x300, .f32⟩
  | .hbm, ⟨44, _⟩ => ⟨S200000x300, .f32⟩
  | .hbm, ⟨45, _⟩ => ⟨S200000x300, .f32⟩
  | .hbm, ⟨46, _⟩ => ⟨S_, .f32⟩
  | .hbm, ⟨47, _⟩ => ⟨S200000x300, .f32⟩
  | .hbm, ⟨48, _⟩ => ⟨S200000x300, .f32⟩
  | .hbm, ⟨49, _⟩ => ⟨S_, .i32⟩
  | .hbm, ⟨50, _⟩ => ⟨S100000x6, .i32⟩
  | .hbm, ⟨51, _⟩ => ⟨S100000x6, .i1⟩
  | .hbm, ⟨52, _⟩ => ⟨S_, .i32⟩
  | .hbm, ⟨53, _⟩ => ⟨S100000x6, .i32⟩
  | .hbm, ⟨54, _⟩ => ⟨S100000x6, .i32⟩
  | .hbm, ⟨55, _⟩ => ⟨S100000x6, .i32⟩
  | .hbm, ⟨56, _⟩ => ⟨S100000x6x1, .i32⟩
  | .hbm, ⟨57, _⟩ => ⟨S100000x6x300, .f32⟩
  | .hbm, ⟨58, _⟩ => ⟨S_, .f32⟩
  | .hbm, ⟨59, _⟩ => ⟨S100000x300, .f32⟩
  | .hbm, ⟨60, _⟩ => ⟨S_, .i32⟩
  | .hbm, ⟨61, _⟩ => ⟨S200000, .i32⟩
  | .hbm, ⟨62, _⟩ => ⟨S200000, .i1⟩
  | .hbm, ⟨63, _⟩ => ⟨S_, .i32⟩
  | .hbm, ⟨64, _⟩ => ⟨S200000, .i32⟩
  | .hbm, ⟨65, _⟩ => ⟨S200000, .i32⟩
  | .hbm, ⟨66, _⟩ => ⟨S200000, .i32⟩
  | .hbm, ⟨67, _⟩ => ⟨S200000x1, .i32⟩
  | .hbm, ⟨68, _⟩ => ⟨S200000x300, .f32⟩
  | .hbm, ⟨69, _⟩ => ⟨S_, .i32⟩
  | .hbm, ⟨70, _⟩ => ⟨S200000, .i32⟩
  | .hbm, ⟨71, _⟩ => ⟨S200000, .i1⟩
  | .hbm, ⟨72, _⟩ => ⟨S_, .i32⟩
  | .hbm, ⟨73, _⟩ => ⟨S200000, .i32⟩
  | .hbm, ⟨74, _⟩ => ⟨S200000, .i32⟩
  | .hbm, ⟨75, _⟩ => ⟨S200000, .i32⟩
  | .hbm, ⟨76, _⟩ => ⟨S200000x1, .i32⟩
  | .hbm, ⟨77, _⟩ => ⟨S200000x300, .f32⟩
  | .hbm, ⟨78, _⟩ => ⟨S200000x300, .f32⟩
  | .hbm, ⟨79, _⟩ => ⟨S200000x300, .f32⟩
  | .hbm, ⟨80, _⟩ => ⟨S200000x300, .f32⟩
  | .hbm, ⟨81, _⟩ => ⟨S_, .f32⟩
  | .hbm, ⟨82, _⟩ => ⟨S200000x300, .f32⟩
  | .hbm, ⟨83, _⟩ => ⟨S200000x300, .f32⟩
  | .hbm, ⟨84, _⟩ => ⟨S_, .i32⟩
  | .hbm, ⟨85, _⟩ => ⟨S100000x6, .i32⟩
  | .hbm, ⟨86, _⟩ => ⟨S100000x6, .i1⟩
  | .hbm, ⟨87, _⟩ => ⟨S_, .i32⟩
  | .hbm, ⟨88, _⟩ => ⟨S100000x6, .i32⟩
  | .hbm, ⟨89, _⟩ => ⟨S100000x6, .i32⟩
  | .hbm, ⟨90, _⟩ => ⟨S100000x6, .i32⟩
  | .hbm, ⟨91, _⟩ => ⟨S100000x6x1, .i32⟩
  | .hbm, ⟨92, _⟩ => ⟨S100000x6x300, .f32⟩
  | .hbm, ⟨93, _⟩ => ⟨S_, .f32⟩
  | .hbm, ⟨94, _⟩ => ⟨S100000x300, .f32⟩
  | .hbm, ⟨95, _⟩ => ⟨S100000x433, .f32⟩
  | .hbm, ⟨96, _⟩ => ⟨S100000x300, .f32⟩
  | .hbm, ⟨97, _⟩ => ⟨S1x300, .f32⟩
  | .hbm, ⟨98, _⟩ => ⟨S100000x300, .f32⟩
  | .hbm, ⟨99, _⟩ => ⟨S100000x300, .f32⟩
  | .hbm, ⟨100, _⟩ => ⟨S_, .f32⟩
  | .hbm, ⟨101, _⟩ => ⟨S100000x300, .f32⟩
  | .hbm, ⟨102, _⟩ => ⟨S100000x300, .f32⟩
  | .hbm, ⟨103, _⟩ => ⟨S_, .f32⟩
  | .hbm, ⟨104, _⟩ => ⟨S5000x300, .f32⟩
  | .hbm, ⟨105, _⟩ => ⟨S100000x1, .i32⟩
  | .hbm, ⟨106, _⟩ => ⟨S5000x300, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S5000, .f32⟩
  | .hbm, ⟨111, _⟩ => ⟨S100000x1, .i32⟩
  | .hbm, ⟨112, _⟩ => ⟨S5000, .f32⟩
  | .hbm, ⟨113, _⟩ => ⟨S5000x1, .f32⟩
  | .hbm, ⟨114, _⟩ => ⟨S_, .f32⟩
  | .hbm, ⟨115, _⟩ => ⟨S5000x1, .f32⟩
  | .hbm, ⟨116, _⟩ => ⟨S5000x1, .i1⟩
  | .hbm, ⟨117, _⟩ => ⟨S_, .f32⟩
  | .hbm, ⟨118, _⟩ => ⟨S5000, .f32⟩
  | .hbm, ⟨119, _⟩ => ⟨S5000, .f32⟩
  | .hbm, ⟨120, _⟩ => ⟨S5000x1, .f32⟩
  | .hbm, ⟨121, _⟩ => ⟨S5000x300, .f32⟩
  | .hbm, ⟨122, _⟩ => ⟨S5000x300, .f32⟩
  | .hbm, ⟨123, _⟩ => ⟨S_, .f32⟩
  | .hbm, ⟨124, _⟩ => ⟨S5000x300, .f32⟩
  | .hbm, ⟨125, _⟩ => ⟨S5000x300, .i1⟩
  | .hbm, ⟨126, _⟩ => ⟨S5000x300, .f32⟩
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call2_cst : Ref sig .tc := ⟨.hbm, 81, rfl⟩
abbrev main_call2_v0 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call3_cst : Ref sig .tc := ⟨.hbm, 100, rfl⟩
abbrev main_call3_v0 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_cst_17 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_18 : Ref sig .tc := ⟨.hbm, 114, rfl⟩
abbrev main_v76 : Ref sig .tc := ⟨.hbm, 115, rfl⟩
abbrev main_v77 : Ref sig .tc := ⟨.hbm, 116, rfl⟩
abbrev main_cst_19 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_20 : Ref sig .tc := ⟨.hbm, 123, rfl⟩
abbrev main_v83 : Ref sig .tc := ⟨.hbm, 124, rfl⟩
abbrev main_call4_v0 : Ref sig .tc := ⟨.hbm, 125, rfl⟩
abbrev main_v84 : Ref sig .tc := ⟨.hbm, 126, rfl⟩

abbrev nD : Nat := 1
abbrev τ : Topo := Topo.v7x

variable {F : FTy → Type} [FloatOps F]

class Facts₀ : Prop where
  bcast_S_S200000x300 : S_.BroadcastsInDim S200000x300 (![] : Fin 0 → Fin S200000x300.rank)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  concatenates_S100000x133_S100000x300_S100000x433_d1 : Shape.Concatenates [S100000x133, S100000x300] S100000x433 1
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S100000x300 : S_.BroadcastsInDim S100000x300 (![] : Fin 0 → Fin S100000x300.rank)
  bcast_S_S5000x300 : S_.BroadcastsInDim S5000x300 (![] : Fin 0 → Fin S5000x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  bcast_S_S5000x1 : S_.BroadcastsInDim S5000x1 (![] : Fin 0 → Fin S5000x1.rank)
  bcast_S5000x1_S5000x300_0_1 : S5000x1.BroadcastsInDim S5000x300 (![0, 1] : Fin 2 → Fin S5000x300.rank)
  dot_S200000x147_S147x300_S200000x300_1_0_0_1_n_n_wf : DotDims.WF S200000x147 S147x300 S200000x300 [1] [0] [0] [1] [] []
  gather_S200000x300_S100000x6x1_S100000x6x300_2_0_n_n_0_2_1300_wf : GatherDims.WF S200000x300 S100000x6x1 S100000x6x300 [2] [0] [] [0] [] 2 ![1, 300]
  gather_S100000x300_S200000x1_S200000x300_1_0_n_n_0_1_1300_wf : GatherDims.WF S100000x300 S200000x1 S200000x300 [1] [0] [] [0] [] 1 ![1, 300]
  gather_S200000x300_S200000x1_S200000x300_1_0_n_n_0_1_1300_wf : GatherDims.WF S200000x300 S200000x1 S200000x300 [1] [0] [] [0] [] 1 ![1, 300]
  dot_S200000x300_S300x300_S200000x300_1_0_0_1_n_n_wf : DotDims.WF S200000x300 S300x300 S200000x300 [1] [0] [0] [1] [] []
  dot_S100000x433_S433x300_S100000x300_1_0_0_1_n_n_wf : DotDims.WF S100000x433 S433x300 S100000x300 [1] [0] [0] [1] [] []
  scatter_S5000x300_S100000x1_S100000x300_1_0_0_1_wf : ScatterDims.WF S5000x300 S100000x1 S100000x300 [1] [0] [0] 1
  scatter_S5000_S100000x1_S100000_n_0_0_1_wf : ScatterDims.WF S5000 S100000x1 S100000 [] [0] [0] 1

variable [Facts₀]

def dot_S200000x147_S147x300_S200000x300_1_0_0_1_n_n : DotDims S200000x147 S147x300 S200000x300 where
  lhsContracting := [1]
  rhsContracting := [0]
  lhsNonContracting := [0]
  rhsNonContracting := [1]
  lhsBatch := []
  rhsBatch := []
  wf := dot_S200000x147_S147x300_S200000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def dot_S200000x300_S300x300_S200000x300_1_0_0_1_n_n : DotDims S200000x300 S300x300 S200000x300 where
  lhsContracting := [1]
  rhsContracting := [0]
  lhsNonContracting := [0]
  rhsNonContracting := [1]
  lhsBatch := []
  rhsBatch := []
  wf := dot_S200000x300_S300x300_S200000x300_1_0_0_1_n_n_wf
def dot_S100000x433_S433x300_S100000x300_1_0_0_1_n_n : DotDims S100000x433 S433x300 S100000x300 where
  lhsContracting := [1]
  rhsContracting := [0]
  lhsNonContracting := [0]
  rhsNonContracting := [1]
  lhsBatch := []
  rhsBatch := []
  wf := dot_S100000x433_S433x300_S100000x300_1_0_0_1_n_n_wf
def scatter_S5000x300_S100000x1_S100000x300_1_0_0_1 : ScatterDims S5000x300 S100000x1 S100000x300 where
  updateWindowDims := [1]
  insertedWindowDims := [0]
  scatterDimsToOperandDims := [0]
  indexVectorDim := 1
  wf := scatter_S5000x300_S100000x1_S100000x300_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf

class Facts : Prop extends Facts₀ where

variable [Facts]
-- ==== Proof.Range.lean ====
/-
  The domain of the index inputs: every index word names a row of the table it indexes.
-/
import proofs.«417200_j83743272337589_3_alg».proof.Proof.Gen.KernelIdeal.Frame
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem

/-- A buffer that no operation of a host stretch writes keeps its contents over the stretch: closes
    `StableHlo.after ops W (Proc.devRef .tc b) = W (Proc.devRef .tc b)` for the literal list named `ops`. -/
macro "not_written " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ)

/-- Every index word names a row of the table it indexes: the words of a2b (main_arg6) and of b2revb (main_arg8) a
    bond, 0 ≤ w < 200000, the words of b2a (main_arg7) an atom, 0 ≤ w < 100000, read as signed 32-bit integers. -/
structure InRange : Prop where
  a2b : ∀ (c : Dev nD) (i : S100000x6.Idx), IntOp.cmpi .sge (m ((c : Thread nD τ).loc main_arg6) i) 0#32 = 1#1 ∧ IntOp.cmpi .slt (m ((c : Thread nD τ).loc main_arg6) i) 200000#32 = 1#1
  b2a : ∀ (c : Dev nD) (i : S200000.Idx), IntOp.cmpi .sge (m ((c : Thread nD τ).loc main_arg7) i) 0#32 = 1#1 ∧ IntOp.cmpi .slt (m ((c : Thread nD τ).loc main_arg7) i) 100000#32 = 1#1
  b2revb : ∀ (c : Dev nD) (i : S200000.Idx), IntOp.cmpi .sge (m ((c : Thread nD τ).loc main_arg8) i) 0#32 = 1#1 ∧ IntOp.cmpi .slt (m ((c : Thread nD τ).loc main_arg8) i) 200000#32 = 1#1

end Cert.KernelIdeal.Stages

end
-- ==== Proof.PreRange.lean ====
/-
  From the stated precondition to the index domain.  The precondition is a conjunction of twelve `all`s: six say that
  the float inputs are finite, the last six that every word of a2b is ≥ 0 and < 200000, every word of b2a is ≥ 0 and
  < 100000, and every word of b2revb is ≥ 0 and < 200000.  An `all` that came out true was true at every index.
-/
import proofs.«417200_j83743272337589_3_alg».proof.Proof.Range
import proofs.«417200_j83743272337589_3_alg».proof.Defs
import proofs.«417200_j83743272337589_3_alg».proof.Proof.Gen.Pre_finite_inputs
import Idealize.ShloMosaic.Lib.ReduceAll

set_option maxRecDepth 16384

noncomputable section

namespace Cert.KernelIdeal.Stages

open Cert.KernelIdeal Cert.KernelIdeal.Gen
open Idealize.ShloMosaic Idealize.ShloMosaic.TcCoe Idealize.SL.Sem

instance subsingleton_scalar_idx : Subsingleton Cert.Pre_finite_inputs.S_.Idx := ⟨fun a b => funext fun d => d.elim0⟩

/-- The conjunction of two truth values read at the one index of a scalar. -/
theorem andi_scalar (x y : IVec Cert.Pre_finite_inputs.S_ 1) (i : Cert.Pre_finite_inputs.S_.Idx) :
    andi x y i = IntOp.andi (x i) (y i) := rfl

/-- Under the stated precondition every index word names a row of the table it indexes. -/
theorem inRange_of_pre (m : (ℓ : Loc nD τ sig) → Buf (Elt Ideal) ℓ) (h : Cert.Pre_KernelIdeal m) : InRange m := by
  have key : ∀ c : Dev nD,
      (∀ i : S100000x6.Idx, IntOp.cmpi .sge (m ((c : Thread nD τ).loc main_arg6) i) 0#32 = 1#1)
      ∧ (∀ i : S100000x6.Idx, IntOp.cmpi .slt (m ((c : Thread nD τ).loc main_arg6) i) 200000#32 = 1#1)
      ∧ (∀ i : S200000.Idx, IntOp.cmpi .sge (m ((c : Thread nD τ).loc main_arg7) i) 0#32 = 1#1)
      ∧ (∀ i : S200000.Idx, IntOp.cmpi .slt (m ((c : Thread nD τ).loc main_arg7) i) 100000#32 = 1#1)
      ∧ (∀ i : S200000.Idx, IntOp.cmpi .sge (m ((c : Thread nD τ).loc main_arg8) i) 0#32 = 1#1)
      ∧ (∀ i : S200000.Idx, IntOp.cmpi .slt (m ((c : Thread nD τ).loc main_arg8) i) 200000#32 = 1#1) := by
    intro c
    have e := congrFun (h c) (fun d => d.elim0)
    dsimp only [Cert.Pre_finite_inputs.fn, Cert.Pre_finite_inputs.fn_part1, Cert.Pre_finite_inputs.fn_part2,
      Cert.Pre_finite_inputs.fn_part3] at e
    rw [andi_scalar] at e
    obtain ⟨e, e6⟩ := IntOp.andi_eq_one.1 e
    rw [andi_scalar] at e
    obtain ⟨e, e5⟩ := IntOp.andi_eq_one.1 e
    rw [andi_scalar] at e
    obtain ⟨e, e4⟩ := IntOp.andi_eq_one.1 e
    rw [andi_scalar] at e
    obtain ⟨e, e3⟩ := IntOp.andi_eq_one.1 e
    rw [andi_scalar] at e
    obtain ⟨e, e2⟩ := IntOp.andi_eq_one.1 e
    rw [andi_scalar] at e
    obtain ⟨e, e1⟩ := IntOp.andi_eq_one.1 e
    exact ⟨fun i => Host.reduce_andi_all _ _ _ _ _ e1 i, fun i => Host.reduce_andi_all _ _ _ _ _ e2 i,
      fun i => Host.reduce_andi_all _ _ _ _ _ e3 i, fun i => Host.reduce_andi_all _ _ _ _ _ e4 i,
      fun i => Host.reduce_andi_all _ _ _ _ _ e5 i, fun i => Host.reduce_andi_all _ _ _ _ _ e6 i⟩
  exact ⟨fun c i => ⟨(key c).1 i, (key c).2.1 i⟩, fun c i => ⟨(key c).2.2.1 i, (key c).2.2.2.1 i⟩,
    fun c i => ⟨(key c).2.2.2.2.1 i, (key c).2.2.2.2.2 i⟩⟩

end Cert.KernelIdeal.Stages

end
-- ==== Proof.Region0.lean ====
/-
  The first pallas_call: twenty row blocks of f_bonds, each of 10000 rows, times the whole weight matrix.
  Block t of the result is rows 10000·t … 10000·t + 9999 of the product, the blocks tile the 200000 rows, and entry
  (r, q) of a block is the sum over k of x[r, k] · w[k, q] (the change of float format in the body is the identity
  on the extended reals): the array the region leaves is the whole matrix product, the reference's dot_general.
-/
import proofs.«417200_j83743272337589_3_alg».proof.Proof.Gen.KernelIdeal.Frame
import proofs.«417200_j83743272337589_3_alg».proof.Proof.RefRead

set_option maxRecDepth 16384

noncomputable section

namespace Cert.KernelIdeal.Region0

open Cert.KernelIdeal Cert.KernelIdeal.Gen
open Idealize.ShloMosaic Idealize.ShloMosaic.TcCoe Idealize.SL.Sem

open Cert.ReferenceIdeal.ReadP (lidx_main_v0 ridx_main_v0)

variable (V : (c : Dev nD) → (b : Ref sig .tc) → Buf (Elt Ideal) ((c : Thread nD τ).loc b))

/-- Row axis of the left operand: the output's row. -/
theorem lhs_blk_0 (i : S10000x300.Idx) (q : dot_S10000x147_S147x300_S10000x300_1_0_0_1_n_n.contr.Idx) :
    (dot_S10000x147_S147x300_S10000x300_1_0_0_1_n_n.lhsIdx i q 0).val = (i 0).val := by
  unfold DotDims.lhsIdx
  rw [dif_neg (show ¬(0 : Fin S10000x147.rank) ∈ dot_S10000x147_S147x300_S10000x300_1_0_0_1_n_n.lhsBatch by decide), dif_pos (show (0 : Fin S10000x147.rank) ∈ dot_S10000x147_S147x300_S10000x300_1_0_0_1_n_n.lhsNonContracting by decide)]
  rfl
/-- Column axis of the left operand: the contraction coordinate. -/
theorem lhs_blk_1 (i : S10000x300.Idx) (q : dot_S10000x147_S147x300_S10000x300_1_0_0_1_n_n.contr.Idx) :
    (dot_S10000x147_S147x300_S10000x300_1_0_0_1_n_n.lhsIdx i q 1).val = (q ⟨0, by decide⟩).val :=
  dot_S10000x147_S147x300_S10000x300_1_0_0_1_n_n.lhsIdx_val_of_single rfl i q
/-- Row axis of the right operand: the contraction coordinate. -/
theorem rhs_blk_0 (i : S10000x300.Idx) (q : dot_S10000x147_S147x300_S10000x300_1_0_0_1_n_n.contr.Idx) :
    (dot_S10000x147_S147x300_S10000x300_1_0_0_1_n_n.rhsIdx i q 0).val = (q ⟨0, by decide⟩).val :=
  dot_S10000x147_S147x300_S10000x300_1_0_0_1_n_n.rhsIdx_val_of_single rfl i q
/-- Column axis of the right operand: the output's column. -/
theorem rhs_blk_1 (i : S10000x300.Idx) (q : dot_S10000x147_S147x300_S10000x300_1_0_0_1_n_n.contr.Idx) :
    (dot_S10000x147_S147x300_S10000x300_1_0_0_1_n_n.rhsIdx i q 1).val = (i 1).val := by
  unfold DotDims.rhsIdx
  rw [dif_neg (show ¬(1 : Fin S147x300.rank) ∈ dot_S10000x147_S147x300_S10000x300_1_0_0_1_n_n.rhsBatch by decide), dif_pos (show (1 : Fin S147x300.rank) ∈ dot_S10000x147_S147x300_S10000x300_1_0_0_1_n_n.rhsNonContracting by decide)]
  rfl

/-- Entry (r, k) of a row block, for the output entry i = (r, q). -/
abbrev lidx_blk (i : S10000x300.Idx) (k : Fin 147) : S10000x147.Idx := fun a => match a with
  | ⟨0, _⟩ => ⟨(i 0).val, (i 0).isLt⟩
  | ⟨1, _⟩ => ⟨k.val, k.isLt⟩
/-- Entry (k, q) of the weights, for the output entry i = (r, q). -/
abbrev ridx_blk (i : S10000x300.Idx) (k : Fin 147) : S147x300.Idx := fun a => match a with
  | ⟨0, _⟩ => ⟨k.val, k.isLt⟩
  | ⟨1, _⟩ => ⟨(i 1).val, (i 1).isLt⟩

/-- The body's payload at an entry: the sum over k of x[r, k] · w[k, q]. -/
theorem pay_apply (x0 : Vec Ideal S10000x147 .f32) (x1 : Vec Ideal S147x300 .bf16) (i : S10000x300.Idx) :
    k0_pay1 x0 x1 i = ∑ k : Fin 147, x0 (lidx_blk i k) * x1 (ridx_blk i k) := by
  unfold k0_pay1
  simp only [matmul]
  rw [shapeCast_self]
  rw [Ideal.matmul_constant_zero_apply, ← Equiv.sum_comp (ValueIdx.contrEquiv1 dot_S10000x147_S147x300_S10000x300_1_0_0_1_n_n 147 rfl rfl).symm]
  refine Finset.sum_congr rfl fun k _ => ?_
  have hk := ValueIdx.contrEquiv1_symm_val dot_S10000x147_S147x300_S10000x300_1_0_0_1_n_n 147 rfl rfl k
  have el : dot_S10000x147_S147x300_S10000x300_1_0_0_1_n_n.lhsIdx i ((ValueIdx.contrEquiv1 dot_S10000x147_S147x300_S10000x300_1_0_0_1_n_n 147 rfl rfl).symm k) = lidx_blk i k := funext fun a => Fin.ext (by
    match a with
    | ⟨0, _⟩ => exact lhs_blk_0 _ _
    | ⟨1, _⟩ => exact (lhs_blk_1 _ _).trans hk)
  have er : dot_S10000x147_S147x300_S10000x300_1_0_0_1_n_n.rhsIdx i ((ValueIdx.contrEquiv1 dot_S10000x147_S147x300_S10000x300_1_0_0_1_n_n 147 rfl rfl).symm k) = ridx_blk i k := funext fun a => Fin.ext (by
    match a with
    | ⟨0, _⟩ => exact (rhs_blk_0 _ _).trans hk
    | ⟨1, _⟩ => exact rhs_blk_1 _ _)
  rw [el, er]
  rfl

theorem zero_off : (![0, 0] : Fin 2 → Nat) = fun _ => 0 := funext fun a => by fin_cases a <;> rfl

/-- The whole product, entry by entry: (r, q) ↦ Σ_k x[r, k] · w[k, q]. -/
abbrev G0 (x : S200000x147.Idx → EReal) (w : S147x300.Idx → EReal) : S200000x300.Idx → EReal :=
  fun i => ∑ k : Fin 147, x (lidx_main_v0 i k) * w (ridx_main_v0 i k)

/-- The reference's dot_general is that product. -/
theorem ref_eq (x : S200000x147.Idx → EReal) (w : S147x300.Idx → EReal) :
    Cert.ReferenceIdeal.ReadP.val_main_v0 (F := Ideal) x w = G0 x w :=
  funext fun i => Cert.ReferenceIdeal.ReadP.val_main_v0_apply x w i

/-- One entry of one block: when the block's row is row i of x and the staged weights are w, the payload's entry
    is the product's entry. -/
theorem point_eq (x : S200000x147.Idx → EReal) (w : S147x300.Idx → EReal)
    (x0 : Vec Ideal S10000x147 .f32) (x1 : Vec Ideal S147x300 .bf16) (j : S10000x300.Idx) (i : S200000x300.Idx)
    (h0 : ∀ k : Fin 147, x0 (lidx_blk j k) = x (lidx_main_v0 i k))
    (h1 : ∀ k : Fin 147, x1 (ridx_blk j k) = w (ridx_main_v0 i k)) :
    k0_pay1 x0 x1 j = G0 x w i := by
  rw [pay_apply]
  exact Finset.sum_congr rfl fun k _ => by rw [h0 k, h1 k]

/-- The index maps over the 20 points: the row block moves with the point, everything else stays at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product. -/
theorem flushed_eq (c : Dev nD) (t : Fin cfg0.N) :
    (dat0 (F := Ideal) V c).flushed 2 t
      = ((cfg0.win 2).blk t).view.read (Elt Ideal) (G0 (V c main_arg1) (V c main_v0)) := by
  show (cfg0.win 2).cut (grid0.coords t) ((dat0 V c).after 2 t) = _
  rw [after0_2]
  unfold out0_2
  rw [View.canon_unit_zero zero_off]
  simp only [View.ld_unit_zero (S := S10000x147) zero_off, View.ld_unit_zero (S := S147x300) zero_off]
  obtain ⟨e0, e1, e2, e3, e4, e5⟩ := idx_facts t
  funext j
  refine point_eq (V c main_arg1) (V c main_v0) (iblk0 V c 0 t) (iblk0 V c 1 t) j (((cfg0.win 2).blk t).view.emb j) (fun k => ?_) (fun k => ?_)
  · show V c main_arg1 (((cfg0.win 0).blk t).view.emb (lidx_blk j k)) = V c main_arg1 (lidx_main_v0 (((cfg0.win 2).blk t).view.emb j) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 147 + 1 * k.val = k.val; omega
  · show V c main_v0 (((cfg0.win 1).blk t).view.emb (ridx_blk j k)) = V c main_v0 (ridx_main_v0 (((cfg0.win 2).blk t).view.emb j) k)
    refine congrArg _ (funext fun a => Fin.ext ?_)
    match a with
    | ⟨0, _⟩ => show win0_1.index t (0 : Fin 2) * 147 + 1 * k.val = k.val; omega
    | ⟨1, _⟩ => show win0_1.index t (1 : Fin 2) * 300 + 1 * (j 1).val = win0_2.index t (1 : Fin 2) * 300 + 1 * (j 1).val; omega

/-- An entry is in point t's block iff each coordinate is in the block's range on its axis. -/
theorem mem_blk (t : Fin cfg0.N) (i : S200000x300.Idx) :
    i ∈ ((cfg0.win 2).blk t).view.set ↔ ∀ a : Fin 2, win0_2.index t a * S10000x300.size a ≤ (i a).val ∧ (i a).val < win0_2.index t a * S10000x300.size a + S10000x300.size a := by
  show i ∈ ((View.whole main_v6).slice (win0_2.rect t)).set ↔ _
  rw [View.set_slice_whole, Rect.mem_set_unit]
  exact Iff.rfl

/-- The blocks tile the rows: row r is in the block of point r / 10000. -/
theorem cover (i : S200000x300.Idx) :
    ∃ t : Fin cfg0.N, (cfg0.win 2).flush t = true ∧ i ∈ ((cfg0.win 2).blk t).view.set := by
  have hi0 : (i 0).val < 200000 := (i 0).isLt
  have hi1 : (i 1).val < 300 := (i 1).isLt
  have hN : (i 0).val / 10000 < cfg0.N := by show _ < grid0.N; rw [N_0]; omega
  obtain ⟨-, -, -, -, e4, e5⟩ := idx_facts ⟨(i 0).val / 10000, hN⟩
  have e4' : win0_2.index ⟨(i 0).val / 10000, hN⟩ (0 : Fin 2) = (i 0).val / 10000 := e4
  refine ⟨⟨(i 0).val / 10000, hN⟩, flush0_2 _, ?_⟩
  rw [mem_blk]
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 300 ≤ (i 1).val ∧ (i 1).val < win0_2.index ⟨(i 0).val / 10000, hN⟩ (1 : Fin 2) * 300 + 300; omega

/-- What region 0 leaves in its output array, from ANY entry contents V: the matrix product of the array staged
    through window 0 (main_arg1, the 200000×147 bond features) with the array staged through window 1 (main_v0, the
    147×300 weights), as the reference's dot_general computes it. -/
theorem arr0 (c : Dev nD) :
    (dat0 (F := Ideal) V c).arrAt 2 cfg0.N
      = Cert.ReferenceIdeal.ReadP.val_main_v0 (F := Ideal) (V c main_arg1) (V c main_v0) :=
  ((dat0 (F := Ideal) V c).arrAt_eq_of_cover 2 (G0 (V c main_arg1) (V c main_v0)) (fun t _ => flushed_eq V c t) cover).trans
    (ref_eq (V c main_arg1) (V c main_v0)).symm

end Cert.KernelIdeal.Region0

end
-- ==== Proof.StageInp.lean ====
/-
  inp: the first pallas_call's array is the reference's f_bonds · W_i (the weights reach the kernel through a change
  of float format, the identity on the extended reals).
-/
import proofs.«417200_j83743272337589_3_alg».proof.Proof.Range
import proofs.«417200_j83743272337589_3_alg».proof.Proof.RefRead
import proofs.«417200_j83743272337589_3_alg».proof.Proof.Region0

set_option maxRecDepth 16384

noncomputable section

namespace Cert.KernelIdeal.Stages

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The bond features are as launched when region 0 is entered. -/
theorem v1_fbonds (c : Dev nD) : V1 m ρ c main_arg1 = m ((c : Thread nD τ).loc main_arg1) := by
  show StableHlo.after hostOps0 (W0 m ρ c) (Proc.devRef .tc main_arg1) = W0 m ρ c (Proc.devRef .tc main_arg1)
  not_written hostOps0

/-- The weights region 0 reads are W_i: the host's change of float format is the identity on the extended reals. -/
theorem v1_wi (c : Dev nD) : V1 m ρ c main_v0 = m ((c : Thread nD τ).loc main_arg2) := by
  show StableHlo.after hostOps0 (W0 m ρ c) (Proc.devRef .tc main_v0) = _
  simp only [hostOps0]
  after_results
  rfl

/-- inp: what the first pallas_call leaves in main_v6 is the reference's f_bonds · W_i. -/
theorem inp_eq (c : Dev nD) :
    W2 m ρ c (Proc.devRef .tc main_v6) = Cert.ReferenceIdeal.ReadP.val_main_v0 (F := Ideal) (m ((c : Thread nD τ).loc main_arg1)) (m ((c : Thread nD τ).loc main_arg2)) := by
  have h := W2_arr m ρ c 2
  rw [Region0.arr0 (V1 m ρ) c, v1_fbonds m ρ c, v1_wi m ρ c] at h
  exact h

end Cert.KernelIdeal.Stages

end
-- ==== Proof.Take.lean ====
/-
  jnp.take on the host, as the kernel program spells it: wrap a negative index word by the table's row count, gather
  (the gather itself clamps), and replace every row whose wrapped word lies outside [0, rows − 1] by a NaN word.
  Where every index word is already in [0, rows) the wrap leaves it, the range test holds on every row, and the
  result is the plain clamped gather at the wrapped words — the operation the reference's `table[idx]` prints.
  One lemma per call of the kernel program (seven calls, three shapes), each over ANY buffer contents W.
-/
import proofs.«417200_j83743272337589_3_alg».proof.Proof.Range
import proofs.«417200_j83743272337589_3_alg».proof.Proof.RefRead

set_option maxRecDepth 16384

noncomputable section

namespace Cert.KernelIdeal.Take

open Cert.KernelIdeal Cert.KernelIdeal.Gen
open Idealize.ShloMosaic Idealize.ShloMosaic.TcCoe Idealize.SL.Sem

open Idealize.ShloMosaic.StableHlo

/-! ## The range test read at an index: the fill never applies -/

/-- A left fold by `and` from 1 over words that are all 1 is 1. -/
theorem foldl_andi_one {ι : Type} (g : ι → BitVec 1) (hg : ∀ n, g n = 1#1) :
    ∀ l : List ι, l.foldl (fun r n => IntOp.andi r (g n)) 1#1 = 1#1
  | [] => rfl
  | a :: l => by
    rw [List.foldl_cons, hg a, show IntOp.andi 1#1 1#1 = 1#1 from by decide]
    exact foldl_andi_one g hg l

/-- A reduce by `and` from 1 of an array of 1s is 1 at every result index. -/
theorem reduce_andi_one {s t u : Shape} {axes : List (Fin s.rank)} (x : s.Idx → BitVec 1) (init : u.Idx → BitVec 1)
    (hr : s.ReducesTo axes t) (hu : 0 < u.numel) (hx : ∀ i, x i = 1#1) (hi : ∀ k, init k = 1#1) (j : t.Idx) :
    Host.reduce IntOp.andi x init hr hu j = 1#1 := by
  unfold Host.reduce
  rw [hi]
  exact foldl_andi_one (fun n => x (s.rowMajor.symm n)) (fun n => hx _) _

/-- What holds of every element of an array holds of every element of a broadcast of it. -/
theorem bcast_all {α : Type} {s t : Shape} (dims : Fin s.rank → Fin t.rank) (hb : s.BroadcastsInDim t dims) (x : s.Idx → α)
    (P : α → Prop) (hP : ∀ k, P (x k)) (j : t.Idx) : P (broadcastInDim t dims hb x j) := hP _

/-- A word in [0, N) is not negative and is at most N − 1. -/
theorem word_range (w N M : BitVec 32) (hNM : M.toInt + 1 = N.toInt)
    (h : IntOp.cmpi .sge w 0#32 = 1#1 ∧ IntOp.cmpi .slt w N = 1#1) :
    IntOp.cmpi .slt w 0#32 = 0#1 ∧ IntOp.cmpi .sle w M = 1#1 := by
  obtain ⟨h0, h1⟩ := h
  rw [IntOp.cmpi_sge] at h0
  rw [IntOp.cmpi_slt] at h1
  have z : (0#32 : BitVec 32).toInt = 0 := by decide
  refine ⟨?_, IntOp.cmpi_sle.2 (by omega)⟩
  have hn : ¬ IntOp.cmpi .slt w 0#32 = 1#1 := fun e => by rw [IntOp.cmpi_slt] at e; omega
  revert hn; generalize IntOp.cmpi .slt w 0#32 = c; revert c; decide

/-- The wrap of an index word in [0, N) leaves it, so the wrapped word passes the range test against [0, N − 1]. -/
theorem wrapped_range {s : Shape} (idx Z NN : IVec s 32) (N M : BitVec 32) (k : s.Idx) (hNM : M.toInt + 1 = N.toInt)
    (hZ : ∀ i, Z i = 0#32)
    (h : IntOp.cmpi .sge (idx k) 0#32 = 1#1 ∧ IntOp.cmpi .slt (idx k) N = 1#1) :
    IntOp.cmpi .sge (select (cmpi .slt idx Z) (addi idx NN) idx k) 0#32 = 1#1
      ∧ IntOp.cmpi .sle (select (cmpi .slt idx Z) (addi idx NN) idx k) M = 1#1 := by
  have hw := word_range _ N M hNM h
  have e : select (cmpi .slt idx Z) (addi idx NN) idx k = idx k := by
    show Scalar.select (IntOp.cmpi .slt (idx k) (Z k)) _ _ = _
    rw [hZ, hw.1]
    exact if_neg (by decide)
  rw [e]
  exact ⟨h.1, hw.2⟩

/-- The fill of a take never applies when every index word passes the range test: the select by the reduced and
    broadcast test is its first branch. -/
theorem fill_none {α : Type} {s1 sr t u : Shape} {axes : List (Fin s1.rank)} (I Z MM : IVec s1 32) (M : BitVec 32)
    (init : IVec u 1) (hr : s1.ReducesTo axes sr) (hu : 0 < u.numel) (dims : Fin sr.rank → Fin t.rank)
    (hb : sr.BroadcastsInDim t dims) (a b : t.Idx → α)
    (hZ : ∀ j, Z j = 0#32) (hM : ∀ j, MM j = M) (hinit : ∀ k, init k = 1#1)
    (hI : ∀ j, IntOp.cmpi .sge (I j) 0#32 = 1#1 ∧ IntOp.cmpi .sle (I j) M = 1#1) :
    select (broadcastInDim t dims hb (Host.reduce IntOp.andi (andi (cmpi .sge I Z) (cmpi .sle I MM)) init hr hu)) a b = a := by
  funext i
  show Scalar.select (broadcastInDim t dims hb _ i) (a i) (b i) = a i
  rw [bcast_all dims hb _ (fun c => c = 1#1) (fun k => reduce_andi_one _ init hr hu (fun j => by
    show IntOp.andi (IntOp.cmpi .sge (I j) (Z j)) (IntOp.cmpi .sle (I j) (MM j)) = 1#1
    rw [hZ, hM, (hI j).1, (hI j).2]; decide) hinit k) i]
  exact if_pos rfl

variable (W : Valuation τ sig (Elt Ideal))

/-- `hostOps1` (a jnp.take): with every word of main_arg6 in [0, 200000), main_v7 ends at the reference's clamped gather of the
    table in main_v6 at the wrapped and broadcast index words — the out-of-range fill never applies. -/
theorem take_call0 (h : ∀ i : S100000x6.Idx, IntOp.cmpi .sge (W (Proc.devRef .tc main_arg6) i) 0#32 = 1#1 ∧ IntOp.cmpi .slt (W (Proc.devRef .tc main_arg6) i) 200000#32 = 1#1) :
    StableHlo.after (hostOps1 (F := Ideal)) W (Proc.devRef .tc main_v7)
      = Host.gather Cert.ReferenceIdeal.gather_S200000x300_S100000x6x1_S100000x6x300_2_0_n_n_0_2_1300 (W (Proc.devRef .tc main_v6)) (Cert.ReferenceIdeal.ReadP.val_main_v7 (F := Ideal) (W (Proc.devRef .tc main_arg6))) := by
  simp only [hostOps1]
  dsimp only [StableHlo.TRef.nullary, StableHlo.TRef.unary, StableHlo.TRef.binary, StableHlo.TRef.ternary,
    StableHlo.TRef.ofBuf, StableHlo.TRef.toBuf, cast_eq]
  after_results_simp
  refine (fill_none _ _ _ 199999#32 _ _ _ _ _ _ _ (fun _ => rfl) (fun _ => rfl) (fun _ => rfl) ?_).trans rfl
  exact bcast_all _ _ _ (fun w => IntOp.cmpi .sge w 0#32 = 1#1 ∧ IntOp.cmpi .sle w 199999#32 = 1#1)
    (fun k => wrapped_range _ _ _ 200000#32 199999#32 k (by decide) (by intro; rfl) (h k))

/-- `hostOps1_3` (a jnp.take): with every word of main_arg8 in [0, 200000), main_v10 ends at the reference's clamped gather of the
    table in main_v6 at the wrapped and broadcast index words — the out-of-range fill never applies. -/
theorem take_call2 (h : ∀ i : S200000.Idx, IntOp.cmpi .sge (W (Proc.devRef .tc main_arg8) i) 0#32 = 1#1 ∧ IntOp.cmpi .slt (W (Proc.devRef .tc main_arg8) i) 200000#32 = 1#1) :
    StableHlo.after (hostOps1_3 (F := Ideal)) W (Proc.devRef .tc main_v10)
      = Host.gather Cert.ReferenceIdeal.gather_S200000x300_S200000x1_S200000x300_1_0_n_n_0_1_1300 (W (Proc.devRef .tc main_v6)) (Cert.ReferenceIdeal.ReadP.val_main_v22 (F := Ideal) (W (Proc.devRef .tc main_arg8))) := by
  simp only [hostOps1_3]
  dsimp only [StableHlo.TRef.nullary, StableHlo.TRef.unary, StableHlo.TRef.binary, StableHlo.TRef.ternary,
    StableHlo.TRef.ofBuf, StableHlo.TRef.toBuf, cast_eq]
  after_results_simp
  refine (fill_none _ _ _ 199999#32 _ _ _ _ _ _ _ (fun _ => rfl) (fun _ => rfl) (fun _ => rfl) ?_).trans rfl
  exact bcast_all _ _ _ (fun w => IntOp.cmpi .sge w 0#32 = 1#1 ∧ IntOp.cmpi .sle w 199999#32 = 1#1)
    (fun k => wrapped_range _ _ _ 200000#32 199999#32 k (by decide) (by intro; rfl) (h k))

/-- `hostOps1_5` (a jnp.take): with every word of main_arg7 in [0, 100000), main_v12 ends at the reference's clamped gather of the
    table in main_v9 at the wrapped and broadcast index words — the out-of-range fill never applies. -/
theorem take_call4 (h : ∀ i : S200000.Idx, IntOp.cmpi .sge (W (Proc.devRef .tc main_arg7) i) 0#32 = 1#1 ∧ IntOp.cmpi .slt (W (Proc.devRef .tc main_arg7) i) 100000#32 = 1#1) :
    StableHlo.after (hostOps1_5 (F := Ideal)) W (Proc.devRef .tc main_v12)
      = Host.gather Cert.ReferenceIdeal.gather_S100000x300_S200000x1_S200000x300_1_0_n_n_0_1_1300 (W (Proc.devRef .tc main_v9)) (Cert.ReferenceIdeal.ReadP.val_main_v15 (F := Ideal) (W (Proc.devRef .tc main_arg7))) := by
  simp only [hostOps1_5]
  dsimp only [StableHlo.TRef.nullary, StableHlo.TRef.unary, StableHlo.TRef.binary, StableHlo.TRef.ternary,
    StableHlo.TRef.ofBuf, StableHlo.TRef.toBuf, cast_eq]
  after_results_simp
  refine (fill_none _ _ _ 99999#32 _ _ _ _ _ _ _ (fun _ => rfl) (fun _ => rfl) (fun _ => rfl) ?_).trans rfl
  exact bcast_all _ _ _ (fun w => IntOp.cmpi .sge w 0#32 = 1#1 ∧ IntOp.cmpi .sle w 99999#32 = 1#1)
    (fun k => wrapped_range _ _ _ 100000#32 99999#32 k (by decide) (by intro; rfl) (h k))

/-- `hostOps2` (a jnp.take): with every word of main_arg6 in [0, 200000), main_v14 ends at the reference's clamped gather of the
    table in main_v13 at the wrapped and broadcast index words — the out-of-range fill never applies. -/
theorem take_call5 (h : ∀ i : S100000x6.Idx, IntOp.cmpi .sge (W (Proc.devRef .tc main_arg6) i) 0#32 = 1#1 ∧ IntOp.cmpi .slt (W (Proc.devRef .tc main_arg6) i) 200000#32 = 1#1) :
    StableHlo.after (hostOps2 (F := Ideal)) W (Proc.devRef .tc main_v14)
      = Host.gather Cert.ReferenceIdeal.gather_S200000x300_S100000x6x1_S100000x6x300_2_0_n_n_0_2_1300 (W (Proc.devRef .tc main_v13)) (Cert.ReferenceIdeal.ReadP.val_main_v33 (F := Ideal) (W (Proc.devRef .tc main_arg6))) := by
  simp only [hostOps2]
  dsimp only [StableHlo.TRef.nullary, StableHlo.TRef.unary, StableHlo.TRef.binary, StableHlo.TRef.ternary,
    StableHlo.TRef.ofBuf, StableHlo.TRef.toBuf, cast_eq]
  after_results_simp
  refine (fill_none _ _ _ 199999#32 _ _ _ _ _ _ _ (fun _ => rfl) (fun _ => rfl) (fun _ => rfl) ?_).trans rfl
  exact bcast_all _ _ _ (fun w => IntOp.cmpi .sge w 0#32 = 1#1 ∧ IntOp.cmpi .sle w 199999#32 = 1#1)
    (fun k => wrapped_range _ _ _ 200000#32 199999#32 k (by decide) (by intro; rfl) (h k))

/-- `hostOps2_2` (a jnp.take): with every word of main_arg8 in [0, 200000), main_v16 ends at the reference's clamped gather of the
    table in main_v13 at the wrapped and broadcast index words — the out-of-range fill never applies. -/
theorem take_call6 (h : ∀ i : S200000.Idx, IntOp.cmpi .sge (W (Proc.devRef .tc main_arg8) i) 0#32 = 1#1 ∧ IntOp.cmpi .slt (W (Proc.devRef .tc main_arg8) i) 200000#32 = 1#1) :
    StableHlo.after (hostOps2_2 (F := Ideal)) W (Proc.devRef .tc main_v16)
      = Host.gather Cert.ReferenceIdeal.gather_S200000x300_S200000x1_S200000x300_1_0_n_n_0_1_1300 (W (Proc.devRef .tc main_v13)) (Cert.ReferenceIdeal.ReadP.val_main_v48 (F := Ideal) (W (Proc.devRef .tc main_arg8))) := by
  simp only [hostOps2_2]
  dsimp only [StableHlo.TRef.nullary, StableHlo.TRef.unary, StableHlo.TRef.binary, StableHlo.TRef.ternary,
    StableHlo.TRef.ofBuf, StableHlo.TRef.toBuf, cast_eq]
  after_results_simp
  refine (fill_none _ _ _ 199999#32 _ _ _ _ _ _ _ (fun _ => rfl) (fun _ => rfl) (fun _ => rfl) ?_).trans rfl
  exact bcast_all _ _ _ (fun w => IntOp.cmpi .sge w 0#32 = 1#1 ∧ IntOp.cmpi .sle w 199999#32 = 1#1)
    (fun k => wrapped_range _ _ _ 200000#32 199999#32 k (by decide) (by intro; rfl) (h k))

/-- `hostOps2_3` (a jnp.take): with every word of main_arg7 in [0, 100000), main_v17 ends at the reference's clamped gather of the
    table in main_v15 at the wrapped and broadcast index words — the out-of-range fill never applies. -/
theorem take_call7 (h : ∀ i : S200000.Idx, IntOp.cmpi .sge (W (Proc.devRef .tc main_arg7) i) 0#32 = 1#1 ∧ IntOp.cmpi .slt (W (Proc.devRef .tc main_arg7) i) 100000#32 = 1#1) :
    StableHlo.after (hostOps2_3 (F := Ideal)) W (Proc.devRef .tc main_v17)
      = Host.gather Cert.ReferenceIdeal.gather_S100000x300_S200000x1_S200000x300_1_0_n_n_0_1_1300 (W (Proc.devRef .tc main_v15)) (Cert.ReferenceIdeal.ReadP.val_main_v41 (F := Ideal) (W (Proc.devRef .tc main_arg7))) := by
  simp only [hostOps2_3]
  dsimp only [StableHlo.TRef.nullary, StableHlo.TRef.unary, StableHlo.TRef.binary, StableHlo.TRef.ternary,
    StableHlo.TRef.ofBuf, StableHlo.TRef.toBuf, cast_eq]
  after_results_simp
  refine (fill_none _ _ _ 99999#32 _ _ _ _ _ _ _ (fun _ => rfl) (fun _ => rfl) (fun _ => rfl) ?_).trans rfl
  exact bcast_all _ _ _ (fun w => IntOp.cmpi .sge w 0#32 = 1#1 ∧ IntOp.cmpi .sle w 99999#32 = 1#1)
    (fun k => wrapped_range _ _ _ 100000#32 99999#32 k (by decide) (by intro; rfl) (h k))

/-- `hostOps3` (a jnp.take): with every word of main_arg6 in [0, 200000), main_v19 ends at the reference's clamped gather of the
    table in main_v18 at the wrapped and broadcast index words — the out-of-range fill never applies. -/
theorem take_call8 (h : ∀ i : S100000x6.Idx, IntOp.cmpi .sge (W (Proc.devRef .tc main_arg6) i) 0#32 = 1#1 ∧ IntOp.cmpi .slt (W (Proc.devRef .tc main_arg6) i) 200000#32 = 1#1) :
    StableHlo.after (hostOps3 (F := Ideal)) W (Proc.devRef .tc main_v19)
      = Host.gather Cert.ReferenceIdeal.gather_S200000x300_S100000x6x1_S100000x6x300_2_0_n_n_0_2_1300 (W (Proc.devRef .tc main_v18)) (Cert.ReferenceIdeal.ReadP.val_main_v59 (F := Ideal) (W (Proc.devRef .tc main_arg6))) := by
  simp only [hostOps3]
  dsimp only [StableHlo.TRef.nullary, StableHlo.TRef.unary, StableHlo.TRef.binary, StableHlo.TRef.ternary,
    StableHlo.TRef.ofBuf, StableHlo.TRef.toBuf, cast_eq]
  after_results_simp
  refine (fill_none _ _ _ 199999#32 _ _ _ _ _ _ _ (fun _ => rfl) (fun _ => rfl) (fun _ => rfl) ?_).trans rfl
  exact bcast_all _ _ _ (fun w => IntOp.cmpi .sge w 0#32 = 1#1 ∧ IntOp.cmpi .sle w 199999#32 = 1#1)
    (fun k => wrapped_range _ _ _ 200000#32 199999#32 k (by decide) (by intro; rfl) (h k))

end Cert.KernelIdeal.Take

end
-- ==== Proof.StageRound1.lean ====
/-
  Round 1 on the host: a_message = Σ_j relu(inp[a2b[·, j]]) (the kernel takes the rows first and applies relu after;
  a gather only re-indexes, so relu commutes with it), then the two row gathers the update reads.
-/
import proofs.«417200_j83743272337589_3_alg».proof.Proof.StageInp
import proofs.«417200_j83743272337589_3_alg».proof.Proof.Take

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.StableHlo

/-! Host stretches read at any buffer contents. -/
section Generic
variable (W : Valuation τ sig (Elt Ideal))

/-- `hostOps1_1`: main_v8 ends at the maximum of main_v7 and a broadcast zero. -/
private theorem relu_call1 :
    StableHlo.after (hostOps1_1 (F := Ideal)) W (Proc.devRef .tc main_v8)
      = maximumf (F := Ideal) (W (Proc.devRef .tc main_v7)) (broadcastInDim S100000x6x300 ![] bcast_S_S100000x6x300 (constant (F := Ideal) S_ .f32 0x00000000#32)) := by
  simp only [hostOps1_1]
  after_results
  simp only [TRef.ofBuf, TRef.toBuf, cast_eq]

/-- `hostOps1_2`: main_v9 ends at the sum of main_v8 over axis 1. -/
private theorem sum_v9 :
    StableHlo.after (hostOps1_2 (F := Ideal)) W (Proc.devRef .tc main_v9)
      = Host.reduceAdd (F := Ideal) (W (Proc.devRef .tc main_v8)) (constant (F := Ideal) S_ .f32 0x00000000#32) reducesTo_S100000x6x300_S100000x300_d1 h_S_ := by
  simp only [hostOps1_2]
  after_results

/-- `hostOps1_4`: main_v11 ends at the maximum of main_v10 and a broadcast zero. -/
private theorem relu_call3 :
    StableHlo.after (hostOps1_4 (F := Ideal)) W (Proc.devRef .tc main_v11)
      = maximumf (F := Ideal) (W (Proc.devRef .tc main_v10)) (broadcastInDim S200000x300 ![] bcast_S_S200000x300 (constant (F := Ideal) S_ .f32 0x00000000#32)) := by
  simp only [hostOps1_4]
  after_results
  simp only [TRef.ofBuf, TRef.toBuf, cast_eq]

end Generic

/-! relu commutes with a gather: a gather only re-indexes, and a broadcast scalar is the same at every index. -/

private theorem relu_gather6 (x : (⟨S200000x300, .f32⟩ : BufTy).Contents (Elt Ideal)) (idx : (⟨S100000x6x1, .i32⟩ : BufTy).Contents (Elt Ideal)) :
    maximumf (F := Ideal) (Host.gather Cert.ReferenceIdeal.gather_S200000x300_S100000x6x1_S100000x6x300_2_0_n_n_0_2_1300 x idx)
        (broadcastInDim S100000x6x300 ![] bcast_S_S100000x6x300 (constant (F := Ideal) S_ .f32 0x00000000#32))
      = Host.gather Cert.ReferenceIdeal.gather_S200000x300_S100000x6x1_S100000x6x300_2_0_n_n_0_2_1300
          (maximumf (F := Ideal) x (Cert.ReferenceIdeal.ReadP.val_main_call0_v0 (F := Ideal))) idx := by
  funext j
  rfl

private theorem relu_gather1 (x : (⟨S200000x300, .f32⟩ : BufTy).Contents (Elt Ideal)) (idx : (⟨S200000x1, .i32⟩ : BufTy).Contents (Elt Ideal)) :
    maximumf (F := Ideal) (Host.gather Cert.ReferenceIdeal.gather_S200000x300_S200000x1_S200000x300_1_0_n_n_0_1_1300 x idx)
        (broadcastInDim S200000x300 ![] bcast_S_S200000x300 (constant (F := Ideal) S_ .f32 0x00000000#32))
      = Host.gather Cert.ReferenceIdeal.gather_S200000x300_S200000x1_S200000x300_1_0_n_n_0_1_1300
          (maximumf (F := Ideal) x (Cert.ReferenceIdeal.ReadP.val_main_call0_v0 (F := Ideal))) idx := by
  funext j
  rfl

variable (m : (ℓ : Loc nD τ sig) → Buf (Elt Ideal) ℓ) (ρ : Dev nD → PrngReg)

/-! The index inputs are as at launch at every boundary that reads them. -/

private theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by not_written hostOps0
    _ = m ((c : Thread nD τ).loc main_arg6) := rfl

private theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by not_written hostOps0
    _ = m ((c : Thread nD τ).loc main_arg7) := rfl

private theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by not_written hostOps0
    _ = m ((c : Thread nD τ).loc main_arg8) := rfl

private theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := by not_written hostOps1_2
    _ = W3 m ρ c (Proc.devRef .tc main_arg8) := by not_written hostOps1_1
    _ = W2 m ρ c (Proc.devRef .tc main_arg8) := by not_written hostOps1
    _ = m ((c : Thread nD τ).loc main_arg8) := W2_main_arg8 m ρ c

private theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := by not_written hostOps1_4
    _ = W5 m ρ c (Proc.devRef .tc main_arg7) := by not_written hostOps1_3
    _ = W4 m ρ c (Proc.devRef .tc main_arg7) := by not_written hostOps1_2
    _ = W3 m ρ c (Proc.devRef .tc main_arg7) := by not_written hostOps1_1
    _ = W2 m ρ c (Proc.devRef .tc main_arg7) := by not_written hostOps1
    _ = m ((c : Thread nD τ).loc main_arg7) := W2_main_arg7 m ρ c

private theorem W5_main_v6 (c : Dev nD) : W5 m ρ c (Proc.devRef .tc main_v6) = W2 m ρ c (Proc.devRef .tc main_v6) :=
  calc W5 m ρ c (Proc.devRef .tc main_v6)
    _ = W4 m ρ c (Proc.devRef .tc main_v6) := by not_written hostOps1_2
    _ = W3 m ρ c (Proc.devRef .tc main_v6) := by not_written hostOps1_1
    _ = W2 m ρ c (Proc.devRef .tc main_v6) := by not_written hostOps1

/-- relu(inp)[a2b]: main_v8 after the first take and its relu is the reference's gather of relu(inp). -/
private theorem v8_eq (hr : InRange m) (c : Dev nD) :
    W4 m ρ c (Proc.devRef .tc main_v8) = Cert.ReferenceIdeal.ReadP.val_main_v8 (F := Ideal) (m ((c : Thread nD τ).loc main_arg1)) (m ((c : Thread nD τ).loc main_arg2)) (m ((c : Thread nD τ).loc main_arg6)) := by
  have h6 := W2_main_arg6 m ρ c
  have h7 : W3 m ρ c (Proc.devRef .tc main_v7)
      = Host.gather Cert.ReferenceIdeal.gather_S200000x300_S100000x6x1_S100000x6x300_2_0_n_n_0_2_1300
          (Cert.ReferenceIdeal.ReadP.val_main_v0 (F := Ideal) (m ((c : Thread nD τ).loc main_arg1)) (m ((c : Thread nD τ).loc main_arg2)))
          (Cert.ReferenceIdeal.ReadP.val_main_v7 (F := Ideal) (m ((c : Thread nD τ).loc main_arg6))) := by
    refine (Take.take_call0 (W2 m ρ c) ?_).trans ?_
    · intro i; rw [h6]; exact hr.a2b c i
    · rw [h6, inp_eq]
  refine (relu_call1 (W3 m ρ c)).trans ?_
  rw [h7]
  exact relu_gather6 _ _

/-- a_message, round 1: main_v9 is the reference's sum over the six incoming bonds. -/
private theorem v9_eq (hr : InRange m) (c : Dev nD) :
    W7 m ρ c (Proc.devRef .tc main_v9) = Cert.ReferenceIdeal.ReadP.val_main_v9 (F := Ideal) (m ((c : Thread nD τ).loc main_arg1)) (m ((c : Thread nD τ).loc main_arg2)) (m ((c : Thread nD τ).loc main_arg6)) := by
  have h : W7 m ρ c (Proc.devRef .tc main_v9) = W5 m ρ c (Proc.devRef .tc main_v9) :=
    calc W7 m ρ c (Proc.devRef .tc main_v9)
      _ = W6 m ρ c (Proc.devRef .tc main_v9) := by not_written hostOps1_4
      _ = W5 m ρ c (Proc.devRef .tc main_v9) := by not_written hostOps1_3
  refine h.trans ((sum_v9 (W4 m ρ c)).trans ?_)
  rw [v8_eq m ρ hr c]
  rfl

/-- a_message[b2a], round 1 (the update's window 0). -/
theorem ag1_eq (hr : InRange m) (c : Dev nD) :
    W8 m ρ c (Proc.devRef .tc main_v12) = Cert.ReferenceIdeal.ReadP.val_main_v16 (F := Ideal) (m ((c : Thread nD τ).loc main_arg1)) (m ((c : Thread nD τ).loc main_arg2)) (m ((c : Thread nD τ).loc main_arg6)) (m ((c : Thread nD τ).loc main_arg7)) := by
  have h7 := W7_main_arg7 m ρ c
  refine (Take.take_call4 (W7 m ρ c) ?_).trans ?_
  · intro i; rw [h7]; exact hr.b2a c i
  · rw [h7, v9_eq m ρ hr c]
    rfl
/-- relu(inp)[b2revb], round 1 (the update's window 1). -/
theorem mr1_eq (hr : InRange m) (c : Dev nD) :
    W8 m ρ c (Proc.devRef .tc main_v11) = Cert.ReferenceIdeal.ReadP.val_main_v23 (F := Ideal) (m ((c : Thread nD τ).loc main_arg1)) (m ((c : Thread nD τ).loc main_arg2)) (m ((c : Thread nD τ).loc main_arg8)) := by
  have h8 := W5_main_arg8 m ρ c
  have h10 : W6 m ρ c (Proc.devRef .tc main_v10)
      = Host.gather Cert.ReferenceIdeal.gather_S200000x300_S200000x1_S200000x300_1_0_n_n_0_1_1300
          (Cert.ReferenceIdeal.ReadP.val_main_v0 (F := Ideal) (m ((c : Thread nD τ).loc main_arg1)) (m ((c : Thread nD τ).loc main_arg2)))
          (Cert.ReferenceIdeal.ReadP.val_main_v22 (F := Ideal) (m ((c : Thread nD τ).loc main_arg8))) := by
    refine (Take.take_call2 (W5 m ρ c) ?_).trans ?_
    · intro i; rw [h8]; exact hr.b2revb c i
    · rw [h8, W5_main_v6 m ρ c, inp_eq]
  have h : W8 m ρ c (Proc.devRef .tc main_v11) = W7 m ρ c (Proc.devRef .tc main_v11) := by not_written hostOps1_5
  refine h.trans ((relu_call3 (W6 m ρ c)).trans ?_)
  rw [h10]
  exact relu_gather1 _ _
/-- The two buffers the update also reads are as region 0 left them. -/
theorem w8_inp (c : Dev nD) : W8 m ρ c (Proc.devRef .tc main_v6) = W2 m ρ c (Proc.devRef .tc main_v6) :=
  calc W8 m ρ c (Proc.devRef .tc main_v6)
    _ = W7 m ρ c (Proc.devRef .tc main_v6) := by not_written hostOps1_5
    _ = W6 m ρ c (Proc.devRef .tc main_v6) := by not_written hostOps1_4
    _ = W5 m ρ c (Proc.devRef .tc main_v6) := by not_written hostOps1_3
    _ = W2 m ρ c (Proc.devRef .tc main_v6) := W5_main_v6 m ρ c
theorem w8_wh (c : Dev nD) : W8 m ρ c (Proc.devRef .tc main_v1) = m ((c : Thread nD τ).loc main_arg3) :=
  calc W8 m ρ c (Proc.devRef .tc main_v1)
    _ = W7 m ρ c (Proc.devRef .tc main_v1) := by not_written hostOps1_5
    _ = W6 m ρ c (Proc.devRef .tc main_v1) := by not_written hostOps1_4
    _ = W5 m ρ c (Proc.devRef .tc main_v1) := by not_written hostOps1_3
    _ = W4 m ρ c (Proc.devRef .tc main_v1) := by not_written hostOps1_2
    _ = W3 m ρ c (Proc.devRef .tc main_v1) := by not_written hostOps1_1
    _ = W2 m ρ c (Proc.devRef .tc main_v1) := by not_written hostOps1
    _ = W1 m ρ c (Proc.devRef .tc main_v1) := W2_of_ne m ρ c main_v1 (by decide)
    _ = m ((c : Thread nD τ).loc main_arg3) := by
      show StableHlo.after (hostOps0 (F := Ideal)) (W0 m ρ c) (Proc.devRef .tc main_v1) = _
      simp only [hostOps0]
      after_results
      rfl

end Cert.KernelIdeal.Stages

end
-- ==== Proof.Region1.lean ====
/-
  The bond-message update as a pallas_call (launch 1): fifty row blocks of 4000 rows; a block of the result is
  max(inp + (am − mr) · W_h, 0) on its rows, with am, mr and inp the same rows of three 200000×300 arrays and W_h
  whole.  The blocks tile the rows, so the array left is relu(inp + (am − mr) · W_h) as the reference spells it.
-/
import proofs.«417200_j83743272337589_3_alg».proof.Proof.Gen.KernelIdeal.Frame
import proofs.«417200_j83743272337589_3_alg».proof.Proof.RefRead

set_option maxRecDepth 16384

noncomputable section

namespace Cert.KernelIdeal.Region1

open Cert.KernelIdeal Cert.KernelIdeal.Gen
open Idealize.ShloMosaic Idealize.ShloMosaic.TcCoe Idealize.SL.Sem

/-- The zero offsets of a whole-block load or store, as a constant function. -/
theorem hz : (![0, 0] : Fin 2 → Nat) = fun _ => 0 := funext fun a => by fin_cases a <;> rfl

/-- The block product's operand indices, axis by axis: the left operand is read at (row of the output, contracted
    index), the right at (contracted index, column of the output). -/
theorem lhs_blk_0 (i : S4000x300.Idx) (q : dot_S4000x300_S300x300_S4000x300_1_0_0_1_n_n.contr.Idx) :
    (dot_S4000x300_S300x300_S4000x300_1_0_0_1_n_n.lhsIdx i q 0).val = (i 0).val := by
  unfold DotDims.lhsIdx
  rw [dif_neg (show ¬(0 : Fin S4000x300.rank) ∈ dot_S4000x300_S300x300_S4000x300_1_0_0_1_n_n.lhsBatch by decide), dif_pos (show (0 : Fin S4000x300.rank) ∈ dot_S4000x300_S300x300_S4000x300_1_0_0_1_n_n.lhsNonContracting by decide)]
  rfl
theorem lhs_blk_1 (i : S4000x300.Idx) (q : dot_S4000x300_S300x300_S4000x300_1_0_0_1_n_n.contr.Idx) :
    (dot_S4000x300_S300x300_S4000x300_1_0_0_1_n_n.lhsIdx i q 1).val = (q ⟨0, by decide⟩).val :=
  dot_S4000x300_S300x300_S4000x300_1_0_0_1_n_n.lhsIdx_val_of_single rfl i q
theorem rhs_blk_0 (i : S4000x300.Idx) (q : dot_S4000x300_S300x300_S4000x300_1_0_0_1_n_n.contr.Idx) :
    (dot_S4000x300_S300x300_S4000x300_1_0_0_1_n_n.rhsIdx i q 0).val = (q ⟨0, by decide⟩).val :=
  dot_S4000x300_S300x300_S4000x300_1_0_0_1_n_n.rhsIdx_val_of_single rfl i q
theorem rhs_blk_1 (i : S4000x300.Idx) (q : dot_S4000x300_S300x300_S4000x300_1_0_0_1_n_n.contr.Idx) :
    (dot_S4000x300_S300x300_S4000x300_1_0_0_1_n_n.rhsIdx i q 1).val = (i 1).val := by
  unfold DotDims.rhsIdx
  rw [dif_neg (show ¬(1 : Fin S300x300.rank) ∈ dot_S4000x300_S300x300_S4000x300_1_0_0_1_n_n.rhsBatch by decide), dif_pos (show (1 : Fin S300x300.rank) ∈ dot_S4000x300_S300x300_S4000x300_1_0_0_1_n_n.rhsNonContracting by decide)]
  rfl

/-- Row (j 0), column k of a 4000×300 block. -/
abbrev lrow (j : S4000x300.Idx) (k : Fin 300) : S4000x300.Idx := fun a => match a with
  | ⟨0, _⟩ => ⟨(j 0).val, (j 0).isLt⟩
  | ⟨1, _⟩ => ⟨k.val, k.isLt⟩
/-- Row k, column (j 1) of the 300×300 weights. -/
abbrev rcol (j : S4000x300.Idx) (k : Fin 300) : S300x300.Idx := fun a => match a with
  | ⟨0, _⟩ => ⟨k.val, k.isLt⟩
  | ⟨1, _⟩ => ⟨(j 1).val, (j 1).isLt⟩

/-- The block product into the zero accumulator, at an index: the sum over the 300 contracted indices. -/
theorem matmul_at (l : FVec Ideal S4000x300 .bf16) (r : FVec Ideal S300x300 .bf16) (j : S4000x300.Idx) :
    (matmul dot_S4000x300_S300x300_S4000x300_1_0_0_1_n_n none l r (constant (F := Ideal) S4000x300 .f32 0x00000000#32) : FVec Ideal S4000x300 .f32) j
      = ∑ k : Fin 300, l (lrow j k) * r (rcol j k) := by
  simp only [matmul]
  rw [Ideal.matmul_constant_zero_apply, ← Equiv.sum_comp (ValueIdx.contrEquiv1 dot_S4000x300_S300x300_S4000x300_1_0_0_1_n_n 300 rfl rfl).symm]
  refine Finset.sum_congr rfl fun k _ => ?_
  have hk := ValueIdx.contrEquiv1_symm_val dot_S4000x300_S300x300_S4000x300_1_0_0_1_n_n 300 rfl rfl k
  have el : dot_S4000x300_S300x300_S4000x300_1_0_0_1_n_n.lhsIdx j ((ValueIdx.contrEquiv1 dot_S4000x300_S300x300_S4000x300_1_0_0_1_n_n 300 rfl rfl).symm k) = lrow j k := funext fun a => Fin.ext (by
    match a with
    | ⟨0, _⟩ => exact lhs_blk_0 _ _
    | ⟨1, _⟩ => exact (lhs_blk_1 _ _).trans hk)
  have er : dot_S4000x300_S300x300_S4000x300_1_0_0_1_n_n.rhsIdx j ((ValueIdx.contrEquiv1 dot_S4000x300_S300x300_S4000x300_1_0_0_1_n_n 300 rfl rfl).symm k) = rcol j k := funext fun a => Fin.ext (by
    match a with
    | ⟨0, _⟩ => exact (rhs_blk_0 _ _).trans hk
    | ⟨1, _⟩ => exact rhs_blk_1 _ _)
  rw [el, er]

/-- The body's result at a block index: the casts to the same shape and the change of float format are the identity
    on the extended reals, the zero word is 0, so it is max(inp + Σ_k (am − mr)[row, k] · W_h[k, column], 0). -/
theorem pay_at (x0 x1 : Vec Ideal S4000x300 .f32) (x2 : Vec Ideal S300x300 .bf16) (x3 : Vec Ideal S4000x300 .f32) (j : S4000x300.Idx) :
    k1_pay1 (F := Ideal) x0 x1 x2 x3 j = max (x3 j + ∑ k : Fin 300, (x0 (lrow j k) - x1 (lrow j k)) * x2 (rcol j k)) 0 := by
  unfold k1_pay1
  simp only [shapeCast_self]
  show max (x3 j + (matmul dot_S4000x300_S300x300_S4000x300_1_0_0_1_n_n none (truncf .bf16 (subf x0 x1) bitsLt_bf16_f32 : FVec Ideal S4000x300 .bf16) (x2 : FVec Ideal S300x300 .bf16) (constant (F := Ideal) S4000x300 .f32 0x00000000#32) : FVec Ideal S4000x300 .f32) j) (Ideal.ofBits .f32 0x00000000#32) = _
  rw [matmul_at, Ideal.ofBits_zero_f32]
  rfl

/-- The whole array the region leaves: relu(inp + (am − mr) · W_h), entry by entry. -/
abbrev G1 (am mr : S200000x300.Idx → EReal) (w : S300x300.Idx → EReal) (inp : S200000x300.Idx → EReal) : S200000x300.Idx → EReal :=
  fun i => max (inp i + ∑ k : Fin 300, (am (Cert.ReferenceIdeal.ReadP.lidx_main_v25 i k) - mr (Cert.ReferenceIdeal.ReadP.lidx_main_v25 i k)) * w (Cert.ReferenceIdeal.ReadP.ridx_main_v25 i k)) 0

/-- The payload at a block index is the whole-array function at the array index the block index sits at, once each
    entry the payload reads is the array's entry there. -/
theorem pay_arr (am mr : S200000x300.Idx → EReal) (w : S300x300.Idx → EReal) (inp : S200000x300.Idx → EReal)
    (x0 x1 : Vec Ideal S4000x300 .f32) (x2 : Vec Ideal S300x300 .bf16) (x3 : Vec Ideal S4000x300 .f32)
    (j : S4000x300.Idx) (i : S200000x300.Idx)
    (h0 : ∀ k : Fin 300, x0 (lrow j k) = am (Cert.ReferenceIdeal.ReadP.lidx_main_v25 i k))
    (h1 : ∀ k : Fin 300, x1 (lrow j k) = mr (Cert.ReferenceIdeal.ReadP.lidx_main_v25 i k))
    (h2 : ∀ k : Fin 300, x2 (rcol j k) = w (Cert.ReferenceIdeal.ReadP.ridx_main_v25 i k))
    (h3 : x3 j = inp i) :
    k1_pay1 (F := Ideal) x0 x1 x2 x3 j = G1 am mr w inp i := by
  refine (pay_at x0 x1 x2 x3 j).trans ?_
  show max (x3 j + ∑ k : Fin 300, (x0 (lrow j k) - x1 (lrow j k)) * x2 (rcol j k)) 0
    = max (inp i + ∑ k : Fin 300, (am (Cert.ReferenceIdeal.ReadP.lidx_main_v25 i k) - mr (Cert.ReferenceIdeal.ReadP.lidx_main_v25 i k)) * w (Cert.ReferenceIdeal.ReadP.ridx_main_v25 i k)) 0
  rw [h3]
  exact congrArg (fun s => max (inp i + s) 0) (Finset.sum_congr rfl fun k _ => by rw [h0 k, h1 k, h2 k])

/-- The index maps over the fifty points: the three row-blocked inputs move with the output (block row t, block
    column 0), the weights' block is always the whole. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = win1_4.index t (0 : Fin 2)
    ∧ win1_3.index t (1 : Fin 2) = 0
    ∧ win1_4.index t (0 : Fin 2) = t.val
    ∧ win1_4.index t (1 : Fin 2) = 0 :=
  (by decide +kernel : ∀ t : Fin grid1.N, _)

variable (V : (c : Dev nD) → (b : Ref sig .tc) → Buf (Elt Ideal) ((c : Thread nD τ).loc b))

/-- What point t writes back is block t of the whole-array function: each block of the three row-blocked inputs sits
    at block row t of its array like the output's, and the weights' block is the whole 300×300 array. -/
theorem flushed_eq (c : Dev nD) (t : Fin cfg1.N) :
    (dat1 (F := Ideal) V c).flushed 4 t = ((cfg1.win 4).blk t).view.read (Elt Ideal) (G1 (V c main_v12) (V c main_v11) (V c main_v1) (V c main_v6)) := by
  show (cfg1.win 4).cut (grid1.coords t) ((dat1 (F := Ideal) V c).after 4 t) = _
  rw [after1_4]
  unfold out1_4
  rw [View.canon_unit_zero hz]
  simp only [View.ld_unit_zero (S := S4000x300) hz, View.ld_unit_zero (S := S300x300) hz]
  obtain ⟨e00, e01, e10, e11, e20, e21, e30, e31, e40, e41⟩ := idx_facts t
  funext j
  have h3 : ((cfg1.win 3).blk t).view.emb j = ((cfg1.win 4).blk t).view.emb j := by
    funext a; apply Fin.ext
    match a with
    | ⟨0, _⟩ => show win1_3.index t (0 : Fin 2) * 4000 + 1 * (j 0).val = win1_4.index t (0 : Fin 2) * 4000 + 1 * (j 0).val; omega
    | ⟨1, _⟩ => show win1_3.index t (1 : Fin 2) * 300 + 1 * (j 1).val = win1_4.index t (1 : Fin 2) * 300 + 1 * (j 1).val; omega
  have h0 : ∀ k : Fin 300, ((cfg1.win 0).blk t).view.emb (lrow j k) = Cert.ReferenceIdeal.ReadP.lidx_main_v25 (((cfg1.win 4).blk t).view.emb j) k := by
    intro k; funext a; apply Fin.ext
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 300 + 1 * k.val = k.val; omega
  have h1 : ∀ k : Fin 300, ((cfg1.win 1).blk t).view.emb (lrow j k) = Cert.ReferenceIdeal.ReadP.lidx_main_v25 (((cfg1.win 4).blk t).view.emb j) k := by
    intro k; funext a; apply Fin.ext
    match a with
    | ⟨0, _⟩ => show win1_1.index t (0 : Fin 2) * 4000 + 1 * (j 0).val = win1_4.index t (0 : Fin 2) * 4000 + 1 * (j 0).val; omega
    | ⟨1, _⟩ => show win1_1.index t (1 : Fin 2) * 300 + 1 * k.val = k.val; omega
  have h2 : ∀ k : Fin 300, ((cfg1.win 2).blk t).view.emb (rcol j k) = Cert.ReferenceIdeal.ReadP.ridx_main_v25 (((cfg1.win 4).blk t).view.emb j) k := by
    intro k; funext a; apply Fin.ext
    match a with
    | ⟨0, _⟩ => show win1_2.index t (0 : Fin 2) * 300 + 1 * k.val = k.val; omega
    | ⟨1, _⟩ => show win1_2.index t (1 : Fin 2) * 300 + 1 * (j 1).val = win1_4.index t (1 : Fin 2) * 300 + 1 * (j 1).val; omega
  exact pay_arr (V c main_v12) (V c main_v11) (V c main_v1) (V c main_v6) (iblk1 V c 0 t) (iblk1 V c 1 t) (iblk1 V c 2 t) (iblk1 V c 3 t) j (((cfg1.win 4).blk t).view.emb j)
    (fun k => congrArg (V c main_v12) (h0 k)) (fun k => congrArg (V c main_v11) (h1 k)) (fun k => congrArg (V c main_v1) (h2 k)) (congrArg (V c main_v6) h3)

/-- An index of the array is in point t's block iff each coordinate is in the block's range on its axis. -/
theorem mem_blk (t : Fin cfg1.N) (i : S200000x300.Idx) :
    i ∈ ((cfg1.win 4).blk t).view.set ↔ ∀ a : Fin 2, win1_4.index t a * S4000x300.size a ≤ (i a).val ∧ (i a).val < win1_4.index t a * S4000x300.size a + S4000x300.size a := by
  show i ∈ ((View.whole main_v13).slice (win1_4.rect t)).set ↔ _
  rw [View.set_slice_whole, Rect.mem_set_unit]
  exact Iff.rfl

/-- Row r lies in the block of point r / 4000: the fifty blocks tile the rows. -/
theorem cover (i : S200000x300.Idx) : ∃ t : Fin cfg1.N, (cfg1.win 4).flush t = true ∧ i ∈ ((cfg1.win 4).blk t).view.set := by
  have hi0 : (i 0).val < 200000 := (i 0).isLt
  have hi1 : (i 1).val < 300 := (i 1).isLt
  have hN : (i 0).val / 4000 < cfg1.N := by rw [show cfg1.N = 50 from N_1]; omega
  refine ⟨⟨(i 0).val / 4000, hN⟩, flush1_4 _, ?_⟩
  rw [mem_blk]
  obtain ⟨-, -, -, -, -, -, -, -, e40, e41⟩ := idx_facts ⟨(i 0).val / 4000, hN⟩
  have e40' : win1_4.index ⟨(i 0).val / 4000, hN⟩ (0 : Fin 2) = (i 0).val / 4000 := e40
  intro a
  match a with
  | ⟨0, _⟩ => show win1_4.index ⟨(i 0).val / 4000, hN⟩ (0 : Fin 2) * 4000 ≤ (i 0).val ∧ (i 0).val < win1_4.index ⟨(i 0).val / 4000, hN⟩ (0 : Fin 2) * 4000 + 4000; omega
  | ⟨1, _⟩ => show win1_4.index ⟨(i 0).val / 4000, hN⟩ (1 : Fin 2) * 300 ≤ (i 1).val ∧ (i 1).val < win1_4.index ⟨(i 0).val / 4000, hN⟩ (1 : Fin 2) * 300 + 300; omega

/-- The array the region leaves is the whole-array function of the four arrays it reads. -/
theorem arr_eq (c : Dev nD) :
    (dat1 (F := Ideal) V c).arrAt 4 cfg1.N = G1 (V c main_v12) (V c main_v11) (V c main_v1) (V c main_v6) :=
  (dat1 (F := Ideal) V c).arrAt_eq_of_cover 4 (G1 (V c main_v12) (V c main_v11) (V c main_v1) (V c main_v6)) (fun t _ => flushed_eq V c t) cover

/-- The reference's dot_general at an index: the sum over the contracted axis. -/
theorem dot_at (l : FVec Ideal Cert.ReferenceIdeal.S200000x300 .f32) (r : FVec Ideal Cert.ReferenceIdeal.S300x300 .f32) (i : Cert.ReferenceIdeal.S200000x300.Idx) :
    (Host.dotGeneral (F := Ideal) (φ₁ := .f32) (φ₂ := .f32) Cert.ReferenceIdeal.dot_S200000x300_S300x300_S200000x300_1_0_0_1_n_n none l r : FVec Ideal Cert.ReferenceIdeal.S200000x300 .f32) i
      = ∑ k : Fin 300, l (Cert.ReferenceIdeal.ReadP.lidx_main_v25 i k) * r (Cert.ReferenceIdeal.ReadP.ridx_main_v25 i k) := by
  simp only [Host.dotGeneral]
  rw [Ideal.dotGeneral_apply, ← Equiv.sum_comp (ValueIdx.contrEquiv1 Cert.ReferenceIdeal.dot_S200000x300_S300x300_S200000x300_1_0_0_1_n_n 300 rfl rfl).symm]
  refine Finset.sum_congr rfl fun k _ => ?_
  have hk := ValueIdx.contrEquiv1_symm_val Cert.ReferenceIdeal.dot_S200000x300_S300x300_S200000x300_1_0_0_1_n_n 300 rfl rfl k
  have el : Cert.ReferenceIdeal.dot_S200000x300_S300x300_S200000x300_1_0_0_1_n_n.lhsIdx i ((ValueIdx.contrEquiv1 Cert.ReferenceIdeal.dot_S200000x300_S300x300_S200000x300_1_0_0_1_n_n 300 rfl rfl).symm k) = Cert.ReferenceIdeal.ReadP.lidx_main_v25 i k := funext fun a => Fin.ext (by
    match a with
    | ⟨0, _⟩ => exact Cert.ReferenceIdeal.ReadP.lhs_main_v25_0 _ _
    | ⟨1, _⟩ => exact (Cert.ReferenceIdeal.ReadP.lhs_main_v25_1 _ _).trans hk)
  have er : Cert.ReferenceIdeal.dot_S200000x300_S300x300_S200000x300_1_0_0_1_n_n.rhsIdx i ((ValueIdx.contrEquiv1 Cert.ReferenceIdeal.dot_S200000x300_S300x300_S200000x300_1_0_0_1_n_n 300 rfl rfl).symm k) = Cert.ReferenceIdeal.ReadP.ridx_main_v25 i k := funext fun a => Fin.ext (by
    match a with
    | ⟨0, _⟩ => exact (Cert.ReferenceIdeal.ReadP.rhs_main_v25_0 _ _).trans hk
    | ⟨1, _⟩ => exact Cert.ReferenceIdeal.ReadP.rhs_main_v25_1 _ _)
  rw [el, er]

/-- The reference's spelling, maximum(inp + dot_general(am − mr, W_h), broadcast 0), is the same function. -/
theorem ref_eq (am mr : FVec Ideal Cert.ReferenceIdeal.S200000x300 .f32) (w : FVec Ideal Cert.ReferenceIdeal.S300x300 .f32) (inp : FVec Ideal Cert.ReferenceIdeal.S200000x300 .f32) :
    maximumf (F := Ideal) (φ := .f32)
      (addf (F := Ideal) (φ := .f32) inp
        (Host.dotGeneral (φ₁ := .f32) (φ₂ := .f32) Cert.ReferenceIdeal.dot_S200000x300_S300x300_S200000x300_1_0_0_1_n_n none
          (subf (F := Ideal) (φ := .f32) am mr) w))
      (Cert.ReferenceIdeal.ReadP.val_main_call1_v0 (F := Ideal))
      = G1 am mr w inp := by
  funext i
  have hzero : Cert.ReferenceIdeal.ReadP.val_main_call1_v0 (F := Ideal) i = 0 := by
    rw [Cert.ReferenceIdeal.ReadP.val_main_call1_v0_apply, Cert.ReferenceIdeal.ReadP.val_main_call1_cst_apply]
    exact Ideal.ofBits_zero_f32
  show max (inp i + (Host.dotGeneral (F := Ideal) (φ₁ := .f32) (φ₂ := .f32) Cert.ReferenceIdeal.dot_S200000x300_S300x300_S200000x300_1_0_0_1_n_n none (subf (F := Ideal) (φ := .f32) am mr) w : FVec Ideal Cert.ReferenceIdeal.S200000x300 .f32) i) (Cert.ReferenceIdeal.ReadP.val_main_call1_v0 (F := Ideal) i) = _
  rw [dot_at, hzero]
  rfl

/-- What region 1 leaves in its output array, from ANY entry contents V: with am the array staged through window 0
    (main_v12), mr through window 1 (main_v11), the weights through window 2 (main_v1) and inp through window 3
    (main_v6), the reference's maximum(inp + dot_general(am − mr, W_h), 0). -/
theorem arr1 (c : Dev nD) :
    ((dat1 (F := Ideal) V c).arrAt 4 cfg1.N : FVec Ideal Cert.ReferenceIdeal.S200000x300 .f32)
      = maximumf (F := Ideal) (φ := .f32)
          (addf (F := Ideal) (φ := .f32) (V c main_v6 : FVec Ideal Cert.ReferenceIdeal.S200000x300 .f32)
            (Host.dotGeneral (φ₁ := .f32) (φ₂ := .f32) Cert.ReferenceIdeal.dot_S200000x300_S300x300_S200000x300_1_0_0_1_n_n none
              (subf (F := Ideal) (φ := .f32) (V c main_v12 : FVec Ideal Cert.ReferenceIdeal.S200000x300 .f32) (V c main_v11 : FVec Ideal Cert.ReferenceIdeal.S200000x300 .f32))
              (V c main_v1 : FVec Ideal Cert.ReferenceIdeal.S300x300 .f32)))
          (Cert.ReferenceIdeal.ReadP.val_main_call1_v0 (F := Ideal)) :=
  (arr_eq V c).trans (ref_eq (V c main_v12) (V c main_v11) (V c main_v1) (V c main_v6)).symm

end Cert.KernelIdeal.Region1

end
-- ==== Proof.StageMsg1.lean ====
/-
  message after round 1: the second pallas_call is the reference's relu(inp + (a_message[b2a] − message[b2revb]) · W_h).
-/
import proofs.«417200_j83743272337589_3_alg».proof.Proof.StageRound1
import proofs.«417200_j83743272337589_3_alg».proof.Proof.Region1

set_option maxRecDepth 16384

noncomputable section

namespace Cert.KernelIdeal.Stages

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- message after round 1: the update's pallas_call at the operands the host stretch before it left. -/
theorem msg1_eq (hr : InRange m) (c : Dev nD) :
    W9 m ρ c (Proc.devRef .tc main_v13) = Cert.ReferenceIdeal.ReadP.val_main_v27 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  have h := W9_arr m ρ c 4
  rw [Region1.arr1 (V8 m ρ) c] at h
  dsimp only [V8] at h
  rw [w8_inp m ρ c, inp_eq m ρ c, ag1_eq m ρ hr c, mr1_eq m ρ hr c, w8_wh m ρ c] at h
  exact h

end Cert.KernelIdeal.Stages

end
-- ==== Proof.StageRound2.lean ====
/-
  Round 2 on the host: a_message = Σ_j message[a2b[·, j]] and the two row gathers the update reads.
-/
import proofs.«417200_j83743272337589_3_alg».proof.Proof.StageMsg1
import proofs.«417200_j83743272337589_3_alg».proof.Proof.Take

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.StableHlo

/-! Host stretches read at any buffer contents. -/
section Generic
variable (W : Valuation τ sig (Elt Ideal))

/-- `hostOps2_1`: main_v15 ends at the sum of main_v14 over axis 1. -/
private theorem sum_v15 :
    StableHlo.after (hostOps2_1 (F := Ideal)) W (Proc.devRef .tc main_v15)
      = Host.reduceAdd (F := Ideal) (W (Proc.devRef .tc main_v14)) (constant (F := Ideal) S_ .f32 0x00000000#32) reducesTo_S100000x6x300_S100000x300_d1 h_S_ := by
  simp only [hostOps2_1]
  after_results

end Generic

variable (m : (ℓ : Loc nD τ sig) → Buf (Elt Ideal) ℓ) (ρ : Dev nD → PrngReg)

/-! The index inputs are as at launch at every boundary that reads them. -/

private theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := by not_written hostOps1_5
    _ = W6 m ρ c (Proc.devRef .tc main_arg6) := by not_written hostOps1_4
    _ = W5 m ρ c (Proc.devRef .tc main_arg6) := by not_written hostOps1_3
    _ = W4 m ρ c (Proc.devRef .tc main_arg6) := by not_written hostOps1_2
    _ = W3 m ρ c (Proc.devRef .tc main_arg6) := by not_written hostOps1_1
    _ = W2 m ρ c (Proc.devRef .tc main_arg6) := by not_written hostOps1
    _ = W1 m ρ c (Proc.devRef .tc main_arg6) := W2_of_ne m ρ c main_arg6 (by decide)
    _ = W0 m ρ c (Proc.devRef .tc main_arg6) := by not_written hostOps0
    _ = m ((c : Thread nD τ).loc main_arg6) := rfl

private theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := by not_written hostOps1_5
    _ = W6 m ρ c (Proc.devRef .tc main_arg7) := by not_written hostOps1_4
    _ = W5 m ρ c (Proc.devRef .tc main_arg7) := by not_written hostOps1_3
    _ = W4 m ρ c (Proc.devRef .tc main_arg7) := by not_written hostOps1_2
    _ = W3 m ρ c (Proc.devRef .tc main_arg7) := by not_written hostOps1_1
    _ = W2 m ρ c (Proc.devRef .tc main_arg7) := by not_written hostOps1
    _ = W1 m ρ c (Proc.devRef .tc main_arg7) := W2_of_ne m ρ c main_arg7 (by decide)
    _ = W0 m ρ c (Proc.devRef .tc main_arg7) := by not_written hostOps0
    _ = m ((c : Thread nD τ).loc main_arg7) := rfl

private theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := by not_written hostOps1_5
    _ = W6 m ρ c (Proc.devRef .tc main_arg8) := by not_written hostOps1_4
    _ = W5 m ρ c (Proc.devRef .tc main_arg8) := by not_written hostOps1_3
    _ = W4 m ρ c (Proc.devRef .tc main_arg8) := by not_written hostOps1_2
    _ = W3 m ρ c (Proc.devRef .tc main_arg8) := by not_written hostOps1_1
    _ = W2 m ρ c (Proc.devRef .tc main_arg8) := by not_written hostOps1
    _ = W1 m ρ c (Proc.devRef .tc main_arg8) := W2_of_ne m ρ c main_arg8 (by decide)
    _ = W0 m ρ c (Proc.devRef .tc main_arg8) := by not_written hostOps0
    _ = m ((c : Thread nD τ).loc main_arg8) := rfl

private theorem W9_main_arg6 (c : Dev nD) : W9 m ρ c (Proc.devRef .tc main_arg6) = m ((c : Thread nD τ).loc main_arg6) :=
  (W9_of_ne m ρ c main_arg6 (by decide)).trans (W8_main_arg6 m ρ c)

private theorem W11_main_arg8 (c : Dev nD) : W11 m ρ c (Proc.devRef .tc main_arg8) = m ((c : Thread nD τ).loc main_arg8) :=
  calc W11 m ρ c (Proc.devRef .tc main_arg8)
    _ = W10 m ρ c (Proc.devRef .tc main_arg8) := by not_written hostOps2_1
    _ = W9 m ρ c (Proc.devRef .tc main_arg8) := by not_written hostOps2
    _ = W8 m ρ c (Proc.devRef .tc main_arg8) := W9_of_ne m ρ c main_arg8 (by decide)
    _ = m ((c : Thread nD τ).loc main_arg8) := W8_main_arg8 m ρ c

private theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := by not_written hostOps2_2
    _ = W10 m ρ c (Proc.devRef .tc main_arg7) := by not_written hostOps2_1
    _ = W9 m ρ c (Proc.devRef .tc main_arg7) := by not_written hostOps2
    _ = W8 m ρ c (Proc.devRef .tc main_arg7) := W9_of_ne m ρ c main_arg7 (by decide)
    _ = m ((c : Thread nD τ).loc main_arg7) := W8_main_arg7 m ρ c

/-- message after round 1 is still in main_v13 when the third take reads it. -/
private theorem W11_main_v13 (c : Dev nD) : W11 m ρ c (Proc.devRef .tc main_v13) = W9 m ρ c (Proc.devRef .tc main_v13) :=
  calc W11 m ρ c (Proc.devRef .tc main_v13)
    _ = W10 m ρ c (Proc.devRef .tc main_v13) := by not_written hostOps2_1
    _ = W9 m ρ c (Proc.devRef .tc main_v13) := by not_written hostOps2

/-- An input array of region 1 is at its exit what it was at its entry. -/
private theorem W9_main_v6 (c : Dev nD) : W9 m ρ c (Proc.devRef .tc main_v6) = W8 m ρ c (Proc.devRef .tc main_v6) :=
  (W9_arr m ρ c 3).trans (((dat1 (V8 m ρ) c).arrAt_in 3 (by decide) cfg1.N).trans (A_eq1 (V8 m ρ) c 3))
private theorem W9_main_v1 (c : Dev nD) : W9 m ρ c (Proc.devRef .tc main_v1) = W8 m ρ c (Proc.devRef .tc main_v1) :=
  (W9_arr m ρ c 2).trans (((dat1 (V8 m ρ) c).arrAt_in 2 (by decide) cfg1.N).trans (A_eq1 (V8 m ρ) c 2))

/-- a_message, round 2: main_v15 is the reference's sum over the six incoming bonds. -/
private theorem v15_eq (hr : InRange m) (c : Dev nD) :
    W12 m ρ c (Proc.devRef .tc main_v15) = Cert.ReferenceIdeal.ReadP.val_main_v35 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  have h6 := W9_main_arg6 m ρ c
  have h14 : W10 m ρ c (Proc.devRef .tc main_v14) = Cert.ReferenceIdeal.ReadP.val_main_v34 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
    refine (Take.take_call5 (W9 m ρ c) ?_).trans ?_
    · intro i; rw [h6]; exact hr.a2b c i
    · rw [h6, msg1_eq m ρ hr c]
      rfl
  have h : W12 m ρ c (Proc.devRef .tc main_v15) = W11 m ρ c (Proc.devRef .tc main_v15) := by not_written hostOps2_2
  refine h.trans ((sum_v15 (W10 m ρ c)).trans ?_)
  rw [h14]
  rfl

/-- a_message[b2a], round 2. -/
theorem ag2_eq (hr : InRange m) (c : Dev nD) :
    W13 m ρ c (Proc.devRef .tc main_v17) = Cert.ReferenceIdeal.ReadP.val_main_v42 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  have h7 := W12_main_arg7 m ρ c
  refine (Take.take_call7 (W12 m ρ c) ?_).trans ?_
  · intro i; rw [h7]; exact hr.b2a c i
  · rw [h7, v15_eq m ρ hr c]
    rfl
/-- message[b2revb], round 2. -/
theorem mr2_eq (hr : InRange m) (c : Dev nD) :
    W13 m ρ c (Proc.devRef .tc main_v16) = Cert.ReferenceIdeal.ReadP.val_main_v49 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  have h8 := W11_main_arg8 m ρ c
  have h : W13 m ρ c (Proc.devRef .tc main_v16) = W12 m ρ c (Proc.devRef .tc main_v16) := by not_written hostOps2_3
  refine h.trans ((Take.take_call6 (W11 m ρ c) ?_).trans ?_)
  · intro i; rw [h8]; exact hr.b2revb c i
  · rw [h8, W11_main_v13 m ρ c, msg1_eq m ρ hr c]
    rfl
theorem w13_inp (c : Dev nD) : W13 m ρ c (Proc.devRef .tc main_v6) = W2 m ρ c (Proc.devRef .tc main_v6) :=
  calc W13 m ρ c (Proc.devRef .tc main_v6)
    _ = W12 m ρ c (Proc.devRef .tc main_v6) := by not_written hostOps2_3
    _ = W11 m ρ c (Proc.devRef .tc main_v6) := by not_written hostOps2_2
    _ = W10 m ρ c (Proc.devRef .tc main_v6) := by not_written hostOps2_1
    _ = W9 m ρ c (Proc.devRef .tc main_v6) := by not_written hostOps2
    _ = W8 m ρ c (Proc.devRef .tc main_v6) := W9_main_v6 m ρ c
    _ = W2 m ρ c (Proc.devRef .tc main_v6) := w8_inp m ρ c
theorem w13_wh (c : Dev nD) : W13 m ρ c (Proc.devRef .tc main_v1) = m ((c : Thread nD τ).loc main_arg3) :=
  calc W13 m ρ c (Proc.devRef .tc main_v1)
    _ = W12 m ρ c (Proc.devRef .tc main_v1) := by not_written hostOps2_3
    _ = W11 m ρ c (Proc.devRef .tc main_v1) := by not_written hostOps2_2
    _ = W10 m ρ c (Proc.devRef .tc main_v1) := by not_written hostOps2_1
    _ = W9 m ρ c (Proc.devRef .tc main_v1) := by not_written hostOps2
    _ = W8 m ρ c (Proc.devRef .tc main_v1) := W9_main_v1 m ρ c
    _ = m ((c : Thread nD τ).loc main_arg3) := w8_wh m ρ c

end Cert.KernelIdeal.Stages

end
-- ==== Proof.Region2.lean ====
/-
  The bond-message update as a pallas_call (launch 2): fifty row blocks of 4000 rows; a block of the result is
  max(inp + (am − mr) · W_h, 0) on its rows, with am, mr and inp the same rows of three 200000×300 arrays and W_h
  whole.  The blocks tile the rows, so the array left is relu(inp + (am − mr) · W_h) as the reference spells it.
-/
import proofs.«417200_j83743272337589_3_alg».proof.Proof.Gen.KernelIdeal.Frame
import proofs.«417200_j83743272337589_3_alg».proof.Proof.RefRead

set_option maxRecDepth 16384

noncomputable section

namespace Cert.KernelIdeal.Region2

open Cert.KernelIdeal Cert.KernelIdeal.Gen
open Idealize.ShloMosaic Idealize.ShloMosaic.TcCoe Idealize.SL.Sem

open Cert.ReferenceIdeal.ReadP (lidx_main_v25 ridx_main_v25)

variable (V : (c : Dev nD) → (b : Ref sig .tc) → Buf (Elt Ideal) ((c : Thread nD τ).loc b))

/-- Row axis of the left operand: the output's row. -/
theorem lhs_blk_0 (i : S4000x300.Idx) (q : dot_S4000x300_S300x300_S4000x300_1_0_0_1_n_n.contr.Idx) :
    (dot_S4000x300_S300x300_S4000x300_1_0_0_1_n_n.lhsIdx i q 0).val = (i 0).val := by
  unfold DotDims.lhsIdx
  rw [dif_neg (show ¬(0 : Fin S4000x300.rank) ∈ dot_S4000x300_S300x300_S4000x300_1_0_0_1_n_n.lhsBatch by decide), dif_pos (show (0 : Fin S4000x300.rank) ∈ dot_S4000x300_S300x300_S4000x300_1_0_0_1_n_n.lhsNonContracting by decide)]
  rfl
/-- Column axis of the left operand: the contraction coordinate. -/
theorem lhs_blk_1 (i : S4000x300.Idx) (q : dot_S4000x300_S300x300_S4000x300_1_0_0_1_n_n.contr.Idx) :
    (dot_S4000x300_S300x300_S4000x300_1_0_0_1_n_n.lhsIdx i q 1).val = (q ⟨0, by decide⟩).val :=
  dot_S4000x300_S300x300_S4000x300_1_0_0_1_n_n.lhsIdx_val_of_single rfl i q
/-- Row axis of the right operand: the contraction coordinate. -/
theorem rhs_blk_0 (i : S4000x300.Idx) (q : dot_S4000x300_S300x300_S4000x300_1_0_0_1_n_n.contr.Idx) :
    (dot_S4000x300_S300x300_S4000x300_1_0_0_1_n_n.rhsIdx i q 0).val = (q ⟨0, by decide⟩).val :=
  dot_S4000x300_S300x300_S4000x300_1_0_0_1_n_n.rhsIdx_val_of_single rfl i q
/-- Column axis of the right operand: the output's column. -/
theorem rhs_blk_1 (i : S4000x300.Idx) (q : dot_S4000x300_S300x300_S4000x300_1_0_0_1_n_n.contr.Idx) :
    (dot_S4000x300_S300x300_S4000x300_1_0_0_1_n_n.rhsIdx i q 1).val = (i 1).val := by
  unfold DotDims.rhsIdx
  rw [dif_neg (show ¬(1 : Fin S300x300.rank) ∈ dot_S4000x300_S300x300_S4000x300_1_0_0_1_n_n.rhsBatch by decide), dif_pos (show (1 : Fin S300x300.rank) ∈ dot_S4000x300_S300x300_S4000x300_1_0_0_1_n_n.rhsNonContracting by decide)]
  rfl

/-- Entry (r, k) of a row block, for the output entry i = (r, q). -/
abbrev lidx_blk (i : S4000x300.Idx) (k : Fin 300) : S4000x300.Idx := fun a => match a with
  | ⟨0, _⟩ => ⟨(i 0).val, (i 0).isLt⟩
  | ⟨1, _⟩ => ⟨k.val, k.isLt⟩
/-- Entry (k, q) of the weights, for the output entry i = (r, q). -/
abbrev ridx_blk (i : S4000x300.Idx) (k : Fin 300) : S300x300.Idx := fun a => match a with
  | ⟨0, _⟩ => ⟨k.val, k.isLt⟩
  | ⟨1, _⟩ => ⟨(i 1).val, (i 1).isLt⟩

/-- The block product into the zero accumulator, at an entry: the sum over k of y[r, k] · w[k, q]. -/
theorem mm_apply (y : FVec Ideal S4000x300 .bf16) (w : FVec Ideal S300x300 .bf16) (i : S4000x300.Idx) :
    matmul dot_S4000x300_S300x300_S4000x300_1_0_0_1_n_n none y w (constant S4000x300 .f32 0x00000000#32) i
      = ∑ k : Fin 300, y (lidx_blk i k) * w (ridx_blk i k) := by
  simp only [matmul]
  rw [Ideal.matmul_constant_zero_apply, ← Equiv.sum_comp (ValueIdx.contrEquiv1 dot_S4000x300_S300x300_S4000x300_1_0_0_1_n_n 300 rfl rfl).symm]
  refine Finset.sum_congr rfl fun k _ => ?_
  have hk := ValueIdx.contrEquiv1_symm_val dot_S4000x300_S300x300_S4000x300_1_0_0_1_n_n 300 rfl rfl k
  have el : dot_S4000x300_S300x300_S4000x300_1_0_0_1_n_n.lhsIdx i ((ValueIdx.contrEquiv1 dot_S4000x300_S300x300_S4000x300_1_0_0_1_n_n 300 rfl rfl).symm k) = lidx_blk i k := funext fun a => Fin.ext (by
    match a with
    | ⟨0, _⟩ => exact lhs_blk_0 _ _
    | ⟨1, _⟩ => exact (lhs_blk_1 _ _).trans hk)
  have er : dot_S4000x300_S300x300_S4000x300_1_0_0_1_n_n.rhsIdx i ((ValueIdx.contrEquiv1 dot_S4000x300_S300x300_S4000x300_1_0_0_1_n_n 300 rfl rfl).symm k) = ridx_blk i k := funext fun a => Fin.ext (by
    match a with
    | ⟨0, _⟩ => exact (rhs_blk_0 _ _).trans hk
    | ⟨1, _⟩ => exact rhs_blk_1 _ _)
  rw [el, er]

/-- The body's payload at an entry: max(inp[r, q] + Σ_k (am[r, k] − mr[r, k]) · w[k, q], 0). -/
theorem pay_apply (x0 x1 : Vec Ideal S4000x300 .f32) (x2 : Vec Ideal S300x300 .bf16) (x3 : Vec Ideal S4000x300 .f32) (i : S4000x300.Idx) :
    k2_pay1 x0 x1 x2 x3 i
      = max ((x3 i : EReal) + ∑ k : Fin 300, ((x0 (lidx_blk i k) : EReal) - (x1 (lidx_blk i k) : EReal)) * (x2 (ridx_blk i k) : EReal))
          (Ideal.ofBits .f32 0x00000000#32) := by
  unfold k2_pay1
  simp only [shapeCast_self]
  rw [ValueIdx.maximumf_apply, ValueIdx.addf_apply, mm_apply]
  rfl

/-- The whole update, entry by entry: (r, q) ↦ max(inp[r, q] + Σ_k (am[r, k] − mr[r, k]) · W[k, q], 0). -/
abbrev G2 (am mr inp : Cert.ReferenceIdeal.S200000x300.Idx → EReal) (W : Cert.ReferenceIdeal.S300x300.Idx → EReal) : Cert.ReferenceIdeal.S200000x300.Idx → EReal :=
  fun i => max (inp i + ∑ k : Fin 300, (am (lidx_main_v25 i k) - mr (lidx_main_v25 i k)) * W (ridx_main_v25 i k))
    (Ideal.ofBits .f32 0x00000000#32)

/-- The reference's dot_general at an entry, for any left operand: the sum over k of y[r, k] · W[k, q]. -/
theorem dot_ref_apply (y : FVec Ideal Cert.ReferenceIdeal.S200000x300 .f32) (W : FVec Ideal Cert.ReferenceIdeal.S300x300 .f32) (i : Cert.ReferenceIdeal.S200000x300.Idx) :
    Host.dotGeneral (φ₁ := .f32) (φ₂ := .f32) Cert.ReferenceIdeal.dot_S200000x300_S300x300_S200000x300_1_0_0_1_n_n none y W i = ∑ k : Fin 300, y (lidx_main_v25 i k) * W (ridx_main_v25 i k) := by
  simp only [Host.dotGeneral]
  rw [Ideal.dotGeneral_apply, ← Equiv.sum_comp (ValueIdx.contrEquiv1 Cert.ReferenceIdeal.dot_S200000x300_S300x300_S200000x300_1_0_0_1_n_n 300 rfl rfl).symm]
  refine Finset.sum_congr rfl fun k _ => ?_
  have hk := ValueIdx.contrEquiv1_symm_val Cert.ReferenceIdeal.dot_S200000x300_S300x300_S200000x300_1_0_0_1_n_n 300 rfl rfl k
  have el : Cert.ReferenceIdeal.dot_S200000x300_S300x300_S200000x300_1_0_0_1_n_n.lhsIdx i ((ValueIdx.contrEquiv1 Cert.ReferenceIdeal.dot_S200000x300_S300x300_S200000x300_1_0_0_1_n_n 300 rfl rfl).symm k) = lidx_main_v25 i k := funext fun a => Fin.ext (by
    match a with
    | ⟨0, _⟩ => exact Cert.ReferenceIdeal.ReadP.lhs_main_v25_0 _ _
    | ⟨1, _⟩ => exact (Cert.ReferenceIdeal.ReadP.lhs_main_v25_1 _ _).trans hk)
  have er : Cert.ReferenceIdeal.dot_S200000x300_S300x300_S200000x300_1_0_0_1_n_n.rhsIdx i ((ValueIdx.contrEquiv1 Cert.ReferenceIdeal.dot_S200000x300_S300x300_S200000x300_1_0_0_1_n_n 300 rfl rfl).symm k) = ridx_main_v25 i k := funext fun a => Fin.ext (by
    match a with
    | ⟨0, _⟩ => exact (Cert.ReferenceIdeal.ReadP.rhs_main_v25_0 _ _).trans hk
    | ⟨1, _⟩ => exact Cert.ReferenceIdeal.ReadP.rhs_main_v25_1 _ _)
  rw [el, er]

/-- The reference's maximum(inp + dot_general(am − mr, W), 0) is that update. -/
theorem ref_eq (am mr inp : FVec Ideal Cert.ReferenceIdeal.S200000x300 .f32) (W : FVec Ideal Cert.ReferenceIdeal.S300x300 .f32) :
    maximumf (F := Ideal) (φ := .f32)
        (addf (F := Ideal) (φ := .f32) inp
          (Host.dotGeneral (φ₁ := .f32) (φ₂ := .f32) Cert.ReferenceIdeal.dot_S200000x300_S300x300_S200000x300_1_0_0_1_n_n none (subf (F := Ideal) (φ := .f32) am mr) W))
        (Cert.ReferenceIdeal.ReadP.val_main_call2_v0 (F := Ideal))
      = G2 am mr inp W := by
  funext i
  rw [ValueIdx.maximumf_apply, ValueIdx.addf_apply, dot_ref_apply, Cert.ReferenceIdeal.ReadP.val_main_call2_v0_apply]
  rfl

theorem zero_off : (![0, 0] : Fin 2 → Nat) = fun _ => 0 := funext fun a => by fin_cases a <;> rfl

/-- One entry of one block: when the staged rows are row i of am, mr and inp and the staged weights are W, the
    payload's entry is the update's entry. -/
theorem point_eq (am mr inp : Cert.ReferenceIdeal.S200000x300.Idx → EReal) (W : Cert.ReferenceIdeal.S300x300.Idx → EReal)
    (x0 x1 : Vec Ideal S4000x300 .f32) (x2 : Vec Ideal S300x300 .bf16) (x3 : Vec Ideal S4000x300 .f32)
    (j : S4000x300.Idx) (i : Cert.ReferenceIdeal.S200000x300.Idx)
    (h0 : ∀ k : Fin 300, x0 (lidx_blk j k) = am (lidx_main_v25 i k))
    (h1 : ∀ k : Fin 300, x1 (lidx_blk j k) = mr (lidx_main_v25 i k))
    (h2 : ∀ k : Fin 300, x2 (ridx_blk j k) = W (ridx_main_v25 i k))
    (h3 : x3 j = inp i) :
    k2_pay1 x0 x1 x2 x3 j = G2 am mr inp W i := by
  rw [pay_apply, h3]
  refine congrArg (fun s : EReal => max (inp i + s) (Ideal.ofBits .f32 0x00000000#32)) ?_
  exact Finset.sum_congr rfl fun k _ => by rw [h0 k, h1 k, h2 k]

/-- The index maps over the 50 points: each row block moves with the point, the weights stay at 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point t writes back is block t of the update. -/
theorem flushed_eq (c : Dev nD) (t : Fin cfg2.N) :
    (dat2 (F := Ideal) V c).flushed 4 t
      = ((cfg2.win 4).blk t).view.read (Elt Ideal) (G2 (V c main_v17) (V c main_v16) (V c main_v6) (V c main_v1)) := by
  show (cfg2.win 4).cut (grid2.coords t) ((dat2 V c).after 4 t) = _
  rw [after2_4]
  unfold out2_4
  rw [View.canon_unit_zero zero_off]
  simp only [View.ld_unit_zero (S := S4000x300) zero_off, View.ld_unit_zero (S := S300x300) zero_off]
  obtain ⟨e00, e01, e10, e11, e20, e21, e30, e31, e40, e41⟩ := idx_facts t
  funext j
  refine point_eq (V c main_v17) (V c main_v16) (V c main_v6) (V c main_v1) (iblk2 V c 0 t) (iblk2 V c 1 t) (iblk2 V c 2 t) (iblk2 V c 3 t) j (((cfg2.win 4).blk t).view.emb j) (fun k => ?_) (fun k => ?_) (fun k => ?_) ?_
  · show V c main_v17 (((cfg2.win 0).blk t).view.emb (lidx_blk j k)) = V c main_v17 (lidx_main_v25 (((cfg2.win 4).blk t).view.emb j) k)
    refine congrArg _ (funext fun a => Fin.ext ?_)
    match a with
    | ⟨0, _⟩ => show win2_0.index t (0 : Fin 2) * 4000 + 1 * (j 0).val = win2_4.index t (0 : Fin 2) * 4000 + 1 * (j 0).val; omega
    | ⟨1, _⟩ => show win2_0.index t (1 : Fin 2) * 300 + 1 * k.val = k.val; omega
  · show V c main_v16 (((cfg2.win 1).blk t).view.emb (lidx_blk j k)) = V c main_v16 (lidx_main_v25 (((cfg2.win 4).blk t).view.emb j) k)
    refine congrArg _ (funext fun a => Fin.ext ?_)
    match a with
    | ⟨0, _⟩ => show win2_1.index t (0 : Fin 2) * 4000 + 1 * (j 0).val = win2_4.index t (0 : Fin 2) * 4000 + 1 * (j 0).val; omega
    | ⟨1, _⟩ => show win2_1.index t (1 : Fin 2) * 300 + 1 * k.val = k.val; omega
  · show V c main_v1 (((cfg2.win 2).blk t).view.emb (ridx_blk j k)) = V c main_v1 (ridx_main_v25 (((cfg2.win 4).blk t).view.emb j) k)
    refine congrArg _ (funext fun a => Fin.ext ?_)
    match a with
    | ⟨0, _⟩ => show win2_2.index t (0 : Fin 2) * 300 + 1 * k.val = k.val; omega
    | ⟨1, _⟩ => show win2_2.index t (1 : Fin 2) * 300 + 1 * (j 1).val = win2_4.index t (1 : Fin 2) * 300 + 1 * (j 1).val; omega
  · show V c main_v6 (((cfg2.win 3).blk t).view.emb j) = V c main_v6 (((cfg2.win 4).blk t).view.emb j)
    refine congrArg _ (funext fun a => Fin.ext ?_)
    match a with
    | ⟨0, _⟩ => show win2_3.index t (0 : Fin 2) * 4000 + 1 * (j 0).val = win2_4.index t (0 : Fin 2) * 4000 + 1 * (j 0).val; omega
    | ⟨1, _⟩ => show win2_3.index t (1 : Fin 2) * 300 + 1 * (j 1).val = win2_4.index t (1 : Fin 2) * 300 + 1 * (j 1).val; omega

/-- An entry is in point t's block iff each coordinate is in the block's range on its axis. -/
theorem mem_blk (t : Fin cfg2.N) (i : S200000x300.Idx) :
    i ∈ ((cfg2.win 4).blk t).view.set ↔ ∀ a : Fin 2, win2_4.index t a * S4000x300.size a ≤ (i a).val ∧ (i a).val < win2_4.index t a * S4000x300.size a + S4000x300.size a := by
  show i ∈ ((View.whole main_v18).slice (win2_4.rect t)).set ↔ _
  rw [View.set_slice_whole, Rect.mem_set_unit]
  exact Iff.rfl

/-- The blocks tile the rows: row r is in the block of point r / 4000. -/
theorem cover (i : S200000x300.Idx) :
    ∃ t : Fin cfg2.N, (cfg2.win 4).flush t = true ∧ i ∈ ((cfg2.win 4).blk t).view.set := by
  have hi0 : (i 0).val < 200000 := (i 0).isLt
  have hi1 : (i 1).val < 300 := (i 1).isLt
  have hN : (i 0).val / 4000 < cfg2.N := by show _ < grid2.N; rw [N_2]; omega
  obtain ⟨-, -, -, -, -, -, -, -, e40, e41⟩ := idx_facts ⟨(i 0).val / 4000, hN⟩
  have e40' : win2_4.index ⟨(i 0).val / 4000, hN⟩ (0 : Fin 2) = (i 0).val / 4000 := e40
  refine ⟨⟨(i 0).val / 4000, hN⟩, flush2_4 _, ?_⟩
  rw [mem_blk]
  intro a
  match a with
  | ⟨0, _⟩ => show win2_4.index ⟨(i 0).val / 4000, hN⟩ (0 : Fin 2) * 4000 ≤ (i 0).val ∧ (i 0).val < win2_4.index ⟨(i 0).val / 4000, hN⟩ (0 : Fin 2) * 4000 + 4000; omega
  | ⟨1, _⟩ => show win2_4.index ⟨(i 0).val / 4000, hN⟩ (1 : Fin 2) * 300 ≤ (i 1).val ∧ (i 1).val < win2_4.index ⟨(i 0).val / 4000, hN⟩ (1 : Fin 2) * 300 + 300; omega

/-- What region 2 leaves in its output array, from ANY entry contents V: with am the array staged through window 0
    (main_v17), mr through window 1 (main_v16), the weights through window 2 (main_v1) and inp through window 3
    (main_v6), the reference's maximum(inp + dot_general(am − mr, W_h), 0). -/
theorem arr2 (c : Dev nD) :
    ((dat2 (F := Ideal) V c).arrAt 4 cfg2.N : FVec Ideal Cert.ReferenceIdeal.S200000x300 .f32)
      = maximumf (F := Ideal) (φ := .f32)
          (addf (F := Ideal) (φ := .f32) (V c main_v6 : FVec Ideal Cert.ReferenceIdeal.S200000x300 .f32)
            (Host.dotGeneral (φ₁ := .f32) (φ₂ := .f32) Cert.ReferenceIdeal.dot_S200000x300_S300x300_S200000x300_1_0_0_1_n_n none
              (subf (F := Ideal) (φ := .f32) (V c main_v17 : FVec Ideal Cert.ReferenceIdeal.S200000x300 .f32) (V c main_v16 : FVec Ideal Cert.ReferenceIdeal.S200000x300 .f32))
              (V c main_v1 : FVec Ideal Cert.ReferenceIdeal.S300x300 .f32)))
          (Cert.ReferenceIdeal.ReadP.val_main_call2_v0 (F := Ideal)) :=
  ((dat2 (F := Ideal) V c).arrAt_eq_of_cover 4 (G2 (V c main_v17) (V c main_v16) (V c main_v6) (V c main_v1)) (fun t _ => flushed_eq V c t) cover).trans
    (ref_eq (V c main_v17) (V c main_v16) (V c main_v6) (V c main_v1)).symm

end Cert.KernelIdeal.Region2

end
-- ==== Proof.StageMsg2.lean ====
/-
  message after round 2: the third pallas_call, the same update.
-/
import proofs.«417200_j83743272337589_3_alg».proof.Proof.StageRound2
import proofs.«417200_j83743272337589_3_alg».proof.Proof.Region2

set_option maxRecDepth 16384

noncomputable section

namespace Cert.KernelIdeal.Stages

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- message after round 2: the update's pallas_call at the operands the host stretch before it left. -/
theorem msg2_eq (hr : InRange m) (c : Dev nD) :
    W14 m ρ c (Proc.devRef .tc main_v18) = Cert.ReferenceIdeal.ReadP.val_main_v53 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  have h := W14_arr m ρ c 4
  rw [Region2.arr2 (V13 m ρ) c] at h
  dsimp only [V13] at h
  rw [w13_inp m ρ c, inp_eq m ρ c, ag2_eq m ρ hr c, mr2_eq m ρ hr c, w13_wh m ρ c] at h
  exact h

end Cert.KernelIdeal.Stages

end
-- ==== Proof.StageSum3.lean ====
/-
  The last neighbour sum a_message = Σ_j message[a2b[·, j]], read by the atom output.
-/
import proofs.«417200_j83743272337589_3_alg».proof.Proof.StageMsg2
import proofs.«417200_j83743272337589_3_alg».proof.Proof.Take

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.StableHlo

/-! The last host stretch read at any buffer contents. -/
section Generic
variable (W : Valuation τ sig (Elt Ideal))

/-- `hostOps3_1`: main_v20 ends at the sum of main_v19 over axis 1. -/
private theorem sum_v20 :
    StableHlo.after (hostOps3_1 (F := Ideal)) W (Proc.devRef .tc main_v20)
      = Host.reduceAdd (F := Ideal) (W (Proc.devRef .tc main_v19)) (constant (F := Ideal) S_ .f32 0x00000000#32) reducesTo_S100000x6x300_S100000x300_d1 h_S_ := by
  simp only [hostOps3_1]
  after_results

end Generic

variable (m : (ℓ : Loc nD τ sig) → Buf (Elt Ideal) ℓ) (ρ : Dev nD → PrngReg)

/-- The index words of a2b are as at launch when the last take reads them. -/
private theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := W14_of_ne m ρ c main_arg6 (by decide)
    _ = W12 m ρ c (Proc.devRef .tc main_arg6) := by not_written hostOps2_3
    _ = W11 m ρ c (Proc.devRef .tc main_arg6) := by not_written hostOps2_2
    _ = W10 m ρ c (Proc.devRef .tc main_arg6) := by not_written hostOps2_1
    _ = W9 m ρ c (Proc.devRef .tc main_arg6) := by not_written hostOps2
    _ = W8 m ρ c (Proc.devRef .tc main_arg6) := W9_of_ne m ρ c main_arg6 (by decide)
    _ = W7 m ρ c (Proc.devRef .tc main_arg6) := by not_written hostOps1_5
    _ = W6 m ρ c (Proc.devRef .tc main_arg6) := by not_written hostOps1_4
    _ = W5 m ρ c (Proc.devRef .tc main_arg6) := by not_written hostOps1_3
    _ = W4 m ρ c (Proc.devRef .tc main_arg6) := by not_written hostOps1_2
    _ = W3 m ρ c (Proc.devRef .tc main_arg6) := by not_written hostOps1_1
    _ = W2 m ρ c (Proc.devRef .tc main_arg6) := by not_written hostOps1
    _ = W1 m ρ c (Proc.devRef .tc main_arg6) := W2_of_ne m ρ c main_arg6 (by decide)
    _ = W0 m ρ c (Proc.devRef .tc main_arg6) := by not_written hostOps0
    _ = m ((c : Thread nD τ).loc main_arg6) := rfl

/-- The last neighbour sum. -/
theorem am3_eq (hr : InRange m) (c : Dev nD) :
    W16 m ρ c (Proc.devRef .tc main_v20) = Cert.ReferenceIdeal.ReadP.val_main_v61 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  have h6 := W14_main_arg6 m ρ c
  have h19 : W15 m ρ c (Proc.devRef .tc main_v19) = Cert.ReferenceIdeal.ReadP.val_main_v60 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
    refine (Take.take_call8 (W14 m ρ c) ?_).trans ?_
    · intro i; rw [h6]; exact hr.a2b c i
    · rw [h6, msg2_eq m ρ hr c]
      rfl
  refine (sum_v20 (W15 m ρ c)).trans ?_
  rw [h19]
  rfl

end Cert.KernelIdeal.Stages

end
-- ==== Proof.Region3.lean ====
/-
  The atom output as a pallas_call: twenty row blocks of 5000 atoms; a block of the result is
  max(fa · Wa + am · Wm + b, 0) on its rows, Wa the first 133 rows of W_o and Wm its last 300.  The reference
  multiplies the row-wise concatenation [fa | am] (433 columns) by the whole W_o: the sum over 433 columns splits into
  the first 133 and the last 300, which is all that joins the two (sums of extended reals are commutative and
  associative; no cancellation is used).
-/
import proofs.«417200_j83743272337589_3_alg».proof.Proof.Gen.KernelIdeal.Frame
import proofs.«417200_j83743272337589_3_alg».proof.Proof.RefRead

set_option maxRecDepth 16384

noncomputable section

namespace Cert.KernelIdeal.Region3

open Cert.KernelIdeal Cert.KernelIdeal.Gen
open Idealize.ShloMosaic Idealize.ShloMosaic.TcCoe Idealize.SL.Sem

open Idealize.ShloMosaic.ValueIdx
theorem hz : (![0, 0] : Fin 2 → Nat) = fun _ => 0 := funext fun a => by fin_cases a <;> rfl

/-! ## The two products of the body, at an index -/

theorem lhsA_0 (i : S5000x300.Idx) (q : dot_S5000x133_S133x300_S5000x300_1_0_0_1_n_n.contr.Idx) :
    (dot_S5000x133_S133x300_S5000x300_1_0_0_1_n_n.lhsIdx i q 0).val = (i 0).val := by
  unfold DotDims.lhsIdx
  rw [dif_neg (show ¬(0 : Fin S5000x133.rank) ∈ dot_S5000x133_S133x300_S5000x300_1_0_0_1_n_n.lhsBatch by decide), dif_pos (show (0 : Fin S5000x133.rank) ∈ dot_S5000x133_S133x300_S5000x300_1_0_0_1_n_n.lhsNonContracting by decide)]
  rfl
theorem lhsA_1 (i : S5000x300.Idx) (q : dot_S5000x133_S133x300_S5000x300_1_0_0_1_n_n.contr.Idx) :
    (dot_S5000x133_S133x300_S5000x300_1_0_0_1_n_n.lhsIdx i q 1).val = (q ⟨0, by decide⟩).val :=
  dot_S5000x133_S133x300_S5000x300_1_0_0_1_n_n.lhsIdx_val_of_single rfl i q
theorem rhsA_0 (i : S5000x300.Idx) (q : dot_S5000x133_S133x300_S5000x300_1_0_0_1_n_n.contr.Idx) :
    (dot_S5000x133_S133x300_S5000x300_1_0_0_1_n_n.rhsIdx i q 0).val = (q ⟨0, by decide⟩).val :=
  dot_S5000x133_S133x300_S5000x300_1_0_0_1_n_n.rhsIdx_val_of_single rfl i q
theorem rhsA_1 (i : S5000x300.Idx) (q : dot_S5000x133_S133x300_S5000x300_1_0_0_1_n_n.contr.Idx) :
    (dot_S5000x133_S133x300_S5000x300_1_0_0_1_n_n.rhsIdx i q 1).val = (i 1).val := by
  unfold DotDims.rhsIdx
  rw [dif_neg (show ¬(1 : Fin S133x300.rank) ∈ dot_S5000x133_S133x300_S5000x300_1_0_0_1_n_n.rhsBatch by decide), dif_pos (show (1 : Fin S133x300.rank) ∈ dot_S5000x133_S133x300_S5000x300_1_0_0_1_n_n.rhsNonContracting by decide)]
  rfl

/-- The atom-feature product into the zero accumulator, at row p and column q: the sum over the 133 feature columns. -/
theorem matmulA_apply (l : FVec Ideal S5000x133 .bf16) (r : FVec Ideal S133x300 .bf16) (p : Fin 5000) (q : Fin 300) :
    matmul dot_S5000x133_S133x300_S5000x300_1_0_0_1_n_n none l r (constant (F := Ideal) S5000x300 .f32 0x00000000#32) (ix2 p q)
      = ∑ k : Fin 133, l (ix2 p k) * r (ix2 k q) := by
  refine (Ideal.matmul_constant_zero_apply dot_S5000x133_S133x300_S5000x300_1_0_0_1_n_n none l r (ix2 p q)).trans ?_
  rw [← Equiv.sum_comp (ValueIdx.contrEquiv1 dot_S5000x133_S133x300_S5000x300_1_0_0_1_n_n 133 rfl rfl).symm]
  refine Finset.sum_congr rfl fun k _ => ?_
  have hk := ValueIdx.contrEquiv1_symm_val dot_S5000x133_S133x300_S5000x300_1_0_0_1_n_n 133 rfl rfl k
  have el : dot_S5000x133_S133x300_S5000x300_1_0_0_1_n_n.lhsIdx (ix2 p q) ((ValueIdx.contrEquiv1 dot_S5000x133_S133x300_S5000x300_1_0_0_1_n_n 133 rfl rfl).symm k) = ix2 p k := funext fun a => Fin.ext (by
    match a with
    | ⟨0, _⟩ => exact lhsA_0 _ _
    | ⟨1, _⟩ => exact (lhsA_1 _ _).trans hk)
  have er : dot_S5000x133_S133x300_S5000x300_1_0_0_1_n_n.rhsIdx (ix2 p q) ((ValueIdx.contrEquiv1 dot_S5000x133_S133x300_S5000x300_1_0_0_1_n_n 133 rfl rfl).symm k) = ix2 k q := funext fun a => Fin.ext (by
    match a with
    | ⟨0, _⟩ => exact (rhsA_0 _ _).trans hk
    | ⟨1, _⟩ => exact rhsA_1 _ _)
  rw [el, er]

theorem lhsM_0 (i : S5000x300.Idx) (q : dot_S5000x300_S300x300_S5000x300_1_0_0_1_n_n.contr.Idx) :
    (dot_S5000x300_S300x300_S5000x300_1_0_0_1_n_n.lhsIdx i q 0).val = (i 0).val := by
  unfold DotDims.lhsIdx
  rw [dif_neg (show ¬(0 : Fin S5000x300.rank) ∈ dot_S5000x300_S300x300_S5000x300_1_0_0_1_n_n.lhsBatch by decide), dif_pos (show (0 : Fin S5000x300.rank) ∈ dot_S5000x300_S300x300_S5000x300_1_0_0_1_n_n.lhsNonContracting by decide)]
  rfl
theorem lhsM_1 (i : S5000x300.Idx) (q : dot_S5000x300_S300x300_S5000x300_1_0_0_1_n_n.contr.Idx) :
    (dot_S5000x300_S300x300_S5000x300_1_0_0_1_n_n.lhsIdx i q 1).val = (q ⟨0, by decide⟩).val :=
  dot_S5000x300_S300x300_S5000x300_1_0_0_1_n_n.lhsIdx_val_of_single rfl i q
theorem rhsM_0 (i : S5000x300.Idx) (q : dot_S5000x300_S300x300_S5000x300_1_0_0_1_n_n.contr.Idx) :
    (dot_S5000x300_S300x300_S5000x300_1_0_0_1_n_n.rhsIdx i q 0).val = (q ⟨0, by decide⟩).val :=
  dot_S5000x300_S300x300_S5000x300_1_0_0_1_n_n.rhsIdx_val_of_single rfl i q
theorem rhsM_1 (i : S5000x300.Idx) (q : dot_S5000x300_S300x300_S5000x300_1_0_0_1_n_n.contr.Idx) :
    (dot_S5000x300_S300x300_S5000x300_1_0_0_1_n_n.rhsIdx i q 1).val = (i 1).val := by
  unfold DotDims.rhsIdx
  rw [dif_neg (show ¬(1 : Fin S300x300.rank) ∈ dot_S5000x300_S300x300_S5000x300_1_0_0_1_n_n.rhsBatch by decide), dif_pos (show (1 : Fin S300x300.rank) ∈ dot_S5000x300_S300x300_S5000x300_1_0_0_1_n_n.rhsNonContracting by decide)]
  rfl

/-- The message product into the zero accumulator, at row p and column q: the sum over the 300 hidden columns. -/
theorem matmulM_apply (l : FVec Ideal S5000x300 .bf16) (r : FVec Ideal S300x300 .bf16) (p : Fin 5000) (q : Fin 300) :
    matmul dot_S5000x300_S300x300_S5000x300_1_0_0_1_n_n none l r (constant (F := Ideal) S5000x300 .f32 0x00000000#32) (ix2 p q)
      = ∑ k : Fin 300, l (ix2 p k) * r (ix2 k q) := by
  refine (Ideal.matmul_constant_zero_apply dot_S5000x300_S300x300_S5000x300_1_0_0_1_n_n none l r (ix2 p q)).trans ?_
  rw [← Equiv.sum_comp (ValueIdx.contrEquiv1 dot_S5000x300_S300x300_S5000x300_1_0_0_1_n_n 300 rfl rfl).symm]
  refine Finset.sum_congr rfl fun k _ => ?_
  have hk := ValueIdx.contrEquiv1_symm_val dot_S5000x300_S300x300_S5000x300_1_0_0_1_n_n 300 rfl rfl k
  have el : dot_S5000x300_S300x300_S5000x300_1_0_0_1_n_n.lhsIdx (ix2 p q) ((ValueIdx.contrEquiv1 dot_S5000x300_S300x300_S5000x300_1_0_0_1_n_n 300 rfl rfl).symm k) = ix2 p k := funext fun a => Fin.ext (by
    match a with
    | ⟨0, _⟩ => exact lhsM_0 _ _
    | ⟨1, _⟩ => exact (lhsM_1 _ _).trans hk)
  have er : dot_S5000x300_S300x300_S5000x300_1_0_0_1_n_n.rhsIdx (ix2 p q) ((ValueIdx.contrEquiv1 dot_S5000x300_S300x300_S5000x300_1_0_0_1_n_n 300 rfl rfl).symm k) = ix2 k q := funext fun a => Fin.ext (by
    match a with
    | ⟨0, _⟩ => exact (rhsM_0 _ _).trans hk
    | ⟨1, _⟩ => exact rhsM_1 _ _)
  rw [el, er]

/-- The bias row broadcast down the 5000 rows, at row p and column q: the row's entry q. -/
theorem biasRow_apply (x : FVec Ideal S1x300 .f32) (p : Fin 5000) (q : Fin 300) :
    broadcastTo S5000x300 x broadcasts_S1x300_S5000x300 (ix2 p q) = x (ix2 (0 : Fin 1) q) := by
  refine broadcastTo_apply x broadcasts_S1x300_S5000x300 (ix2 p q) (ix2 (0 : Fin 1) q) fun a => ?_
  match a with
  | ⟨0, _⟩ => show 0 = if (1 : Nat) = 1 then 0 else _; rw [if_pos rfl]
  | ⟨1, _⟩ => show q.val = if (300 : Nat) = 1 then 0 else _; rw [if_neg (by decide)]; rfl

/-- The body's stored value at row p, column q of its block. -/
theorem pay_apply (x0 : Vec Ideal S5000x133 .f32) (x1 : Vec Ideal S5000x300 .f32) (x2 : Vec Ideal S133x300 .bf16) (x3 : Vec Ideal S300x300 .bf16) (x4 : Vec Ideal S1x300 .f32) (p : Fin 5000) (q : Fin 300) :
    k3_pay1 (F := Ideal) x0 x1 x2 x3 x4 (ix2 p q)
      = max ((∑ k : Fin 133, x0 (ix2 p k) * x2 (ix2 k q)) + (∑ k : Fin 300, x1 (ix2 p k) * x3 (ix2 k q)) + x4 (ix2 (0 : Fin 1) q)) 0 := by
  unfold k3_pay1
  simp only [shapeCast_self]
  rw [maximumf_apply, addf_apply, addf_apply, biasRow_apply, matmulA_apply, matmulM_apply, broadcast_apply]
  show max _ (Ideal.ofBits .f32 0x00000000#32) = _
  rw [Ideal.ofBits_zero_f32]
  rfl

/-! ## The region's result as one function of the arrays it reads -/

/-- Row p, column q of the result: the features' product with the first weight window plus the messages' product with the
    second plus the bias row's entry, clipped at 0 from below. -/
def g3 (fa : S100000x133.Idx → EReal) (am : S100000x300.Idx → EReal) (wa : S133x300.Idx → EReal) (wm : S300x300.Idx → EReal)
    (bs : S1x300.Idx → EReal) (p : Fin 100000) (q : Fin 300) : EReal :=
  max ((∑ k : Fin 133, fa (ix2 p k) * wa (ix2 k q)) + (∑ k : Fin 300, am (ix2 p k) * wm (ix2 k q)) + bs (ix2 (0 : Fin 1) q)) 0

/-- The whole array. -/
def G3 (fa : S100000x133.Idx → EReal) (am : S100000x300.Idx → EReal) (wa : S133x300.Idx → EReal) (wm : S300x300.Idx → EReal)
    (bs : S1x300.Idx → EReal) : S100000x300.Idx → EReal :=
  fun i => g3 fa am wa wm bs (i 0) (i 1)

/-- The printed index maps, decided over the twenty points: the row windows sit at block row t, everything else at block 0. -/
theorem idx_facts : ∀ t : Fin cfg3.N,
    win3_0.index t (0 : Fin 2) = t.val ∧ win3_0.index t (1 : Fin 2) = 0
  ∧ win3_1.index t (0 : Fin 2) = t.val ∧ win3_1.index t (1 : Fin 2) = 0
  ∧ win3_2.index t (0 : Fin 2) = 0 ∧ win3_2.index t (1 : Fin 2) = 0
  ∧ win3_3.index t (0 : Fin 2) = 0 ∧ win3_3.index t (1 : Fin 2) = 0
  ∧ win3_4.index t (0 : Fin 2) = 0 ∧ win3_4.index t (1 : Fin 2) = 0
  ∧ win3_5.index t (0 : Fin 2) = t.val ∧ win3_5.index t (1 : Fin 2) = 0 :=
  (by decide +kernel : ∀ t : Fin grid3.N, _)

/-- One entry of one block: the body's stored value at row p, column q of a block whose loaded rows are rows P of the
    arrays and whose weight and bias windows are the whole arrays. -/
theorem point_eq (fa : S100000x133.Idx → EReal) (am : S100000x300.Idx → EReal) (wa : S133x300.Idx → EReal) (wm : S300x300.Idx → EReal)
    (bs : S1x300.Idx → EReal)
    (x0 : Vec Ideal S5000x133 .f32) (x1 : Vec Ideal S5000x300 .f32) (x2 : Vec Ideal S133x300 .bf16) (x3 : Vec Ideal S300x300 .bf16) (x4 : Vec Ideal S1x300 .f32)
    (p : Fin 5000) (q : Fin 300) (P : Fin 100000)
    (h0 : ∀ k : Fin 133, x0 (ix2 p k) = fa (ix2 P k)) (h1 : ∀ k : Fin 300, x1 (ix2 p k) = am (ix2 P k))
    (h2 : ∀ k : Fin 133, x2 (ix2 k q) = wa (ix2 k q)) (h3 : ∀ k : Fin 300, x3 (ix2 k q) = wm (ix2 k q))
    (h4 : x4 (ix2 (0 : Fin 1) q) = bs (ix2 (0 : Fin 1) q)) :
    k3_pay1 (F := Ideal) x0 x1 x2 x3 x4 (ix2 p q) = g3 fa am wa wm bs P q := by
  rw [pay_apply]
  unfold g3
  simp only [h0, h1, h2, h3, h4]

/-! ## The reference's expression is the same function -/

/-- A sum over the 433 joined columns is the sum over the first 133 plus the sum over the last 300. -/
theorem sum_split (f : Fin 433 → EReal) :
    ∑ k : Fin 433, f k = (∑ k : Fin 133, f ⟨k.val, by omega⟩) + ∑ k : Fin 300, f ⟨133 + k.val, by omega⟩ :=
  Fin.sum_univ_add (a := 133) (b := 300) f

/-- The reference's product at row P and column q: the sum over the 433 joined columns. -/
theorem refDot_apply (y : FVec Ideal Cert.ReferenceIdeal.S100000x433 .f32) (w : FVec Ideal Cert.ReferenceIdeal.S433x300 .f32) (P : Fin 100000) (q : Fin 300) :
    Host.dotGeneral (φ₁ := .f32) (φ₂ := .f32) Cert.ReferenceIdeal.dot_S100000x433_S433x300_S100000x300_1_0_0_1_n_n none y w (ix2 P q)
      = ∑ k : Fin 433, y (ix2 P k) * w (ix2 k q) := by
  simp only [Host.dotGeneral]
  rw [Ideal.dotGeneral_apply, ← Equiv.sum_comp (ValueIdx.contrEquiv1 Cert.ReferenceIdeal.dot_S100000x433_S433x300_S100000x300_1_0_0_1_n_n 433 rfl rfl).symm]
  refine Finset.sum_congr rfl fun k _ => ?_
  have hk := ValueIdx.contrEquiv1_symm_val Cert.ReferenceIdeal.dot_S100000x433_S433x300_S100000x300_1_0_0_1_n_n 433 rfl rfl k
  have el : Cert.ReferenceIdeal.dot_S100000x433_S433x300_S100000x300_1_0_0_1_n_n.lhsIdx (ix2 P q) ((ValueIdx.contrEquiv1 Cert.ReferenceIdeal.dot_S100000x433_S433x300_S100000x300_1_0_0_1_n_n 433 rfl rfl).symm k) = ix2 P k := funext fun a => Fin.ext (by
    match a with
    | ⟨0, _⟩ => exact Cert.ReferenceIdeal.ReadP.lhs_main_v63_0 _ _
    | ⟨1, _⟩ => exact (Cert.ReferenceIdeal.ReadP.lhs_main_v63_1 _ _).trans hk)
  have er : Cert.ReferenceIdeal.dot_S100000x433_S433x300_S100000x300_1_0_0_1_n_n.rhsIdx (ix2 P q) ((ValueIdx.contrEquiv1 Cert.ReferenceIdeal.dot_S100000x433_S433x300_S100000x300_1_0_0_1_n_n 433 rfl rfl).symm k) = ix2 k q := funext fun a => Fin.ext (by
    match a with
    | ⟨0, _⟩ => exact (Cert.ReferenceIdeal.ReadP.rhs_main_v63_0 _ _).trans hk
    | ⟨1, _⟩ => exact Cert.ReferenceIdeal.ReadP.rhs_main_v63_1 _ _)
  rw [el, er]

/-- The joined rows [x₁ | x₂] at one of the first 133 columns read x₁. -/
theorem cat_left (x₁ : FVec Ideal Cert.ReferenceIdeal.S100000x133 .f32) (x₂ : FVec Ideal Cert.ReferenceIdeal.S100000x300 .f32) (P : Fin 100000) (k : Fin 133) :
    (concatenate Cert.ReferenceIdeal.S100000x433 1 [⟨Cert.ReferenceIdeal.S100000x133, x₁⟩, ⟨Cert.ReferenceIdeal.S100000x300, x₂⟩]
      Cert.ReferenceIdeal.Facts₀.concatenates_S100000x133_S100000x300_S100000x433_d1 : FVec Ideal Cert.ReferenceIdeal.S100000x433 .f32) (ix2 P (⟨k.val, by omega⟩ : Fin 433))
      = x₁ (ix2 P k) := by
  refine concatenate_pair_apply_left (1 : Fin Cert.ReferenceIdeal.S100000x433.rank) x₁ x₂ _ _ rfl (ix2 P k) fun b => ?_
  match b with
  | ⟨0, _⟩ => rfl
  | ⟨1, _⟩ => rfl

/-- The joined rows [x₁ | x₂] at one of the last 300 columns read x₂, 133 columns to the left. -/
theorem cat_right (x₁ : FVec Ideal Cert.ReferenceIdeal.S100000x133 .f32) (x₂ : FVec Ideal Cert.ReferenceIdeal.S100000x300 .f32) (P : Fin 100000) (k : Fin 300) :
    (concatenate Cert.ReferenceIdeal.S100000x433 1 [⟨Cert.ReferenceIdeal.S100000x133, x₁⟩, ⟨Cert.ReferenceIdeal.S100000x300, x₂⟩]
      Cert.ReferenceIdeal.Facts₀.concatenates_S100000x133_S100000x300_S100000x433_d1 : FVec Ideal Cert.ReferenceIdeal.S100000x433 .f32) (ix2 P (⟨133 + k.val, by omega⟩ : Fin 433))
      = x₂ (ix2 P k) := by
  refine concatenate_pair_apply_right (1 : Fin Cert.ReferenceIdeal.S100000x433.rank) x₁ x₂ _ _ rfl rfl (ix2 P k) (fun b hb => ?_) ?_
  · match b with
    | ⟨0, _⟩ => rfl
    | ⟨1, _⟩ => exact absurd rfl hb
  · show k.val + 133 = 133 + k.val
    omega

/-- The bias broadcast down the rows, at row P and column q: entry q of the vector. -/
theorem refBias_apply (b : FVec Ideal Cert.ReferenceIdeal.S300 .f32) (P : Fin 100000) (q : Fin 300) :
    Cert.ReferenceIdeal.ReadP.val_main_v65 (F := Ideal) b (ix2 P q) = b (ix1 q) := by
  rw [Cert.ReferenceIdeal.ReadP.val_main_v65_apply, Cert.ReferenceIdeal.ReadP.val_main_v64_apply]
  refine congrArg b (funext fun a => ?_)
  match a with
  | ⟨0, _⟩ => rfl

/-- The clipping constant, everywhere 0. -/
theorem refZero_apply (i : Cert.ReferenceIdeal.S100000x300.Idx) :
    Cert.ReferenceIdeal.ReadP.val_main_call3_v0 (F := Ideal) i = 0 := by
  rw [Cert.ReferenceIdeal.ReadP.val_main_call3_v0_apply, Cert.ReferenceIdeal.ReadP.val_main_call3_cst_apply]
  exact Ideal.ofBits_zero_f32

/-- The reference's maximum(dot_general([fa | am], wo) + broadcast b, 0) is G3 of the two row ranges of wo and the row b. -/
theorem ref_eq (fa : FVec Ideal Cert.ReferenceIdeal.S100000x133 .f32) (am : FVec Ideal Cert.ReferenceIdeal.S100000x300 .f32)
    (wa : S133x300.Idx → EReal) (wm : S300x300.Idx → EReal) (bs : S1x300.Idx → EReal)
    (wo : FVec Ideal Cert.ReferenceIdeal.S433x300 .f32) (b : FVec Ideal Cert.ReferenceIdeal.S300 .f32)
    (h3 : ∀ (k : Fin 133) (q : Fin 300), wa (ix2 k q) = wo (ix2 (⟨k.val, by omega⟩ : Fin 433) q))
    (h5 : ∀ (k : Fin 300) (q : Fin 300), wm (ix2 k q) = wo (ix2 (⟨133 + k.val, by omega⟩ : Fin 433) q))
    (h21 : ∀ q : Fin 300, bs (ix2 (0 : Fin 1) q) = b (ix1 q)) :
    G3 fa am wa wm bs
      = maximumf (F := Ideal) (φ := .f32)
          (addf (F := Ideal) (φ := .f32)
            (Host.dotGeneral (φ₁ := .f32) (φ₂ := .f32) Cert.ReferenceIdeal.dot_S100000x433_S433x300_S100000x300_1_0_0_1_n_n none
              (concatenate Cert.ReferenceIdeal.S100000x433 1
                [⟨Cert.ReferenceIdeal.S100000x133, fa⟩, ⟨Cert.ReferenceIdeal.S100000x300, am⟩]
                Cert.ReferenceIdeal.Facts₀.concatenates_S100000x133_S100000x300_S100000x433_d1 : FVec Ideal Cert.ReferenceIdeal.S100000x433 .f32)
              wo)
            (Cert.ReferenceIdeal.ReadP.val_main_v65 (F := Ideal) b))
          (Cert.ReferenceIdeal.ReadP.val_main_call3_v0 (F := Ideal)) := by
  funext i
  obtain ⟨P, q, rfl⟩ : ∃ (P : Fin 100000) (q : Fin 300), i = ix2 P q := ⟨i 0, i 1, eq_ix2 i⟩
  rw [maximumf_apply, addf_apply, refDot_apply, refBias_apply, refZero_apply, sum_split]
  simp only [cat_left, cat_right]
  show g3 fa am wa wm bs P q = _
  unfold g3
  simp only [h3, h5, h21]

variable (V : (c : Dev nD) → (b : Ref sig .tc) → Buf (Elt Ideal) ((c : Thread nD τ).loc b))

/-- What point t writes back is block t of G3 of the arrays as the region finds them. -/
theorem flushed_eq (c : Dev nD) (t : Fin cfg3.N) :
    (dat3 (F := Ideal) V c).flushed 5 t = ((cfg3.win 5).blk t).view.read (Elt Ideal)
      (G3 (V c main_arg0) (V c main_v20) (V c main_v3) (V c main_v5) (V c main_v21)) := by
  show (cfg3.win 5).cut (grid3.coords t) ((dat3 (F := Ideal) V c).after 5 t) = _
  rw [after3_5]
  unfold out3_5
  rw [View.canon_unit_zero hz]
  simp only [View.ld_unit_zero (S := S5000x133) hz, View.ld_unit_zero (S := S5000x300) hz, View.ld_unit_zero (S := S133x300) hz, View.ld_unit_zero (S := S300x300) hz, View.ld_unit_zero (S := S1x300) hz]
  obtain ⟨e00, e01, e10, e11, e20, e21, e30, e31, e40, e41, e50, e51⟩ := idx_facts t
  funext j
  obtain ⟨p, q, rfl⟩ : ∃ (p : Fin 5000) (q : Fin 300), j = ix2 p q := ⟨j 0, j 1, eq_ix2 j⟩
  have hN : t.val < 20 := lt_of_lt_of_eq t.isLt N_3
  have hP : t.val * 5000 + p.val < 100000 := by have := p.isLt; omega
  rw [View.read_apply]
  show k3_pay1 (F := Ideal) (iblk3 V c 0 t) (iblk3 V c 1 t) (iblk3 V c 2 t) (iblk3 V c 3 t) (iblk3 V c 4 t) (ix2 p q)
    = g3 (V c main_arg0) (V c main_v20) (V c main_v3) (V c main_v5) (V c main_v21) ((((cfg3.win 5).blk t).view.emb (ix2 p q)) 0) ((((cfg3.win 5).blk t).view.emb (ix2 p q)) 1)
  have E0 : (((cfg3.win 5).blk t).view.emb (ix2 p q)) 0 = (⟨t.val * 5000 + p.val, hP⟩ : Fin 100000) :=
    Fin.ext (by show win3_5.index t (0 : Fin 2) * 5000 + 1 * p.val = t.val * 5000 + p.val; rw [e50]; omega)
  have E1 : (((cfg3.win 5).blk t).view.emb (ix2 p q)) 1 = q :=
    Fin.ext (by show win3_5.index t (1 : Fin 2) * 300 + 1 * q.val = q.val; rw [e51]; omega)
  rw [E0, E1]
  refine point_eq (V c main_arg0) (V c main_v20) (V c main_v3) (V c main_v5) (V c main_v21)
    (iblk3 V c 0 t) (iblk3 V c 1 t) (iblk3 V c 2 t) (iblk3 V c 3 t) (iblk3 V c 4 t) p q ⟨t.val * 5000 + p.val, hP⟩ ?_ ?_ ?_ ?_ ?_
  · intro k
    show V c main_arg0 (((cfg3.win 0).blk t).view.emb (ix2 p k)) = V c main_arg0 (ix2 (⟨t.val * 5000 + p.val, hP⟩ : Fin 100000) k)
    refine congrArg _ (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 133 + 1 * k.val = k.val; rw [e01]; omega
  · intro k
    show V c main_v20 (((cfg3.win 1).blk t).view.emb (ix2 p k)) = V c main_v20 (ix2 (⟨t.val * 5000 + p.val, hP⟩ : Fin 100000) k)
    refine congrArg _ (funext fun a => Fin.ext ?_)
    match a with
    | ⟨0, _⟩ => show win3_1.index t (0 : Fin 2) * 5000 + 1 * p.val = t.val * 5000 + p.val; rw [e10]; omega
    | ⟨1, _⟩ => show win3_1.index t (1 : Fin 2) * 300 + 1 * k.val = k.val; rw [e11]; omega
  · intro k
    show V c main_v3 (((cfg3.win 2).blk t).view.emb (ix2 k q)) = V c main_v3 (ix2 k q)
    refine congrArg _ (funext fun a => Fin.ext ?_)
    match a with
    | ⟨0, _⟩ => show win3_2.index t (0 : Fin 2) * 133 + 1 * k.val = k.val; rw [e20]; omega
    | ⟨1, _⟩ => show win3_2.index t (1 : Fin 2) * 300 + 1 * q.val = q.val; rw [e21]; omega
  · intro k
    show V c main_v5 (((cfg3.win 3).blk t).view.emb (ix2 k q)) = V c main_v5 (ix2 k q)
    refine congrArg _ (funext fun a => Fin.ext ?_)
    match a with
    | ⟨0, _⟩ => show win3_3.index t (0 : Fin 2) * 300 + 1 * k.val = k.val; rw [e30]; omega
    | ⟨1, _⟩ => show win3_3.index t (1 : Fin 2) * 300 + 1 * q.val = q.val; rw [e31]; omega
  · show V c main_v21 (((cfg3.win 4).blk t).view.emb (ix2 (0 : Fin 1) q)) = V c main_v21 (ix2 (0 : Fin 1) q)
    refine congrArg _ (funext fun a => Fin.ext ?_)
    match a with
    | ⟨0, _⟩ => show win3_4.index t (0 : Fin 2) * 1 + 1 * 0 = 0; rw [e40]
    | ⟨1, _⟩ => show win3_4.index t (1 : Fin 2) * 300 + 1 * q.val = q.val; rw [e41]; omega

/-- An index of the result is in point t's block iff each coordinate is in the block's range on its axis. -/
theorem mem_blk (t : Fin cfg3.N) (i : S100000x300.Idx) :
    i ∈ ((cfg3.win 5).blk t).view.set ↔ ∀ a : Fin 2, win3_5.index t a * S5000x300.size a ≤ (i a).val ∧ (i a).val < win3_5.index t a * S5000x300.size a + S5000x300.size a := by
  show i ∈ ((View.whole main_v22).slice (win3_5.rect t)).set ↔ _
  rw [View.set_slice_whole, Rect.mem_set_unit]
  exact Iff.rfl

/-- Row r of the result is in the block of point r / 5000, and every point writes back. -/
theorem cover (i : S100000x300.Idx) :
    ∃ t : Fin cfg3.N, (cfg3.win 5).flush t = true ∧ i ∈ ((cfg3.win 5).blk t).view.set := by
  have hi0 : (i 0).val < 100000 := (i 0).isLt
  have hi1 : (i 1).val < 300 := (i 1).isLt
  have ht : (i 0).val / 5000 < cfg3.N := lt_of_lt_of_eq (by omega) N_3.symm
  refine ⟨⟨(i 0).val / 5000, ht⟩, flush3_5 _, ?_⟩
  rw [mem_blk]
  obtain ⟨_, _, _, _, _, _, _, _, _, _, e50, e51⟩ := idx_facts ⟨(i 0).val / 5000, ht⟩
  intro a
  match a with
  | ⟨0, _⟩ => show win3_5.index ⟨(i 0).val / 5000, ht⟩ (0 : Fin 2) * 5000 ≤ (i 0).val ∧ (i 0).val < win3_5.index ⟨(i 0).val / 5000, ht⟩ (0 : Fin 2) * 5000 + 5000; rw [e50]; show (i 0).val / 5000 * 5000 ≤ (i 0).val ∧ (i 0).val < (i 0).val / 5000 * 5000 + 5000; omega
  | ⟨1, _⟩ => show win3_5.index ⟨(i 0).val / 5000, ht⟩ (1 : Fin 2) * 300 ≤ (i 1).val ∧ (i 1).val < win3_5.index ⟨(i 0).val / 5000, ht⟩ (1 : Fin 2) * 300 + 300; rw [e51]; omega

/-- The region's output array after its twenty points. -/
theorem final (c : Dev nD) :
    (dat3 (F := Ideal) V c).arrAt 5 cfg3.N = G3 (V c main_arg0) (V c main_v20) (V c main_v3) (V c main_v5) (V c main_v21) :=
  (dat3 (F := Ideal) V c).arrAt_eq_of_cover 5 _ (fun t _ => flushed_eq V c t) cover

/-- What region 3 leaves in its output array, from ANY entry contents V whose weight windows hold the two row ranges
    of one 433×300 matrix wo and whose bias window holds the vector b as one row: the reference's
    maximum(dot_general([fa | am], wo) + broadcast b, 0), fa the array staged through window 0 (main_arg0) and am
    through window 1 (main_v20). -/
theorem arr3 (c : Dev nD) (wo : FVec Ideal Cert.ReferenceIdeal.S433x300 .f32) (b : FVec Ideal Cert.ReferenceIdeal.S300 .f32)
    (h3 : ∀ (k : Fin 133) (q : Fin 300), (V c main_v3 : S133x300.Idx → EReal) (ix2 k q) = wo (ix2 (⟨k.val, by omega⟩ : Fin 433) q))
    (h5 : ∀ (k : Fin 300) (q : Fin 300), (V c main_v5 : S300x300.Idx → EReal) (ix2 k q) = wo (ix2 (⟨133 + k.val, by omega⟩ : Fin 433) q))
    (h21 : ∀ q : Fin 300, (V c main_v21 : S1x300.Idx → EReal) (ix2 (0 : Fin 1) q) = b (ix1 q)) :
    ((dat3 (F := Ideal) V c).arrAt 5 cfg3.N : FVec Ideal Cert.ReferenceIdeal.S100000x300 .f32)
      = maximumf (F := Ideal) (φ := .f32)
          (addf (F := Ideal) (φ := .f32)
            (Host.dotGeneral (φ₁ := .f32) (φ₂ := .f32) Cert.ReferenceIdeal.dot_S100000x433_S433x300_S100000x300_1_0_0_1_n_n none
              (concatenate Cert.ReferenceIdeal.S100000x433 1
                [⟨Cert.ReferenceIdeal.S100000x133, (V c main_arg0 : FVec Ideal Cert.ReferenceIdeal.S100000x133 .f32)⟩,
                 ⟨Cert.ReferenceIdeal.S100000x300, (V c main_v20 : FVec Ideal Cert.ReferenceIdeal.S100000x300 .f32)⟩]
                Cert.ReferenceIdeal.Facts₀.concatenates_S100000x133_S100000x300_S100000x433_d1 : FVec Ideal Cert.ReferenceIdeal.S100000x433 .f32)
              wo)
            (Cert.ReferenceIdeal.ReadP.val_main_v65 (F := Ideal) b))
          (Cert.ReferenceIdeal.ReadP.val_main_call3_v0 (F := Ideal)) :=
  (final V c).trans (ref_eq (V c main_arg0) (V c main_v20) (V c main_v3) (V c main_v5) (V c main_v21) wo b h3 h5 h21)

end Cert.KernelIdeal.Region3

end
-- ==== Proof.StageHidden.lean ====
/-
  The atom hidden states: the last pallas_call against the reference's relu([f_atoms | a_message] · W_o + b_o).
  The two weight windows hold the first 133 and the last 300 rows of W_o (sliced on the host before the first
  pallas_call and untouched since; the change of float format is the identity on the extended reals), the bias window
  holds b_o as one row (a reshape), f_atoms is as launched and a_message is the last neighbour sum.
-/
import proofs.«417200_j83743272337589_3_alg».proof.Proof.StageSum3
import proofs.«417200_j83743272337589_3_alg».proof.Proof.Region3

set_option maxRecDepth 16384

noncomputable section

namespace Cert.KernelIdeal.Stages

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

open Idealize.ShloMosaic.ValueIdx Idealize.ShloMosaic.StableHlo

/-- The first weight window's array is untouched between the first host stretch and the last pallas_call. -/
theorem w16_wa (c : Dev nD) : W16 m ρ c (Proc.devRef .tc main_v3) = W1 m ρ c (Proc.devRef .tc main_v3) :=
  calc W16 m ρ c (Proc.devRef .tc main_v3)
    _ = W15 m ρ c (Proc.devRef .tc main_v3) := by not_written hostOps3_1
    _ = W14 m ρ c (Proc.devRef .tc main_v3) := by not_written hostOps3
    _ = W13 m ρ c (Proc.devRef .tc main_v3) := W14_of_ne m ρ c main_v3 (by decide)
    _ = W12 m ρ c (Proc.devRef .tc main_v3) := by not_written hostOps2_3
    _ = W11 m ρ c (Proc.devRef .tc main_v3) := by not_written hostOps2_2
    _ = W10 m ρ c (Proc.devRef .tc main_v3) := by not_written hostOps2_1
    _ = W9 m ρ c (Proc.devRef .tc main_v3) := by not_written hostOps2
    _ = W8 m ρ c (Proc.devRef .tc main_v3) := W9_of_ne m ρ c main_v3 (by decide)
    _ = W7 m ρ c (Proc.devRef .tc main_v3) := by not_written hostOps1_5
    _ = W6 m ρ c (Proc.devRef .tc main_v3) := by not_written hostOps1_4
    _ = W5 m ρ c (Proc.devRef .tc main_v3) := by not_written hostOps1_3
    _ = W4 m ρ c (Proc.devRef .tc main_v3) := by not_written hostOps1_2
    _ = W3 m ρ c (Proc.devRef .tc main_v3) := by not_written hostOps1_1
    _ = W2 m ρ c (Proc.devRef .tc main_v3) := by not_written hostOps1
    _ = W1 m ρ c (Proc.devRef .tc main_v3) := W2_of_ne m ρ c main_v3 (by decide)

/-- The second weight window's array likewise. -/
theorem w16_wm (c : Dev nD) : W16 m ρ c (Proc.devRef .tc main_v5) = W1 m ρ c (Proc.devRef .tc main_v5) :=
  calc W16 m ρ c (Proc.devRef .tc main_v5)
    _ = W15 m ρ c (Proc.devRef .tc main_v5) := by not_written hostOps3_1
    _ = W14 m ρ c (Proc.devRef .tc main_v5) := by not_written hostOps3
    _ = W13 m ρ c (Proc.devRef .tc main_v5) := W14_of_ne m ρ c main_v5 (by decide)
    _ = W12 m ρ c (Proc.devRef .tc main_v5) := by not_written hostOps2_3
    _ = W11 m ρ c (Proc.devRef .tc main_v5) := by not_written hostOps2_2
    _ = W10 m ρ c (Proc.devRef .tc main_v5) := by not_written hostOps2_1
    _ = W9 m ρ c (Proc.devRef .tc main_v5) := by not_written hostOps2
    _ = W8 m ρ c (Proc.devRef .tc main_v5) := W9_of_ne m ρ c main_v5 (by decide)
    _ = W7 m ρ c (Proc.devRef .tc main_v5) := by not_written hostOps1_5
    _ = W6 m ρ c (Proc.devRef .tc main_v5) := by not_written hostOps1_4
    _ = W5 m ρ c (Proc.devRef .tc main_v5) := by not_written hostOps1_3
    _ = W4 m ρ c (Proc.devRef .tc main_v5) := by not_written hostOps1_2
    _ = W3 m ρ c (Proc.devRef .tc main_v5) := by not_written hostOps1_1
    _ = W2 m ρ c (Proc.devRef .tc main_v5) := by not_written hostOps1
    _ = W1 m ρ c (Proc.devRef .tc main_v5) := W2_of_ne m ρ c main_v5 (by decide)

/-- b_o is as launched when the last host stretch before the last pallas_call begins. -/
theorem w15_bo (c : Dev nD) : W15 m ρ c (Proc.devRef .tc main_arg5) = m ((c : Thread nD τ).loc main_arg5) := by
  have h1 : W19 m ρ c (Proc.devRef .tc main_arg5) = W18 m ρ c (Proc.devRef .tc main_arg5) := by not_written hostOps4_1
  have h2 : W18 m ρ c (Proc.devRef .tc main_arg5) = W17 m ρ c (Proc.devRef .tc main_arg5) := by not_written hostOps4
  have h3 : W17 m ρ c (Proc.devRef .tc main_arg5) = W16 m ρ c (Proc.devRef .tc main_arg5) := W17_of_ne m ρ c main_arg5 (by decide)
  have h4 : W16 m ρ c (Proc.devRef .tc main_arg5) = W15 m ρ c (Proc.devRef .tc main_arg5) := by not_written hostOps3_1
  exact (h4.symm.trans (h3.symm.trans (h2.symm.trans h1.symm))).trans (W19_main_arg5 m ρ c)

/-- f_atoms is as launched when the last pallas_call is entered. -/
theorem w16_fa (c : Dev nD) : W16 m ρ c (Proc.devRef .tc main_arg0) = m ((c : Thread nD τ).loc main_arg0) := by
  have h1 : W19 m ρ c (Proc.devRef .tc main_arg0) = W18 m ρ c (Proc.devRef .tc main_arg0) := by not_written hostOps4_1
  have h2 : W18 m ρ c (Proc.devRef .tc main_arg0) = W17 m ρ c (Proc.devRef .tc main_arg0) := by not_written hostOps4
  have h3 : W17 m ρ c (Proc.devRef .tc main_arg0) = W16 m ρ c (Proc.devRef .tc main_arg0) :=
    (W17_arr m ρ c 0).trans (((dat3 (V16 m ρ) c).arrAt_in 0 rfl _).trans (A_eq3 (V16 m ρ) c 0))
  exact (h3.symm.trans (h2.symm.trans h1.symm)).trans (W19_main_arg0 m ρ c)

/-- The first weight window holds rows 0 … 132 of W_o. -/
theorem wa_apply (c : Dev nD) (k : Fin 133) (q : Fin 300) :
    (V16 m ρ c main_v3 : S133x300.Idx → EReal) (ix2 k q)
      = (m ((c : Thread nD τ).loc main_arg4) : S433x300.Idx → EReal) (ix2 (⟨k.val, by omega⟩ : Fin 433) q) := by
  have e1 : W1 m ρ c (Proc.devRef .tc main_v3)
      = (extractStridedSlice S133x300 ![0, 0] (m ((c : Thread nD τ).loc main_arg4)) slices_S433x300_S133x300_0_0 : S133x300.Idx → EReal) := by
    show StableHlo.after hostOps0 (W0 m ρ c) (Proc.devRef .tc main_v3) = _
    simp only [hostOps0]
    after_results
    rfl
  show W16 m ρ c (Proc.devRef .tc main_v3) (ix2 k q) = _
  rw [w16_wa m ρ c, e1]
  refine extractStridedSlice_apply _ _ _ _ _ (fun a => ?_)
  match a with
  | ⟨0, _⟩ => show k.val = 0 + k.val; omega
  | ⟨1, _⟩ => show q.val = 0 + q.val; omega

/-- The second weight window holds rows 133 … 432 of W_o. -/
theorem wm_apply (c : Dev nD) (k : Fin 300) (q : Fin 300) :
    (V16 m ρ c main_v5 : S300x300.Idx → EReal) (ix2 k q)
      = (m ((c : Thread nD τ).loc main_arg4) : S433x300.Idx → EReal) (ix2 (⟨133 + k.val, by omega⟩ : Fin 433) q) := by
  have e1 : W1 m ρ c (Proc.devRef .tc main_v5)
      = (extractStridedSlice S300x300 ![133, 0] (m ((c : Thread nD τ).loc main_arg4)) slices_S433x300_S300x300_133_0 : S300x300.Idx → EReal) := by
    show StableHlo.after hostOps0 (W0 m ρ c) (Proc.devRef .tc main_v5) = _
    simp only [hostOps0]
    after_results
    rfl
  show W16 m ρ c (Proc.devRef .tc main_v5) (ix2 k q) = _
  rw [w16_wm m ρ c, e1]
  refine extractStridedSlice_apply _ _ _ _ _ (fun a => ?_)
  match a with
  | ⟨0, _⟩ => show 133 + k.val = 133 + k.val; rfl
  | ⟨1, _⟩ => show q.val = 0 + q.val; omega

/-- The bias window holds b_o as its one row. -/
theorem bo_apply (c : Dev nD) (q : Fin 300) :
    (V16 m ρ c main_v21 : S1x300.Idx → EReal) (ix2 (0 : Fin 1) q)
      = (m ((c : Thread nD τ).loc main_arg5) : S300.Idx → EReal) (ix1 q) := by
  have e1 : W16 m ρ c (Proc.devRef .tc main_v21)
      = (shapeCast S1x300 (W15 m ρ c (Proc.devRef .tc main_arg5)) shapeCasts_S300_S1x300 : S1x300.Idx → EReal) := by
    show StableHlo.after hostOps3_1 (W15 m ρ c) (Proc.devRef .tc main_v21) = _
    simp only [hostOps3_1]
    after_results
    rfl
  show W16 m ρ c (Proc.devRef .tc main_v21) (ix2 (0 : Fin 1) q) = _
  rw [e1, w15_bo m ρ c]
  refine shapeCast_apply _ _ _ _ ?_
  exact (Shape.rowMajor_val_one (d := ![300]) (ix1 q)).trans
    (Eq.symm ((Shape.rowMajor_val_two (d := ![1, 300]) (ix2 (0 : Fin 1) q)).trans
      (by show (0 : Fin 1).val * 300 + q.val = q.val; simp)))

/-- The atom hidden states. -/
theorem hid_eq (hr : InRange m) (c : Dev nD) :
    W17 m ρ c (Proc.devRef .tc main_v22) = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := W17_arr m ρ c 5
  rw [Region3.arr3 (V16 m ρ) c (m ((c : Thread nD τ).loc main_arg4)) (m ((c : Thread nD τ).loc main_arg5))
    (wa_apply m ρ c) (wm_apply m ρ c) (bo_apply m ρ c)] at h
  dsimp only [V16] at h
  rw [w16_fa m ρ c, am3_eq m ρ hr c] at h
  exact h

end Cert.KernelIdeal.Stages

end
-- ==== Proof.StageOut.lean ====
/-
  The result: the segment mean over atom_mol_ids.  Both programs apply the same host operations to the atom hidden
  states — a scatter-add of the rows into 5000 segments, the same scatter-add of ones for the counts, the quotient by
  max(count, 1) and a select on count > 0 — so the equality of the hidden states carries to the result unopened.
-/
import proofs.«417200_j83743272337589_3_alg».proof.Proof.StageHidden

set_option maxRecDepth 16384

noncomputable section

namespace Cert.KernelIdeal.Stages

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- atom_mol_ids is as launched when the last pallas_call has returned: nothing writes an argument. -/
theorem w17_ids (c : Dev nD) : W17 m ρ c (Proc.devRef .tc main_arg9) = m ((c : Thread nD τ).loc main_arg9) := by
  have h1 : W19 m ρ c (Proc.devRef .tc main_arg9) = W18 m ρ c (Proc.devRef .tc main_arg9) := by
    show StableHlo.after hostOps4_1 (W18 m ρ c) (Proc.devRef .tc main_arg9) = _
    not_written hostOps4_1
  have h2 : W18 m ρ c (Proc.devRef .tc main_arg9) = W17 m ρ c (Proc.devRef .tc main_arg9) := by
    show StableHlo.after hostOps4 (W17 m ρ c) (Proc.devRef .tc main_arg9) = _
    not_written hostOps4
  exact (h2.symm.trans h1.symm).trans (W19_main_arg9 m ρ c)

/-- The result. -/
theorem out_eq (hr : InRange m) (c : Dev nD) :
    W19 m ρ c (Proc.devRef .tc main_v39) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps4_1 (StableHlo.after hostOps4 (W17 m ρ c)) (Proc.devRef .tc main_v39) = _
  simp only [hostOps4, hostOps4_1]
  after_results_simp
  simp only [StableHlo.TRef.ofBuf, StableHlo.TRef.toBuf, cast_eq]
  rw [hid_eq m ρ hr c, w17_ids m ρ c]
  rfl

end Cert.KernelIdeal.Stages

end
-- ==== Proof.lean ====
/-
  `Cert.Claim` for the message-passing encoder: three pallas_calls' worth of matrix products (bond features times
  W_i; twice the update relu(inp + (a_message[b2a] − message[b2revb]) · W_h); the atom output
  relu(f_atoms · W_o[:133] + a_message · W_o[133:] + b_o)) with the neighbour sums, the row gathers and the segment
  mean on the host, against the reference's host-only program.

  The claim is stated under a precondition that, beside the finiteness of the float inputs, keeps every index word
  inside its table: a2b and b2revb name bonds, b2a names atoms.  Outside that domain the reference itself indexes
  out of range (its gathers clamp silently) while the kernel program's jnp.take fills such rows with a NaN word, and
  the two results differ; inside it every gather of the kernel program reads the row the reference reads.

  The frames of the two kernel programs are the generated ones; the reference's is its run with the result
  dropped.  The idealization rewrote nothing, so `preserves` is trivial.  For `algebraic` both programs end at ONE
  function of the arguments, the reference's last stage `val_main_v84`: the kernel program's result buffer is read at
  its last segment boundary (RunValue) and that boundary's contents are the stage (Stages.out_eq, through every
  boundary in turn); the reference's run states its result as the composed term, which is the stage by unfolding.
  No algebraic law beyond the commutativity and associativity of sums of extended reals is used (the split of the
  433-column product in the atom output), so the finiteness of the inputs is never opened.
-/
import proofs.«417200_j83743272337589_3_alg».proof.Defs
import proofs.«417200_j83743272337589_3_alg».proof.Proof.Gen.Kernel
import proofs.«417200_j83743272337589_3_alg».proof.Proof.Gen.Kernel.Frame
import proofs.«417200_j83743272337589_3_alg».proof.Proof.Gen.KernelIdeal
import proofs.«417200_j83743272337589_3_alg».proof.Proof.Gen.KernelIdeal.Frame
import proofs.«417200_j83743272337589_3_alg».proof.Proof.Gen.ReferenceIdeal
import proofs.«417200_j83743272337589_3_alg».proof.Proof.Gen.Pre_finite_inputs
import proofs.«417200_j83743272337589_3_alg».proof.Proof.RefRun
import proofs.«417200_j83743272337589_3_alg».proof.Proof.RefRead
import proofs.«417200_j83743272337589_3_alg».proof.Proof.RunValue
import proofs.«417200_j83743272337589_3_alg».proof.Proof.PreRange
import proofs.«417200_j83743272337589_3_alg».proof.Proof.StageOut
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end at the reference's last stage of the (agreeing) arguments. -/
theorem algebraic : Cert.algebraic_KernelIdeal_ReferenceIdeal := by
  intro m ρ m' ρ' hpre hagree
  have hr := Cert.KernelIdeal.Stages.inRange_of_pre m hpre
  refine ⟨fun c => Cert.ReferenceIdeal.ReadP.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Stages.out_eq m ρ hr c), (h c).2⟩)
      (Cert.KernelIdeal.GenV.run_value m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v84_eq]
    obtain ⟨h0, h1, h2, h3, h4, h5, h6, h7, h8, h9⟩ := hagree c
    rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
